-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![768, 384]⟩ ⟨2, ![768, 768]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![384, 768]⟩ ⟨2, ![768, 1536]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![768, 768]⟩ ⟨2, ![768, 1536]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S768x384 : Shape := ⟨2, ![768, 384]⟩
abbrev S384x768 : Shape := ⟨2, ![384, 768]⟩
abbrev S_ : Shape := ⟨0, ![]⟩

class Facts : Prop where
  bcast_S_S768x384 : S_.BroadcastsInDim S768x384 (![] : Fin 0 → Fin S768x384.rank)
  reducesTo_S768x384_S_d0_1 : S768x384.ReducesTo [0, 1] S_
  h_S_ : 0 < S_.numel
  bcast_S_S384x768 : S_.BroadcastsInDim S384x768 (![] : Fin 0 → Fin S384x768.rank)
  reducesTo_S384x768_S_d0_1 : S384x768.ReducesTo [0, 1] S_

variable [Facts]

def fn {F : FTy → Type} [FloatOps F] (main_arg0 : FVec F S768x384 .f32) (main_arg1 : FVec F S384x768 .f32) : IVec S_ 1 :=
  let main_v0 : FVec F S768x384 .f32 := Host.absf main_arg0
  let main_cst : FVec F S_ .f32 := constant S_ .f32 0x7F800000#32
  let main_v1 : FVec F S768x384 .f32 := broadcastInDim S768x384 ![] bcast_S_S768x384 main_cst
  let main_v2 : IVec S768x384 1 := cmpf .olt main_v0 main_v1
  let main_c : IVec S_ 1 := constantI S_ 1 1#1
  let main_v3 : IVec S_ 1 := (fun x v => Host.reduce IntOp.andi x v reducesTo_S768x384_S_d0_1 h_S_) main_v2 main_c
  let main_v4 : FVec F S384x768 .f32 := Host.absf main_arg1
  let main_cst_0 : FVec F S_ .f32 := constant S_ .f32 0x7F800000#32
  let main_v5 : FVec F S384x768 .f32 := broadcastInDim S384x768 ![] bcast_S_S384x768 main_cst_0
  let main_v6 : IVec S384x768 1 := cmpf .olt main_v4 main_v5
  let main_c_1 : IVec S_ 1 := constantI S_ 1 1#1
  let main_v7 : IVec S_ 1 := (fun x v => Host.reduce IntOp.andi x v reducesTo_S384x768_S_d0_1 h_S_) main_v6 main_c_1
  let main_v8 : IVec S_ 1 := andi main_v3 main_v7
  main_v8
-- ==== Pre_finite_inputs_ReferenceIdeal.lean ====
abbrev S768x768 : Shape := ⟨2, ![768, 768]⟩
abbrev S768x1536 : Shape := ⟨2, ![768, 1536]⟩
abbrev S_ : Shape := ⟨0, ![]⟩

class Facts : Prop where
  bcast_S_S768x768 : S_.BroadcastsInDim S768x768 (![] : Fin 0 → Fin S768x768.rank)
  reducesTo_S768x768_S_d0_1 : S768x768.ReducesTo [0, 1] S_
  h_S_ : 0 < S_.numel
  bcast_S_S768x1536 : S_.BroadcastsInDim S768x1536 (![] : Fin 0 → Fin S768x1536.rank)
  reducesTo_S768x1536_S_d0_1 : S768x1536.ReducesTo [0, 1] S_

variable [Facts]

def fn {F : FTy → Type} [FloatOps F] (main_arg0 : FVec F S768x768 .f32) (main_arg1 : FVec F S768x1536 .f32) : IVec S_ 1 :=
  let main_v0 : FVec F S768x768 .f32 := Host.absf main_arg0
  let main_cst : FVec F S_ .f32 := constant S_ .f32 0x7F800000#32
  let main_v1 : FVec F S768x768 .f32 := broadcastInDim S768x768 ![] bcast_S_S768x768 main_cst
  let main_v2 : IVec S768x768 1 := cmpf .olt main_v0 main_v1
  let main_c : IVec S_ 1 := constantI S_ 1 1#1
  let main_v3 : IVec S_ 1 := (fun x v => Host.reduce IntOp.andi x v reducesTo_S768x768_S_d0_1 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  main_v8
-- ==== Kernel.lean ====
abbrev S768x384 : Shape := ⟨2, ![768, 384]⟩
abbrev S384x768 : Shape := ⟨2, ![384, 768]⟩
abbrev S768x768 : Shape := ⟨2, ![768, 768]⟩
abbrev S384x384 : Shape := ⟨2, ![384, 384]⟩
abbrev S_ : Shape := ⟨0, ![]⟩
abbrev S3 : Shape := ⟨1, ![3]⟩
abbrev S1 : Shape := ⟨1, ![1]⟩
abbrev S384x256 : Shape := ⟨2, ![384, 256]⟩
abbrev S768x256 : Shape := ⟨2, ![768, 256]⟩

abbrev nBuf : Space → Nat
  | .hbm => 3
  | .vmem => 7
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .f32⟩
  | .local _ .vmem, ⟨0, _⟩ => ⟨S768x384, .f32⟩
  | .local _ .vmem, ⟨1, _⟩ => ⟨S384x768, .f32⟩
  | .local _ .vmem, ⟨2, _⟩ => ⟨S768x768, .f32⟩
  | .local _ .vmem, ⟨3, _⟩ => ⟨S384x384, .bf16⟩
  | .local _ .vmem, ⟨4, _⟩ => ⟨S384x768, .bf16⟩
  | .local _ .vmem, ⟨5, _⟩ => ⟨S768x384, .bf16⟩
  | .local _ .vmem, ⟨6, _⟩ => ⟨S384x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v17 : BitVec 32 := Scalar.muli v5 c384_i32
  let v18 : Index := Scalar.indexCast v17
  let c0 : Index := 0#32
  ![v18.toNat, 0]
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v17 : BitVec 32 := Scalar.muli v5 c384_i32
  let c0_i32_17 : BitVec 32 := 0#32
  ![v17.toNat, 0]
def k0_dev3 (d0 : Dev nD) : Nat :=
  let c0_i32_15 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_14 : BitVec 32 := 2#32
  let v25 : BitVec 32 := Scalar.muli v6 c2_i32_14
  let v26 : BitVec 32 := Scalar.addi c0_i32_15 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v27 : BitVec 32 := Scalar.muli v5 c1_i32_16
  let v28 : BitVec 32 := Scalar.addi v26 v27
  v28.toNat
def k0_dev4 (d0 : Dev nD) : Nat :=
  let c0_i32_25 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_24 : BitVec 32 := 2#32
  let v36 : BitVec 32 := Scalar.muli v6 c2_i32_24
  let v37 : BitVec 32 := Scalar.addi c0_i32_25 v36
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v38 : BitVec 32 := Scalar.muli v5 c1_i32_26
  let v39 : BitVec 32 := Scalar.addi v37 v38
  v39.toNat
def k0_dev5 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v46 : BitVec 32 := Scalar.muli v6 c2_i32_33
  let v47 : BitVec 32 := Scalar.addi c0_i32_34 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v48 : BitVec 32 := Scalar.muli v5 c1_i32_35
  let v49 : BitVec 32 := Scalar.addi v47 v48
  v49.toNat
def k0_dev6 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v56 : BitVec 32 := Scalar.muli v6 c2_i32_41
  let v57 : BitVec 32 := Scalar.addi c0_i32_42 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v58 : BitVec 32 := Scalar.muli v5 c1_i32_43
  let v59 : BitVec 32 := Scalar.addi v57 v58
  v59.toNat
def k0_dev7 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v77 : BitVec 32 := Scalar.muli v2 c2_i32_57
  let v78 : BitVec 32 := Scalar.addi c0_i32_58 v77
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_59 : BitVec 32 := 1#32
  let v79 : BitVec 32 := Scalar.muli v7 c1_i32_59
  let v80 : BitVec 32 := Scalar.addi v78 v79
  v80.toNat
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  h_S384x384 : 0 < S384x384.numel
  shapeCasts_S384x384_S384x384 : S384x384.ShapeCasts S384x384
  bitsLt_bf16_f32 : FTy.bits .bf16 < FTy.bits .f32
  inb_S384x384_S384x384_0_0 : ∀ a, (![0, 0] : Fin 2 → Nat) a + S384x384.size a ≤ S384x384.size a
  packedbf16_S384x384_S384x384_0_0 : (Rect.unit (s := S384x384) ![0, 0] S384x384.size inb_S384x384_S384x384_0_0).PackedRows (EltTy.packing .bf16)
  hamt_2 : (2#32 : BitVec 32).msb = false
  inb_S384x768_S384x768_0_0 : ∀ a, (![0, 0] : Fin 2 → Nat) a + S384x768.size a ≤ S384x768.size a
  h_S384x768 : 0 < S384x768.numel
  shapeCasts_S384x768_S384x768 : S384x768.ShapeCasts S384x768
  packedbf16_S384x768_S384x768_0_0 : (Rect.unit (s := S384x768) ![0, 0] S384x768.size inb_S384x768_S384x768_0_0).PackedRows (EltTy.packing .bf16)
  inb_S3_S1_0 : ∀ a, (![0] : Fin 1 → Nat) a + S1.size a ≤ S3.size a
  squeezes_S1_S_ : S1.Squeezes S_
  inb_S384x768_S384x256_0_0 : ∀ a, (![0, 0] : Fin 2 → Nat) a + S384x256.size a ≤ S384x768.size a
  wordsbf16_S384x768_S384x256_0_0 : (Rect.unit (s := S384x768) ![0, 0] S384x256.size inb_S384x768_S384x256_0_0).WholeWords (EltTy.packing .bf16)
  inb_S3_S1_1 : ∀ a, (![1] : Fin 1 → Nat) a + S1.size a ≤ S3.size a
  inb_S384x768_S384x256_0_256 : ∀ a, (![0, 256] : Fin 2 → Nat) a + S384x256.size a ≤ S384x768.size a
  wordsbf16_S384x768_S384x256_0_256 : (Rect.unit (s := S384x768) ![0, 256] S384x256.size inb_S384x768_S384x256_0_256).WholeWords (EltTy.packing .bf16)
  inb_S3_S1_2 : ∀ a, (![2] : Fin 1 → Nat) a + S1.size a ≤ S3.size a
  inb_S384x768_S384x256_0_512 : ∀ a, (![0, 512] : Fin 2 → Nat) a + S384x256.size a ≤ S384x768.size a
  wordsbf16_S384x768_S384x256_0_512 : (Rect.unit (s := S384x768) ![0, 512] S384x256.size inb_S384x768_S384x256_0_512).WholeWords (EltTy.packing .bf16)
  inb_S768x384_S768x384_0_0 : ∀ a, (![0, 0] : Fin 2 → Nat) a + S768x384.size a ≤ S768x384.size a
  h_S768x384 : 0 < S768x384.numel
  shapeCasts_S768x384_S768x384 : S768x384.ShapeCasts S768x384
  h_S384x256 : 0 < S384x256.numel
  inb_S768x768_S768x256_0_0 : ∀ a, (![0, 0] : Fin 2 → Nat) a + S768x256.size a ≤ S768x768.size a
  h_S768x256 : 0 < S768x256.numel
  inb_S768x768_S768x256_0_256 : ∀ a, (![0, 256] : Fin 2 → Nat) a + S768x256.size a ≤ S768x768.size a
  inb_S768x768_S768x256_0_512 : ∀ a, (![0, 512] : Fin 2 → Nat) a + S768x256.size a ≤ S768x768.size a
  shapeCasts_S768x256_S768x256 : S768x256.ShapeCasts S768x256
  dot_S768x384_S384x256_S768x256_1_0_0_1_n_n_wf : DotDims.WF S768x384 S384x256 S768x256 [1] [0] [0] [1] [] []
  hcc0_scratch4 : 3 + S_.numel ≤ 13
  hcc0_scratch5 : 4 + S_.numel ≤ 13
  hcc0_scratch6 : 5 + S_.numel ≤ 13
  hcc0_scratch7 : 6 + S_.numel ≤ 13
  hcc0_scratch8 : 7 + S3.numel ≤ 13
  hcc0_scratch9 : 10 + S3.numel ≤ 13
  k0_dev1_lt : ∀ d0 : Dev nD, (k0_dev1 d0) < nD
  k0_dev2_lt : ∀ d0 : Dev nD, (k0_dev2 d0) < nD
  k0_off1_inb : ∀ d0 : Dev nD, ∀ a, (k0_off1 d0) a + S384x384.size a ≤ S768x384.size a
  k0_off2_inb : ∀ d0 : Dev nD, ∀ a, (k0_off2 d0) a + S384x384.size a ≤ S768x384.size a
  k0_off2_wordsbf16 : ∀ d0 : Dev nD, (Rect.unit (s := S768x384) (k0_off2 d0) S384x384.size (k0_off2_inb d0)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  hstage0_0 : ∀ j, (stage0_0 j).IsWhole
  hstage0_1 : ∀ j, (stage0_1 j).IsWhole
  hstage0_2 : ∀ j, (stage0_2 j).IsWhole

variable [Facts₀]

abbrev cc0_scratch4 : DmaSems sig S_ := SemArray.consecutive 3 S_ hcc0_scratch4
abbrev cc0_scratch5 : DmaSems sig S_ := SemArray.consecutive 4 S_ hcc0_scratch5
abbrev cc0_scratch6 : DmaSems sig S_ := SemArray.consecutive 5 S_ hcc0_scratch6
abbrev cc0_scratch7 : DmaSems sig S_ := SemArray.consecutive 6 S_ hcc0_scratch7
abbrev cc0_scratch8 : DmaSems sig S3 := SemArray.consecutive 7 S3 hcc0_scratch8
abbrev cc0_scratch9 : DmaSems sig S3 := SemArray.consecutive 10 S3 hcc0_scratch9
def dot_S768x384_S384x256_S768x256_1_0_0_1_n_n : DotDims S768x384 S384x256 S768x256 where
  lhsContracting := [1]
  rhsContracting := [0]
  lhsNonContracting := [0]
  rhsNonContracting := [1]
  lhsBatch := []
  rhsBatch := []
  wf := dot_S768x384_S384x256_S768x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S768x768 : Shape := ⟨2, ![768, 768]⟩
abbrev S768x1536 : Shape := ⟨2, ![768, 1536]⟩

abbrev nBuf : Space → Nat
  | .hbm => 3
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S768x1536, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S768x768_S768x1536_S768x1536_1_0_0_1_n_n_wf : DotDims.WF S768x768 S768x1536 S768x1536 [1] [0] [0] [1] [] []

variable [Facts₀]

def dot_S768x768_S768x1536_S768x1536_1_0_0_1_n_n : DotDims S768x768 S768x1536 S768x1536 where
  lhsContracting := [1]
  rhsContracting := [0]
  lhsNonContracting := [0]
  rhsNonContracting := [1]
  lhsBatch := []
  rhsBatch := []
  wf := dot_S768x768_S768x1536_S768x1536_1_0_0_1_n_n_wf

class Facts : Prop extends Facts₀ where

variable [Facts]
-- ==== Proof.Proto.lean ====
/-
  The 2 × 2 mesh's two peers of a device, the kernel's buffers and semaphore cells, and the contents every buffer
  holds during the run, as functions of the launch memory.

  Device `c` sits at (x, y) = (c / 2, c % 2). Its x-peer `xp c` = (1 - x, y) holds the other half of the
  contraction axis (the other column block of A, the other row block of B); its y-peer `yp c` = (x, 1 - y) holds
  the same column block of A. Each device multiplies its own blocks, receives the x-peer's B block whole (three
  column chunks) and the x-peer's A block by halves of rows — the half of rows `y` straight from the x-peer, the
  other half relayed by the y-peer, which received it from ITS x-peer — and adds the second product.
-/
import proofs.«900556_g7700000000000557_dist_matmul_kn_xy_m768_n768_k384_v7x_xy2x2_f32_1_alg».proof.Proof.Gen.KernelIdeal
import proofs.«900556_g7700000000000557_dist_matmul_kn_xy_m768_n768_k384_v7x_xy2x2_f32_1_alg».proof.Proof.Gen.KernelIdeal.Skeleton
import proofs.«900556_g7700000000000557_dist_matmul_kn_xy_m768_n768_k384_v7x_xy2x2_f32_1_alg».proof.Proof.Gen.KernelIdeal.Launch
import proofs.«900556_g7700000000000557_dist_matmul_kn_xy_m768_n768_k384_v7x_xy2x2_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Mm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two peers -/

/-- The device across the x axis: (x, y) ↦ (1 - x, y). -/
def xp (c : Dev nD) : Dev nD := ⟨((c.val % 2) + 2) - 2 * (c.val / 2), by have := c.isLt; revert this; generalize c.val = v; decide +revert⟩
/-- The device across the y axis: (x, y) ↦ (x, 1 - y). -/
def yp (c : Dev nD) : Dev nD := ⟨(2 * (c.val / 2) + 1) - (c.val % 2), by have := c.isLt; revert this; generalize c.val = v; decide +revert⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne (c : Dev nD) : xp c ≠ c := by revert c; decide
theorem yp_ne (c : Dev nD) : yp c ≠ c := by revert c; decide
theorem xp_ne_yp (c : Dev nD) : xp c ≠ yp c := by revert c; decide

def xswap : Dev nD ≃ Dev nD := ⟨xp, xp, xp_xp, xp_xp⟩
def yswap : Dev nD ≃ Dev nD := ⟨yp, yp, yp_yp, yp_yp⟩

/-- The kernel's `device_id` chains: both signals' and every transfer's target. -/
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev4_eq (c : Dev nD) : (⟨k0_dev4 c, k0_dev4_lt c⟩ : Dev nD) = xp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = xp c := Fin.ext (k0_dev6_eq c)
theorem dev7_eq (c : Dev nD) : (⟨k0_dev7 c, k0_dev7_lt c⟩ : Dev nD) = yp c := Fin.ext (k0_dev7_eq c)

/-- The row offset of a device's half depends on its y coordinate only. -/
theorem off2_xp (c : Dev nD) : k0_off2 (xp c) = k0_off2 c := by revert c; decide +kernel
theorem off1_eq_off2 (c : Dev nD) : k0_off1 c = k0_off2 c := by rw [k0_off1_eq, k0_off2_eq]

/-! ## The memrefs -/

abbrev aIn : Memref sig .tc .vmem S768x384 .f32 := Memref.whole cc0_stg0_0
abbrev bIn : Memref sig .tc .vmem S384x768 .f32 := Memref.whole cc0_stg1_0
abbrev oM : Memref sig .tc .vmem S768x768 .f32 := Memref.whole cc0_stg2_0
abbrev aSt : Memref sig .tc .vmem S384x384 .bf16 := Memref.whole cc0_scratch0
abbrev bSt : Memref sig .tc .vmem S384x768 .bf16 := Memref.whole cc0_scratch1
abbrev aRv : Memref sig .tc .vmem S768x384 .bf16 := Memref.whole cc0_scratch2
abbrev bRv : Memref sig .tc .vmem S384x768 .bf16 := Memref.whole cc0_scratch3

/-- The half of rows of the A receive buffer at device `o`'s offset. -/
abbrev aRvH (o : Dev nD) : Memref sig .tc .vmem S384x384 .bf16 :=
  aRv.slice (Rect.unit (s := S768x384) (k0_off2 o) S384x384.size (k0_off2_inb o)) (fun _ => rfl)

abbrev bSt0 : Memref sig .tc .vmem S384x256 .bf16 := bSt.slice (Rect.unit (s := S384x768) ![0, 0] S384x256.size inb_S384x768_S384x256_0_0) (fun _ => rfl)
abbrev bSt1 : Memref sig .tc .vmem S384x256 .bf16 := bSt.slice (Rect.unit (s := S384x768) ![0, 256] S384x256.size inb_S384x768_S384x256_0_256) (fun _ => rfl)
abbrev bSt2 : Memref sig .tc .vmem S384x256 .bf16 := bSt.slice (Rect.unit (s := S384x768) ![0, 512] S384x256.size inb_S384x768_S384x256_0_512) (fun _ => rfl)
abbrev bRv0 : Memref sig .tc .vmem S384x256 .bf16 := bRv.slice (Rect.unit (s := S384x768) ![0, 0] S384x256.size inb_S384x768_S384x256_0_0) (fun _ => rfl)
abbrev bRv1 : Memref sig .tc .vmem S384x256 .bf16 := bRv.slice (Rect.unit (s := S384x768) ![0, 256] S384x256.size inb_S384x768_S384x256_0_256) (fun _ => rfl)
abbrev bRv2 : Memref sig .tc .vmem S384x256 .bf16 := bRv.slice (Rect.unit (s := S384x768) ![0, 512] S384x256.size inb_S384x768_S384x256_0_512) (fun _ => rfl)

/-! ## The semaphores and cells -/

abbrev barS : Sem sig := (SemArray.scalar (sig.barrier 0 rfl) : Sems sig S_).sem
abbrev axS : DmaSem sig := (cc0_scratch4 : DmaSems sig S_).sem
abbrev axR : DmaSem sig := (cc0_scratch5 : DmaSems sig S_).sem
abbrev ayS : DmaSem sig := (cc0_scratch6 : DmaSems sig S_).sem
abbrev ayR : DmaSem sig := (cc0_scratch7 : DmaSems sig S_).sem
abbrev bS0 : DmaSem sig := (((cc0_scratch8 : DmaSems sig S3).slice (Rect.unit (s := S3) ![0] S1.size inb_S3_S1_0)).squeeze S_ squeezes_S1_S_).sem
abbrev bS1 : DmaSem sig := (((cc0_scratch8 : DmaSems sig S3).slice (Rect.unit (s := S3) ![1] S1.size inb_S3_S1_1)).squeeze S_ squeezes_S1_S_).sem
abbrev bS2 : DmaSem sig := (((cc0_scratch8 : DmaSems sig S3).slice (Rect.unit (s := S3) ![2] S1.size inb_S3_S1_2)).squeeze S_ squeezes_S1_S_).sem
abbrev bR0 : DmaSem sig := (((cc0_scratch9 : DmaSems sig S3).slice (Rect.unit (s := S3) ![0] S1.size inb_S3_S1_0)).squeeze S_ squeezes_S1_S_).sem
abbrev bR1 : DmaSem sig := (((cc0_scratch9 : DmaSems sig S3).slice (Rect.unit (s := S3) ![1] S1.size inb_S3_S1_1)).squeeze S_ squeezes_S1_S_).sem
abbrev bR2 : DmaSem sig := (((cc0_scratch9 : DmaSems sig S3).slice (Rect.unit (s := S3) ![2] S1.size inb_S3_S1_2)).squeeze S_ squeezes_S1_S_).sem

theorem axS_eq : axS = (3 : DmaSem sig) := by decide
theorem axR_eq : axR = (4 : DmaSem sig) := by decide
theorem ayS_eq : ayS = (5 : DmaSem sig) := by decide
theorem ayR_eq : ayR = (6 : DmaSem sig) := by decide
theorem bS0_eq : bS0 = (7 : DmaSem sig) := by decide
theorem bS1_eq : bS1 = (8 : DmaSem sig) := by decide
theorem bS2_eq : bS2 = (9 : DmaSem sig) := by decide
theorem bR0_eq : bR0 = (10 : DmaSem sig) := by decide
theorem bR1_eq : bR1 = (11 : DmaSem sig) := by decide
theorem bR2_eq : bR2 = (12 : DmaSem sig) := by decide

/-- The protocol's eleven semaphores of a device: the barrier, then send / receive of the x-copy of A, of the y-relay of
    A, the three B sends, the three B receives. -/
abbrev csem : Fin 11 → SemLoc sig := fun
  | 0 => .reg barS | 1 => .dma axS | 2 => .dma axR | 3 => .dma ayS | 4 => .dma ayR
  | 5 => .dma bS0 | 6 => .dma bS1 | 7 => .dma bS2 | 8 => .dma bR0 | 9 => .dma bR1 | 10 => .dma bR2
/-- The ten scoped ones (the launch theorem's own semaphores). -/
abbrev osem : Fin 10 → SemLoc sig := fun k => csem k.succ

abbrev kcell (ck : Dev nD × Fin 11) : GSem nD τ sig := ((ck.1 : Thread nD τ), csem ck.2)
abbrev cell (c : Dev nD) (k : Fin 11) : GSem nD τ sig := ((c : Thread nD τ), csem k)

theorem csem_injective : Function.Injective csem := by decide

/-- The credit of the A half's transfer and of a B chunk's. -/
abbrev NA : ℕ := (aSt : Memref sig .tc .vmem S384x384 .bf16).view.dmaCredit
abbrev NB : ℕ := (bSt0 : Memref sig .tc .vmem S384x256 .bf16).view.dmaCredit
theorem NA_pos : 0 < NA := View.dmaCredit_pos _ (by decide)
theorem NB_pos : 0 < NB := View.dmaCredit_pos _ (by decide)

/-! ## Contents -/

section Contents

variable (m : (ℓ : Loc nD τ sig) → Buf (Elt F) ℓ)

/-- Device `c`'s block of A, f32[768, 384], and of B, f32[384, 768], as staged (each window is its whole array). -/
def Ain (c : Dev nD) : (cc0_stg0_0 : Ref sig .tc).ty.Contents (Elt F) :=
  (win0_0.blk (0 : Fin 1)).view.read (Elt F) (m ((c : Thread nD τ).loc main_arg0))
def Bin (c : Dev nD) : (cc0_stg1_0 : Ref sig .tc).ty.Contents (Elt F) :=
  (win0_1.blk (0 : Fin 1)).view.read (Elt F) (m ((c : Thread nD τ).loc main_arg1))

/-- The 384 rows of the A block at device `o`'s row offset (its y coordinate's half). -/
abbrev rHalf (o : Dev nD) : Rect S768x384 := Rect.unit (s := S768x384) (k0_off1 o) S384x384.size (k0_off1_inb o)
/-- The three column chunks of a [384, 768] buffer and of the [768, 768] result. -/
abbrev rB0 : Rect S384x768 := Rect.unit (s := S384x768) ![0, 0] S384x256.size inb_S384x768_S384x256_0_0
abbrev rB1 : Rect S384x768 := Rect.unit (s := S384x768) ![0, 256] S384x256.size inb_S384x768_S384x256_0_256
abbrev rB2 : Rect S384x768 := Rect.unit (s := S384x768) ![0, 512] S384x256.size inb_S384x768_S384x256_0_512
abbrev rO0 : Rect S768x768 := Rect.unit (s := S768x768) ![0, 0] S768x256.size inb_S768x768_S768x256_0_0
abbrev rO1 : Rect S768x768 := Rect.unit (s := S768x768) ![0, 256] S768x256.size inb_S768x768_S768x256_0_256
abbrev rO2 : Rect S768x768 := Rect.unit (s := S768x768) ![0, 512] S768x256.size inb_S768x768_S768x256_0_512

/-- What device `c` stages for sending: its half of rows of its A block, and its B block, both narrowed to bf16. -/
def aStV (c : Dev nD) : (cc0_scratch0 : Ref sig .tc).ty.Contents (Elt F) :=
  k0_pay1 ((aIn : Memref sig .tc .vmem S768x384 .f32).view.readAt (Elt F) (rHalf c).toLoadRect (Ain m c))
def bStV (c : Dev nD) : (cc0_scratch1 : Ref sig .tc).ty.Contents (Elt F) := k0_pay2 (Bin m c)

/-- What device `c`'s A receive buffer ends holding: on its own half of rows what its x-peer staged, on the other half
    what its y-peer's x-peer staged (relayed by the y-peer). -/
def aRvV (c : Dev nD) : (cc0_scratch2 : Ref sig .tc).ty.Contents (Elt F) :=
  (aRvH (yp c)).view.write (Elt F)
    ((aRvH c).view.write (Elt F) (fun _ => Classical.arbitrary _) ((aSt : Memref sig .tc .vmem S384x384 .bf16).view.read (Elt F) (aStV m (xp c))) Finset.univ)
    ((aSt : Memref sig .tc .vmem S384x384 .bf16).view.read (Elt F) (aStV m (xp (yp c)))) Finset.univ
/-- What its B receive buffer ends holding: what its x-peer staged. -/
def bRvV (c : Dev nD) : (cc0_scratch3 : Ref sig .tc).ty.Contents (Elt F) := bStV m (xp c)

/-- A column chunk of a [384, 768] bf16 buffer's contents, as the body loads it. -/
abbrev chB0 (X : (cc0_scratch1 : Ref sig .tc).ty.Contents (Elt F)) : Vec F S384x256 .bf16 := (bSt : Memref sig .tc .vmem S384x768 .bf16).view.readAt (Elt F) rB0.toLoadRect X
abbrev chB1 (X : (cc0_scratch1 : Ref sig .tc).ty.Contents (Elt F)) : Vec F S384x256 .bf16 := (bSt : Memref sig .tc .vmem S384x768 .bf16).view.readAt (Elt F) rB1.toLoadRect X
abbrev chB2 (X : (cc0_scratch1 : Ref sig .tc).ty.Contents (Elt F)) : Vec F S384x256 .bf16 := (bSt : Memref sig .tc .vmem S384x768 .bf16).view.readAt (Elt F) rB2.toLoadRect X
abbrev chR0 (X : (cc0_scratch3 : Ref sig .tc).ty.Contents (Elt F)) : Vec F S384x256 .bf16 := (bRv : Memref sig .tc .vmem S384x768 .bf16).view.readAt (Elt F) rB0.toLoadRect X
abbrev chR1 (X : (cc0_scratch3 : Ref sig .tc).ty.Contents (Elt F)) : Vec F S384x256 .bf16 := (bRv : Memref sig .tc .vmem S384x768 .bf16).view.readAt (Elt F) rB1.toLoadRect X
abbrev chR2 (X : (cc0_scratch3 : Ref sig .tc).ty.Contents (Elt F)) : Vec F S384x256 .bf16 := (bRv : Memref sig .tc .vmem S384x768 .bf16).view.readAt (Elt F) rB2.toLoadRect X

/-- The three column chunks of the result: the local product plus the product of the received blocks. -/
def outCh0 (c : Dev nD) : FVec F S768x256 .f32 := k0_pay7 (aRvV m c) (k0_pay4 (Ain m c) (chB0 (bStV m c))) (chR0 (bRvV m c))
def outCh1 (c : Dev nD) : FVec F S768x256 .f32 := k0_pay8 (aRvV m c) (k0_pay5 (Ain m c) (chB1 (bStV m c))) (chR1 (bRvV m c))
def outCh2 (c : Dev nD) : FVec F S768x256 .f32 :=
  k0_pay9 (aRvV m c) (k0_pay6 (k0_pay3 (Ain m c)) (chB2 (bStV m c)) (constant S768x256 .f32 0x00000000#32)) (chR2 (bRvV m c))

/-- The result staging buffer after the body: the three chunks side by side. -/
def outV (c : Dev nD) : (cc0_stg2_0 : Ref sig .tc).ty.Contents (Elt F) :=
  ((oM : Memref sig .tc .vmem S768x768 .f32).access rO2 : View sig .tc _ _ _).write (Elt F)
    (((oM : Memref sig .tc .vmem S768x768 .f32).access rO1 : View sig .tc _ _ _).write (Elt F)
      (((oM : Memref sig .tc .vmem S768x768 .f32).access rO0 : View sig .tc _ _ _).write (Elt F) (fun _ => Classical.arbitrary _) (outCh0 m c) Finset.univ)
      (outCh1 m c) Finset.univ)
    (outCh2 m c) Finset.univ

end Contents

end Cert.KernelIdeal.Mm

end
-- ==== Proof.Sched.lean ====
/-
  The protocol as a schedule of rounds: every semaphore cell of every device has ONE round. A device's barrier cell is
  paid one unit by each of its two peers; with the unit a peer hands over the part of ITS OWN receive buffers the
  device will write into (the x-peer: its own-offset half of its A receive buffer and its whole B receive buffer; the
  y-peer: the other half of its A receive buffer). A receive cell is paid by the transfer that lands there and hands the
  owner the landed rows or columns at their final contents; a send cell is paid by the owner's own transfer and hands
  back the share of the source the transfer read.
-/
import proofs.«900556_g7700000000000557_dist_matmul_kn_xy_m768_n768_k384_v7x_xy2x2_f32_1_alg».proof.Proof.Proto

noncomputable section

namespace Cert.KernelIdeal.Mm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Which of the eleven a semaphore is -/

def kindOf (s : SemLoc sig) : Option (Fin 11) :=
  if s = csem 0 then some 0 else if s = csem 1 then some 1 else if s = csem 2 then some 2 else if s = csem 3 then some 3
  else if s = csem 4 then some 4 else if s = csem 5 then some 5 else if s = csem 6 then some 6 else if s = csem 7 then some 7
  else if s = csem 8 then some 8 else if s = csem 9 then some 9 else if s = csem 10 then some 10 else none

theorem kindOf_csem : ∀ k : Fin 11, kindOf (csem k) = some k := by decide

/-- The share of a source a transfer holds while the body still loads from that source. -/
abbrev qs : PosShare TreeShare := fullShare.left
abbrev ql : PosShare TreeShare := fullShare.right

/-! ## The payloads -/

/-- The A transfers move NA units, the B chunks NB, a signal one. -/
def amt : Fin 11 → ℕ := fun k => if k = 0 then 1 else if k.val ≤ 4 then NA else NB

theorem amt_pos (k : Fin 11) : 0 < amt k := by
  unfold amt; split; · exact Nat.one_pos
  split; · exact NA_pos
  exact NB_pos

/-- What a duty's payment hands the owner `c` of cell `k`. -/
def pay (k : Fin 11) (c : Dev nD) (d : Bool) : sProp 𝕄 :=
  match k with
  | 0 => if d then iprop(∃ f, (aRvH c).view.loc (yp c : Thread nD τ) ↦[(aRvH c).view.set]{fullShare} f)
      else iprop((∃ f, (aRvH c).view.loc (xp c : Thread nD τ) ↦[(aRvH c).view.set]{fullShare} f)
        ∗ (∃ f, (bRv : Memref sig .tc .vmem S384x768 .bf16).view.loc (xp c : Thread nD τ) ↦[(bRv : Memref sig .tc .vmem S384x768 .bf16).view.set]{fullShare} f))
  | 1 => (aSt : Memref sig .tc .vmem S384x384 .bf16).view.loc (c : Thread nD τ) ↦[(aSt : Memref sig .tc .vmem S384x384 .bf16).view.set]{fullShare} aStV m c
  | 2 => (aRvH c).view.loc (c : Thread nD τ) ↦[(aRvH c).view.set]{fullShare} aRvV m c
  | 3 => (aRvH c).view.loc (c : Thread nD τ) ↦[(aRvH c).view.set]{qs} aRvV m c
  | 4 => (aRvH (yp c)).view.loc (c : Thread nD τ) ↦[(aRvH (yp c)).view.set]{fullShare} aRvV m c
  | 5 => (bSt0 : Memref sig .tc .vmem S384x256 .bf16).view.loc (c : Thread nD τ) ↦[(bSt0 : Memref sig .tc .vmem S384x256 .bf16).view.set]{qs} bStV m c
  | 6 => (bSt1 : Memref sig .tc .vmem S384x256 .bf16).view.loc (c : Thread nD τ) ↦[(bSt1 : Memref sig .tc .vmem S384x256 .bf16).view.set]{qs} bStV m c
  | 7 => (bSt2 : Memref sig .tc .vmem S384x256 .bf16).view.loc (c : Thread nD τ) ↦[(bSt2 : Memref sig .tc .vmem S384x256 .bf16).view.set]{qs} bStV m c
  | 8 => (bRv0 : Memref sig .tc .vmem S384x256 .bf16).view.loc (c : Thread nD τ) ↦[(bRv0 : Memref sig .tc .vmem S384x256 .bf16).view.set]{fullShare} bRvV m c
  | 9 => (bRv1 : Memref sig .tc .vmem S384x256 .bf16).view.loc (c : Thread nD τ) ↦[(bRv1 : Memref sig .tc .vmem S384x256 .bf16).view.set]{fullShare} bRvV m c
  | 10 => (bRv2 : Memref sig .tc .vmem S384x256 .bf16).view.loc (c : Thread nD τ) ↦[(bRv2 : Memref sig .tc .vmem S384x256 .bf16).view.set]{fullShare} bRvV m c

set_option synthInstance.maxHeartbeats 400000 in
instance pay_storable (k : Fin 11) (c : Dev nD) (d : Bool) : BI.Storable (upEmb : UEmb _ 𝕄) (pay (F := F) m k c d) := by
  unfold pay; split <;> (try split) <;> infer_instance

/-! ## The schedule -/

def Rd : Rounds.Schedule (GSem nD τ sig) Bool 𝕄 where
  duties g r := if r = 0 ∧ g.1.2 = .tc then (match kindOf g.2 with | some k => if k = 0 then Finset.univ else {false} | none => ∅) else ∅
  unitless _ := False
  amount g _ _ := match kindOf g.2 with | some k => amt k | none => 1
  payload g _ d := match kindOf g.2 with | some k => pay m k g.1.1 d | none => iprop(emp)
  amount_pos g _ _ _ := by
    cases h : kindOf g.2 with
    | none => exact Nat.one_pos
    | some k => exact amt_pos k

instance Rd_payload_storable (g : GSem nD τ sig) (r : ℕ) (d : Bool) : BI.Storable (upEmb : UEmb _ 𝕄) ((Rd (F := F) m).payload g r d) := by
  show BI.Storable upEmb (match kindOf g.2 with | some k => pay m k g.1.1 d | none => iprop(emp))
  cases kindOf g.2 <;> infer_instance

section Tables
variable (c : Dev nD)

theorem duties_bar : (Rd (F := F) m).duties (cell c 0) 0 = Finset.univ := by
  dsimp only [Rd]; rw [if_pos ⟨rfl, rfl⟩, kindOf_csem]; rfl
theorem duties_dma (k : Fin 11) (hk : k ≠ 0) : (Rd (F := F) m).duties (cell c k) 0 = {false} := by
  dsimp only [Rd]; rw [if_pos ⟨rfl, rfl⟩, kindOf_csem]; exact if_neg hk
theorem duties_later (g : GSem nD τ sig) : ∀ r, 1 ≤ r → (Rd (F := F) m).duties g r = ∅ :=
  fun r hr => by dsimp only [Rd]; exact if_neg fun h => by omega
theorem amount_cell (k : Fin 11) (d : Bool) : (Rd (F := F) m).amount (cell c k) 0 d = amt k := by
  dsimp only [Rd]; rw [kindOf_csem]
theorem payload_cell (k : Fin 11) (d : Bool) : (Rd (F := F) m).payload (cell c k) 0 d = pay m k c d := by
  dsimp only [Rd]; rw [kindOf_csem]

theorem expect_bar : (Rd (F := F) m).expect (cell c 0) 0 = 2 := by
  unfold Schedule.expect Schedule.amountOf
  rw [duties_bar, Finset.sum_congr rfl fun d _ => amount_cell m c 0 d, Finset.sum_const, Finset.card_univ, Fintype.card_bool, smul_eq_mul]; rfl
theorem expect_dma (k : Fin 11) (hk : k ≠ 0) : (Rd (F := F) m).expect (cell c k) 0 = amt k := by
  unfold Schedule.expect Schedule.amountOf; rw [duties_dma m c k hk, Finset.sum_singleton, amount_cell]

/-- The barrier cell's whole round: what the x-peer hands and what the y-peer hands. -/
theorem rest_bar : bigSep ((Rd (F := F) m).duties (cell c 0) 0 \ ∅) (fun d => (Rd (F := F) m).payload (cell c 0) 0 d) = iprop(pay m 0 c false ∗ pay m 0 c true) := by
  rw [Finset.sdiff_empty, duties_bar, bigSep_univ_eq_bigSepL [false, true] (by decide) (by decide), bigSepL_cons_cons, bigSepL_singleton,
    payload_cell, payload_cell]
  rfl
theorem rest_dma (k : Fin 11) (hk : k ≠ 0) : bigSep ((Rd (F := F) m).duties (cell c k) 0 \ ∅) (fun d => (Rd (F := F) m).payload (cell c k) 0 d) = pay m k c false := by
  rw [Finset.sdiff_empty, duties_dma m c k hk, bigSep_singleton, payload_cell]

end Tables

/-! ## What a device owes at launch, and the levels -/

/-- In the order the body pays, last summand first: the two signals, the x-copy of A, the three B chunks, the y-relay. -/
def O6 (c : Dev nD) : CellTallies nD τ sig Unit := tallyAt (cell (yp c) 4) () NA
def O5 (c : Dev nD) : CellTallies nD τ sig Unit := O6 c + tallyAt (cell (xp c) 10) () NB
def O4 (c : Dev nD) : CellTallies nD τ sig Unit := O5 c + tallyAt (cell (xp c) 9) () NB
def O3 (c : Dev nD) : CellTallies nD τ sig Unit := O4 c + tallyAt (cell (xp c) 8) () NB
def O2 (c : Dev nD) : CellTallies nD τ sig Unit := O3 c + tallyAt (cell (xp c) 2) () NA
def O1 (c : Dev nD) : CellTallies nD τ sig Unit := O2 c + tallyAt (cell (yp c) 0) () 1
def O₀ (c : Dev nD) : CellTallies nD τ sig Unit := O1 c + tallyAt (cell (xp c) 0) () 1

def L (g : GSem nD τ sig) : Finset Unit := if g.1.2 = .tc then {()} else ∅
/-- Barrier cells at 1, the receive cells of the x-copies at 2, of the y-relay at 3, everything else at 0: a device
    waits on its barrier owing only receive credit, and on its x-copy's receive cell owing only the y-relay's. -/
def lv (g : GSem nD τ sig) (_ : Unit) : ℕ :=
  match kindOf g.2 with
  | some k => if k = 0 then 1 else if k = 4 then 3 else if k = 2 ∨ 8 ≤ k.val then 2 else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : Fin 11) : lv (cell c k) () = if k = 0 then 1 else if k = 4 then 3 else if k = 2 ∨ 8 ≤ k.val then 2 else 0 := by
  unfold lv; rw [kindOf_csem]

end Cert.KernelIdeal.Mm

end
-- ==== Proof.Data.lean ====
/-
  What each device holds when its body starts and when it ends: the cells' invariants and reached-marks (shared by all),
  its positions at round 0 of its own eleven cells, the tokens of the twelve duties it pays, the credit its peers owe its
  barrier and receive cells, and its four scratch buffers; at the end the scratch buffers and its ten own cells closed.
  The pipeline's proof data: the two argument blocks staged unchanged, the result staged at the three chunks.
-/
import proofs.«900556_g7700000000000557_dist_matmul_kn_xy_m768_n768_k384_v7x_xy2x2_f32_1_alg».proof.Proof.Sched

noncomputable section

namespace Cert.KernelIdeal.Mm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## The ghost state -/

/-- Every cell's invariant, under the names the launch allocated them at, and that every cell is at round 0: persistent,
    held by every device. -/
def records (K : Dev nD × Fin 11 → ℕ) : sProp 𝕄 :=
  iprop((bigSep Finset.univ fun ck : Dev nD × Fin 11 => cellInv ER (Rd m) (K ck) (kcell ck))
    ∗ bigSep Finset.univ fun ck : Dev nD × Fin 11 => reached ER (kcell ck) 0)

instance records_persistent (K : Dev nD × Fin 11 → ℕ) : BI.Persistent (records m K) := by unfold records; infer_instance

theorem inv_at (K : Dev nD × Fin 11 → ℕ) (ck : Dev nD × Fin 11) : records m K ⊢ cellInv ER (Rd m) (K ck) (kcell ck) :=
  sep_elim_left.trans (bigSep_elim (Φ := fun ck : Dev nD × Fin 11 => cellInv ER (Rd m) (K ck) (kcell ck)) (Finset.mem_univ ck))
theorem reached_at (K : Dev nD × Fin 11 → ℕ) (ck : Dev nD × Fin 11) : records m K ⊢ reached ER (kcell ck) 0 :=
  sep_elim_right.trans (bigSep_elim (Φ := fun ck : Dev nD × Fin 11 => (reached ER (kcell ck) 0 : sProp 𝕄)) (Finset.mem_univ ck))

/-- The tokens of the duties device `c` pays: its two barrier signals, the five landings on its peers' receive cells, its
    own five send cells. -/
def payToks (c : Dev nD) : sProp 𝕄 :=
  iprop(dutyTok ER (cell (xp c) 0) 0 false ∗ dutyTok ER (cell (yp c) 0) 0 true
    ∗ dutyTok ER (cell (xp c) 2) 0 false ∗ dutyTok ER (cell (yp c) 4) 0 false
    ∗ dutyTok ER (cell (xp c) 8) 0 false ∗ dutyTok ER (cell (xp c) 9) 0 false ∗ dutyTok ER (cell (xp c) 10) 0 false
    ∗ dutyTok ER (cell c 1) 0 false ∗ dutyTok ER (cell c 3) 0 false
    ∗ dutyTok ER (cell c 5) 0 false ∗ dutyTok ER (cell c 6) 0 false ∗ dutyTok ER (cell c 7) 0 false)

/-- Its positions: round 0, nothing taken, of each of its eleven cells. -/
def positions (c : Dev nD) : sProp 𝕄 := bigSep Finset.univ fun k : Fin 11 => atPos ER (cell c k) 0 ∅ 0

def ghost (K : Dev nD × Fin 11 → ℕ) (c : Dev nD) : sProp 𝕄 := iprop(records m K ∗ positions c ∗ payToks c)

/-- The credit the peers owe device `c`'s cells at launch. -/
def creds (c : Dev nD) : sProp 𝕄 :=
  iprop(cred (tallyAt (cell c 0) () 2) ∗ cred (tallyAt (cell c 2) () NA) ∗ cred (tallyAt (cell c 4) () NA)
    ∗ cred (tallyAt (cell c 8) () NB) ∗ cred (tallyAt (cell c 9) () NB) ∗ cred (tallyAt (cell c 10) () NB))

def start (c : Dev nD) : sProp 𝕄 := iprop((∃ K, ghost m K c) ∗ creds c ∗ levAts L lv)

/-- The four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The ten own cells closed: their counters at zero. -/
def closed (c : Dev nD) : sProp 𝕄 := bigSep Finset.univ fun k : Fin 10 => semVal (cell c k.succ) 0

def Φ₀ (c : Dev nD) : sProp 𝕄 := iprop(start m c ∗ scratch c)
def Φ₁ (c : Dev nD) : sProp 𝕄 := iprop(scratch (F := F) c ∗ closed c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Ain m c
    | ⟨1, _⟩ => Bin m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the names of the invariants opened. -/
def bodyPre (K : Dev nD × Fin 11 → ℕ) (c : Dev nD) : sProp 𝕄 :=
  iprop((ghost m K c ∗ creds c ∗ levAts L lv ∗ scratch c)
    ∗ (dats m ρ 0 c).owesAt () t0_0.castSucc
    ∗ stg c cc0_stg0_0 (Ain m c)
    ∗ stg c cc0_stg1_0 (Bin m c)
    ∗ (∃ d, stg c cc0_stg2_0 d))

def bodyPost (c : Dev nD) : sProp 𝕄 :=
  iprop(Φ₁ c ∗ (dats m ρ 0 c).owesAt () t0_0.succ ∗ stg c cc0_stg0_0 (Ain m c) ∗ stg c cc0_stg1_0 (Bin m c) ∗ stg c cc0_stg2_0 (outV m c))

end Cert.KernelIdeal.Mm

end
-- ==== Proof.Views.lean ====
/-
  Geometry of the receive buffers and the contents that land in them: the two halves of rows tile the A receive buffer,
  the three column chunks tile a B buffer, and each transfer's landing — the destination slice overwritten whole by the
  source slice — is the slice at its final contents.
-/
import proofs.«900556_g7700000000000557_dist_matmul_kn_xy_m768_n768_k384_v7x_xy2x2_f32_1_alg».proof.Proof.Proto
import Idealize.ShloMosaic.Lib.Pipeline.Value

noncomputable section

namespace Cert.KernelIdeal.Mm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Points-to along a disjoint union, as an equation -/

theorem pt_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-! ## The halves of the A receive buffer -/

/-- The rows of the half at device `o`'s offset. -/
abbrev rH (o : Dev nD) : Rect S768x384 := Rect.unit (s := S768x384) (k0_off2 o) S384x384.size (k0_off2_inb o)

theorem set_aRvH (o : Dev nD) : (aRvH o).view.set = (rH o).set := View.set_slice_whole cc0_scratch2 _

/-- An index lies in the half at `o`'s offset exactly when its row lies in `o`'s 384 rows. -/
theorem mem_rH (o : Dev nD) (i : S768x384.Idx) :
    i ∈ (rH o).set ↔ 384 * (o.val % 2) ≤ (i 0 : ℕ) ∧ (i 0 : ℕ) < 384 * (o.val % 2) + 384 := by
  have h1 : (i 1 : ℕ) < 384 := (i 1).isLt
  rw [Rect.mem_set_unit, Fin.forall_fin_two, k0_off2_eq]
  simp only [Matrix.cons_val_zero, Matrix.cons_val_one, Matrix.head_cons]
  constructor
  · rintro ⟨h, _⟩; exact h
  · intro h; exact ⟨h, Nat.zero_le _, by omega⟩

theorem yp_mod (c : Dev nD) : (yp c).val % 2 = 1 - c.val % 2 := by revert c; decide

theorem rH_disjoint (c : Dev nD) : Disjoint (rH c).set (rH (yp c)).set := by
  rw [Finset.disjoint_left]
  intro i h1 h2
  rw [mem_rH] at h1 h2
  rw [yp_mod] at h2
  omega

theorem rH_cover (c : Dev nD) : (rH c).set ∪ (rH (yp c)).set = Finset.univ := by
  ext i
  have h0 : (i 0 : ℕ) < 768 := (i 0).isLt
  simp only [Finset.mem_union, Finset.mem_univ, iff_true]
  rw [mem_rH, mem_rH, yp_mod]
  omega

/-- The half depends on the device only through its row offset. -/
theorem aRvH_congr {o o' : Dev nD} (h : k0_off2 o = k0_off2 o') : aRvH o = aRvH o' :=
  Memref.slice_unit_congr _ h _ _ _ _

theorem aRvH_xp (c : Dev nD) : aRvH (xp c) = aRvH c := aRvH_congr (off2_xp c)

/-- Device `d`'s A receive buffer is the half at `c`'s offset beside the half at `yp c`'s. -/
theorem aRv_split (c d : Dev nD) (q : PosShare TreeShare) (f : Buf (Elt F) ((d : Thread nD τ).loc cc0_scratch2)) :
    ((((d : Thread nD τ).loc cc0_scratch2) ↦{q} f : sProp 𝕄))
      ⊣⊢ iprop(((aRvH c).view.loc (d : Thread nD τ) ↦[(aRvH c).view.set]{q} f)
          ∗ ((aRvH (yp c)).view.loc (d : Thread nD τ) ↦[(aRvH (yp c)).view.set]{q} f)) := by
  have hd : Disjoint (aRvH c).view.set (aRvH (yp c)).view.set := by
    rw [set_aRvH, set_aRvH]; exact rH_disjoint c
  have hu : (aRvH c).view.set ∪ (aRvH (yp c)).view.set = Finset.univ := by
    rw [set_aRvH, set_aRvH]; exact rH_cover c
  have h1 := pt_union_eq (ℓ := ((d : Thread nD τ).loc cc0_scratch2)) (q := q) (f := f) hd
  rw [hu] at h1
  exact .of_eq h1

/-! ## The three column chunks of a [384, 768] buffer -/

/-- An index lies in the chunk of 256 columns from column `k` exactly when its column does. -/
theorem mem_colB {k : ℕ} (inb : ∀ a, (![0, k] : Fin 2 → ℕ) a + S384x256.size a ≤ S384x768.size a) (i : S384x768.Idx) :
    i ∈ (Rect.unit (s := S384x768) ![0, k] S384x256.size inb).set ↔ k ≤ (i 1 : ℕ) ∧ (i 1 : ℕ) < k + 256 := by
  have h0 : (i 0 : ℕ) < 384 := (i 0).isLt
  rw [Rect.mem_set_unit, Fin.forall_fin_two]
  simp only [Matrix.cons_val_zero, Matrix.cons_val_one, Matrix.head_cons]
  constructor
  · rintro ⟨_, h⟩; exact h
  · intro h; exact ⟨⟨Nat.zero_le _, by omega⟩, h⟩

theorem colB_disjoint0 : Disjoint rB0.set (rB1.set ∪ rB2.set) := by
  rw [Finset.disjoint_left]
  intro i h0 h12
  rw [Finset.mem_union, mem_colB, mem_colB] at h12
  rw [mem_colB] at h0
  omega

theorem colB_disjoint1 : Disjoint rB1.set rB2.set := by
  rw [Finset.disjoint_left]
  intro i h1 h2
  rw [mem_colB] at h1 h2
  omega

theorem colB_cover : rB0.set ∪ (rB1.set ∪ rB2.set) = Finset.univ := by
  ext i
  have h1 : (i 1 : ℕ) < 768 := (i 1).isLt
  simp only [Finset.mem_union, Finset.mem_univ, iff_true]
  rw [mem_colB, mem_colB, mem_colB]
  omega

/-- A [384, 768] bf16 buffer is its three column chunks (the staging buffer; the receive buffer). -/
theorem bSt_split (d : Dev nD) (q : PosShare TreeShare) (f : Buf (Elt F) ((d : Thread nD τ).loc cc0_scratch1)) :
    ((((d : Thread nD τ).loc cc0_scratch1) ↦{q} f : sProp 𝕄))
      ⊣⊢ iprop(((bSt0 : Memref sig .tc .vmem S384x256 .bf16).view.loc (d : Thread nD τ) ↦[(bSt0 : Memref sig .tc .vmem S384x256 .bf16).view.set]{q} f)
          ∗ ((bSt1 : Memref sig .tc .vmem S384x256 .bf16).view.loc (d : Thread nD τ) ↦[(bSt1 : Memref sig .tc .vmem S384x256 .bf16).view.set]{q} f)
          ∗ ((bSt2 : Memref sig .tc .vmem S384x256 .bf16).view.loc (d : Thread nD τ) ↦[(bSt2 : Memref sig .tc .vmem S384x256 .bf16).view.set]{q} f)) := by
  have e0 : (bSt0 : Memref sig .tc .vmem S384x256 .bf16).view.set = rB0.set := View.set_slice_whole cc0_scratch1 _
  have e1 : (bSt1 : Memref sig .tc .vmem S384x256 .bf16).view.set = rB1.set := View.set_slice_whole cc0_scratch1 _
  have e2 : (bSt2 : Memref sig .tc .vmem S384x256 .bf16).view.set = rB2.set := View.set_slice_whole cc0_scratch1 _
  have h1 := pt_union_eq (ℓ := ((d : Thread nD τ).loc cc0_scratch1)) (q := q) (f := f) colB_disjoint0
  rw [colB_cover, pt_union_eq colB_disjoint1] at h1
  rw [e0, e1, e2]
  exact .of_eq h1
theorem bRv_split (d : Dev nD) (q : PosShare TreeShare) (f : Buf (Elt F) ((d : Thread nD τ).loc cc0_scratch3)) :
    ((((d : Thread nD τ).loc cc0_scratch3) ↦{q} f : sProp 𝕄))
      ⊣⊢ iprop(((bRv0 : Memref sig .tc .vmem S384x256 .bf16).view.loc (d : Thread nD τ) ↦[(bRv0 : Memref sig .tc .vmem S384x256 .bf16).view.set]{q} f)
          ∗ ((bRv1 : Memref sig .tc .vmem S384x256 .bf16).view.loc (d : Thread nD τ) ↦[(bRv1 : Memref sig .tc .vmem S384x256 .bf16).view.set]{q} f)
          ∗ ((bRv2 : Memref sig .tc .vmem S384x256 .bf16).view.loc (d : Thread nD τ) ↦[(bRv2 : Memref sig .tc .vmem S384x256 .bf16).view.set]{q} f)) := by
  have e0 : (bRv0 : Memref sig .tc .vmem S384x256 .bf16).view.set = rB0.set := View.set_slice_whole cc0_scratch3 _
  have e1 : (bRv1 : Memref sig .tc .vmem S384x256 .bf16).view.set = rB1.set := View.set_slice_whole cc0_scratch3 _
  have e2 : (bRv2 : Memref sig .tc .vmem S384x256 .bf16).view.set = rB2.set := View.set_slice_whole cc0_scratch3 _
  have h1 := pt_union_eq (ℓ := ((d : Thread nD τ).loc cc0_scratch3)) (q := q) (f := f) colB_disjoint0
  rw [colB_cover, pt_union_eq colB_disjoint1] at h1
  rw [e0, e1, e2]
  exact .of_eq h1

/-- The full share is the left half beside the right half. -/
theorem share_halves {ℓ : Loc nD τ sig} (S : Finset ℓ.ty.Idx) (f : Buf (Elt F) ℓ) :
    ((ℓ ↦[S]{fullShare} f : sProp 𝕄)) ⊣⊢ iprop((ℓ ↦[S]{fullShare.left} f) ∗ (ℓ ↦[S]{fullShare.right} f)) :=
  pointsTo_share (PosShare.mem_left_op_right fullShare)

/-! ## A write through a unit-stride slice of a whole buffer, in closed form -/

/-- Inside the slice the update reads its payload, whatever lies under it. -/
theorem updateSlice_congr_at {α : Type} {s u : Shape} (x x' : s.Idx → α) {upd upd' : u.Idx → α} {start start' : Fin s.rank → ℕ}
    (hu : upd = upd') (hs : start = start') (h : s.Slices start u) (h' : s.Slices start' u) (i : s.Idx)
    (hin : ∀ a : Fin s.rank, start a ≤ (i a).val ∧ (i a).val < start a + u.size (a.cast h.1.symm)) :
    updateSlice x upd start h i = updateSlice x' upd' start' h' i := by
  subst hu hs
  unfold updateSlice
  rw [dif_pos hin, dif_pos hin]

/-- Outside the slice the update leaves what lies under it. -/
theorem updateSlice_of_not_mem {α : Type} {s u : Shape} (x : s.Idx → α) (upd : u.Idx → α) (start : Fin s.rank → ℕ)
    (h : s.Slices start u) (i : s.Idx)
    (hout : ¬ ∀ a : Fin s.rank, start a ≤ (i a).val ∧ (i a).val < start a + u.size (a.cast h.1.symm)) :
    updateSlice x upd start h i = x i := by
  unfold updateSlice
  rw [dif_neg hout]

theorem aRvH_write (o : Dev nD) (f : (cc0_scratch2 : Ref sig .tc).ty.Contents (Elt F)) (w : S384x384.Idx → Elt F .bf16) :
    (aRvH o).view.write (Elt F) f w Finset.univ = updateSlice f w (k0_off2 o) ⟨rfl, k0_off2_inb o⟩ :=
  View.write_whole_slice_unit cc0_scratch2 (k0_off2 o) S384x384.size (k0_off2_inb o) f w

/-- The receive buffer's final contents on its own half of rows: what the x-peer staged, laid at that half. -/
theorem aRvV_own (c : Dev nD) (x : (cc0_scratch2 : Ref sig .tc).ty.Contents (Elt F)) (i : S768x384.Idx) (hi : i ∈ (rH c).set) :
    aRvV m c i = updateSlice x ((aSt : Memref sig .tc .vmem S384x384 .bf16).view.read (Elt F) (aStV m (xp c))) (k0_off2 c) ⟨rfl, k0_off2_inb c⟩ i := by
  unfold aRvV
  rw [aRvH_write, aRvH_write]
  refine (updateSlice_of_not_mem _ _ _ _ i fun h => ?_).trans ?_
  · exact Finset.disjoint_left.mp (rH_disjoint c) hi (Rect.mem_set_unit.mpr h)
  · exact updateSlice_congr_at _ _ rfl rfl _ _ i (Rect.mem_set_unit.mp hi)

/-- On the other half: what the y-peer's x-peer staged. -/
theorem aRvV_other (c : Dev nD) (x : (cc0_scratch2 : Ref sig .tc).ty.Contents (Elt F)) (i : S768x384.Idx) (hi : i ∈ (rH (yp c)).set) :
    aRvV m c i = updateSlice x ((aSt : Memref sig .tc .vmem S384x384 .bf16).view.read (Elt F) (aStV m (xp (yp c)))) (k0_off2 (yp c)) ⟨rfl, k0_off2_inb (yp c)⟩ i := by
  unfold aRvV
  rw [aRvH_write, aRvH_write]
  exact updateSlice_congr_at _ _ rfl rfl _ _ i (Rect.mem_set_unit.mp hi)

/-! ## The landings -/

/-- The x-copy of A: device `c`'s staged half lands in its x-peer's own-offset half, at that buffer's final contents. -/
theorem land_ax (c : Dev nD) (fd : Buf (Elt F) ((aRvH c).view.loc (xp c : Thread nD τ))) :
    ((aRvH c).view.loc (xp c : Thread nD τ) ↦[(aRvH c).view.set]{fullShare}
        ((aRvH c).view.write (Elt F) fd ((aSt : Memref sig .tc .vmem S384x384 .bf16).view.read (Elt F) (aStV m c)) Finset.univ) : sProp 𝕄)
      = ((aRvH (xp c)).view.loc (xp c : Thread nD τ) ↦[(aRvH (xp c)).view.set]{fullShare} aRvV m (xp c)) := by
  have hs : (rH (xp c)).set = (rH c).set := congrArg (fun r : Rect S768x384 => r.set) (Rect.unit_congr (off2_xp c) _ _)
  rw [set_aRvH, set_aRvH, hs]
  show (pointsTo ((xp c : Thread nD τ).loc cc0_scratch2) _ _ _ : sProp 𝕄) = pointsTo ((xp c : Thread nD τ).loc cc0_scratch2) _ _ _
  refine pointsTo_congr fun i hi => ?_
  rw [aRvH_write]
  exact (updateSlice_congr_at _ _ (by rw [xp_xp]) (off2_xp c).symm _ _ i (Rect.mem_set_unit.mp hi)).trans
    (aRvV_own m (xp c) fd i (by rw [hs]; exact hi)).symm

/-- The y-relay: the half device `c` received lands in its y-peer's other half. -/
theorem land_ay (c : Dev nD) (fd : Buf (Elt F) ((aRvH c).view.loc (yp c : Thread nD τ))) :
    ((aRvH c).view.loc (yp c : Thread nD τ) ↦[(aRvH c).view.set]{fullShare}
        ((aRvH c).view.write (Elt F) fd ((aRvH c).view.read (Elt F) (aRvV m c)) Finset.univ) : sProp 𝕄)
      = ((aRvH (yp (yp c))).view.loc (yp c : Thread nD τ) ↦[(aRvH (yp (yp c))).view.set]{fullShare} aRvV m (yp c)) := by
  have hs : (rH (yp (yp c))).set = (rH c).set := by rw [yp_yp]
  rw [set_aRvH, set_aRvH, hs]
  show (pointsTo ((yp c : Thread nD τ).loc cc0_scratch2) _ _ _ : sProp 𝕄) = pointsTo ((yp c : Thread nD τ).loc cc0_scratch2) _ _ _
  refine pointsTo_congr fun i hi => ?_
  rw [View.write_read_eq_piecewise, Finset.piecewise_eq_of_mem _ _ _ (by rw [View.setOn_univ, set_aRvH]; exact hi)]
  refine (aRvV_own m c fd i hi).trans ?_
  refine Eq.trans ?_ (aRvV_other m (yp c) fd i (by rw [hs]; exact hi)).symm
  exact updateSlice_congr_at _ _ (by rw [yp_yp]) (by rw [yp_yp]) _ _ i (Rect.mem_set_unit.mp hi)

/-- A B chunk lands in the same chunk of the x-peer's receive buffer. -/
theorem land_b0 (c : Dev nD) (fd : Buf (Elt F) ((bRv0 : Memref sig .tc .vmem S384x256 .bf16).view.loc (xp c : Thread nD τ))) :
    ((bRv0 : Memref sig .tc .vmem S384x256 .bf16).view.loc (xp c : Thread nD τ) ↦[(bRv0 : Memref sig .tc .vmem S384x256 .bf16).view.set]{fullShare}
        ((bRv0 : Memref sig .tc .vmem S384x256 .bf16).view.write (Elt F) fd ((bSt0 : Memref sig .tc .vmem S384x256 .bf16).view.read (Elt F) (bStV m c)) Finset.univ) : sProp 𝕄)
      = ((bRv0 : Memref sig .tc .vmem S384x256 .bf16).view.loc (xp c : Thread nD τ) ↦[(bRv0 : Memref sig .tc .vmem S384x256 .bf16).view.set]{fullShare} bRvV m (xp c)) := by
  refine pointsTo_congr fun i hi => ?_
  obtain ⟨y, rfl⟩ := View.exists_emb_of_mem_set _ hi
  rw [View.write_emb_of_mem _ _ (Finset.mem_univ y)]
  unfold bRvV
  rw [xp_xp]
  rfl
theorem land_b1 (c : Dev nD) (fd : Buf (Elt F) ((bRv1 : Memref sig .tc .vmem S384x256 .bf16).view.loc (xp c : Thread nD τ))) :
    ((bRv1 : Memref sig .tc .vmem S384x256 .bf16).view.loc (xp c : Thread nD τ) ↦[(bRv1 : Memref sig .tc .vmem S384x256 .bf16).view.set]{fullShare}
        ((bRv1 : Memref sig .tc .vmem S384x256 .bf16).view.write (Elt F) fd ((bSt1 : Memref sig .tc .vmem S384x256 .bf16).view.read (Elt F) (bStV m c)) Finset.univ) : sProp 𝕄)
      = ((bRv1 : Memref sig .tc .vmem S384x256 .bf16).view.loc (xp c : Thread nD τ) ↦[(bRv1 : Memref sig .tc .vmem S384x256 .bf16).view.set]{fullShare} bRvV m (xp c)) := by
  refine pointsTo_congr fun i hi => ?_
  obtain ⟨y, rfl⟩ := View.exists_emb_of_mem_set _ hi
  rw [View.write_emb_of_mem _ _ (Finset.mem_univ y)]
  unfold bRvV
  rw [xp_xp]
  rfl
theorem land_b2 (c : Dev nD) (fd : Buf (Elt F) ((bRv2 : Memref sig .tc .vmem S384x256 .bf16).view.loc (xp c : Thread nD τ))) :
    ((bRv2 : Memref sig .tc .vmem S384x256 .bf16).view.loc (xp c : Thread nD τ) ↦[(bRv2 : Memref sig .tc .vmem S384x256 .bf16).view.set]{fullShare}
        ((bRv2 : Memref sig .tc .vmem S384x256 .bf16).view.write (Elt F) fd ((bSt2 : Memref sig .tc .vmem S384x256 .bf16).view.read (Elt F) (bStV m c)) Finset.univ) : sProp 𝕄)
      = ((bRv2 : Memref sig .tc .vmem S384x256 .bf16).view.loc (xp c : Thread nD τ) ↦[(bRv2 : Memref sig .tc .vmem S384x256 .bf16).view.set]{fullShare} bRvV m (xp c)) := by
  refine pointsTo_congr fun i hi => ?_
  obtain ⟨y, rfl⟩ := View.exists_emb_of_mem_set _ hi
  rw [View.write_emb_of_mem _ _ (Finset.mem_univ y)]
  unfold bRvV
  rw [xp_xp]
  rfl

/-! ## A chunk loaded through the whole memref; whole buffers -/

/-- Through a whole buffer, the elements under a set of indices are those indices. -/
theorem setOn_whole (b : Ref sig .tc) (M : Finset b.ty.shape.Idx) : (View.whole b : View sig .tc _ _ _).setOn M = M := by
  unfold View.setOn
  exact Finset.map_refl

theorem setOn_bSt_0 : (bSt : Memref sig .tc .vmem S384x768 .bf16).view.setOn rB0.toLoadRect.set ⊆ (bSt0 : Memref sig .tc .vmem S384x256 .bf16).view.set := by
  have e : (bSt0 : Memref sig .tc .vmem S384x256 .bf16).view.set = rB0.set := View.set_slice_whole cc0_scratch1 _
  rw [e]
  exact (setOn_whole cc0_scratch1 _).subset
theorem setOn_bSt_1 : (bSt : Memref sig .tc .vmem S384x768 .bf16).view.setOn rB1.toLoadRect.set ⊆ (bSt1 : Memref sig .tc .vmem S384x256 .bf16).view.set := by
  have e : (bSt1 : Memref sig .tc .vmem S384x256 .bf16).view.set = rB1.set := View.set_slice_whole cc0_scratch1 _
  rw [e]
  exact (setOn_whole cc0_scratch1 _).subset
theorem setOn_bSt_2 : (bSt : Memref sig .tc .vmem S384x768 .bf16).view.setOn rB2.toLoadRect.set ⊆ (bSt2 : Memref sig .tc .vmem S384x256 .bf16).view.set := by
  have e : (bSt2 : Memref sig .tc .vmem S384x256 .bf16).view.set = rB2.set := View.set_slice_whole cc0_scratch1 _
  rw [e]
  exact (setOn_whole cc0_scratch1 _).subset
theorem setOn_bRv_0 : (bRv : Memref sig .tc .vmem S384x768 .bf16).view.setOn rB0.toLoadRect.set ⊆ (bRv0 : Memref sig .tc .vmem S384x256 .bf16).view.set := by
  have e : (bRv0 : Memref sig .tc .vmem S384x256 .bf16).view.set = rB0.set := View.set_slice_whole cc0_scratch3 _
  rw [e]
  exact (setOn_whole cc0_scratch3 _).subset
theorem setOn_bRv_1 : (bRv : Memref sig .tc .vmem S384x768 .bf16).view.setOn rB1.toLoadRect.set ⊆ (bRv1 : Memref sig .tc .vmem S384x256 .bf16).view.set := by
  have e : (bRv1 : Memref sig .tc .vmem S384x256 .bf16).view.set = rB1.set := View.set_slice_whole cc0_scratch3 _
  rw [e]
  exact (setOn_whole cc0_scratch3 _).subset
theorem setOn_bRv_2 : (bRv : Memref sig .tc .vmem S384x768 .bf16).view.setOn rB2.toLoadRect.set ⊆ (bRv2 : Memref sig .tc .vmem S384x256 .bf16).view.set := by
  have e : (bRv2 : Memref sig .tc .vmem S384x256 .bf16).view.set = rB2.set := View.set_slice_whole cc0_scratch3 _
  rw [e]
  exact (setOn_whole cc0_scratch3 _).subset

theorem bRv_whole_eq (d : Dev nD) (q : PosShare TreeShare) (f : Buf (Elt F) ((d : Thread nD τ).loc cc0_scratch3)) :
    ((bRv : Memref sig .tc .vmem S384x768 .bf16).view.loc (d : Thread nD τ) ↦[(bRv : Memref sig .tc .vmem S384x768 .bf16).view.set]{q} f : sProp 𝕄) = (((d : Thread nD τ).loc cc0_scratch3) ↦{q} f) := by
  have e : (bRv : Memref sig .tc .vmem S384x768 .bf16).view.set = Finset.univ := View.set_whole cc0_scratch3
  rw [e]
theorem aSt_whole_eq (d : Dev nD) (q : PosShare TreeShare) (f : Buf (Elt F) ((d : Thread nD τ).loc cc0_scratch0)) :
    ((aSt : Memref sig .tc .vmem S384x384 .bf16).view.loc (d : Thread nD τ) ↦[(aSt : Memref sig .tc .vmem S384x384 .bf16).view.set]{q} f : sProp 𝕄) = (((d : Thread nD τ).loc cc0_scratch0) ↦{q} f) := by
  have e : (aSt : Memref sig .tc .vmem S384x384 .bf16).view.set = Finset.univ := View.set_whole cc0_scratch0
  rw [e]

/-! ## Whole-buffer loads and stores -/

/-- The zero offsets of a rank-two access, spelt as a literal. -/
theorem zero2 : (![0, 0] : Fin 2 → ℕ) = fun _ => 0 := funext fun a => by fin_cases a <;> rfl

abbrev rAw : Rect S768x384 := Rect.unit (s := S768x384) ![0, 0] S768x384.size inb_S768x384_S768x384_0_0
abbrev rBw : Rect S384x768 := Rect.unit (s := S384x768) ![0, 0] S384x768.size inb_S384x768_S384x768_0_0
abbrev rSw : Rect S384x384 := Rect.unit (s := S384x384) ![0, 0] S384x384.size inb_S384x384_S384x384_0_0

theorem read_aIn (f : (cc0_stg0_0 : Ref sig .tc).ty.Contents (Elt F)) : (aIn : Memref sig .tc .vmem S768x384 .f32).view.readAt (Elt F) rAw.toLoadRect f = f :=
  Memref.readAt_unit_zero (Elt F) cc0_stg0_0 zero2 _ f
theorem read_bIn (f : (cc0_stg1_0 : Ref sig .tc).ty.Contents (Elt F)) : (bIn : Memref sig .tc .vmem S384x768 .f32).view.readAt (Elt F) rBw.toLoadRect f = f :=
  Memref.readAt_unit_zero (Elt F) cc0_stg1_0 zero2 _ f
theorem read_aRv (f : (cc0_scratch2 : Ref sig .tc).ty.Contents (Elt F)) : (aRv : Memref sig .tc .vmem S768x384 .bf16).view.readAt (Elt F) rAw.toLoadRect f = f :=
  Memref.readAt_unit_zero (Elt F) cc0_scratch2 zero2 _ f
theorem write_aSt (f w : (cc0_scratch0 : Ref sig .tc).ty.Contents (Elt F)) :
    ((aSt : Memref sig .tc .vmem S384x384 .bf16).access rSw : View sig .tc _ _ _).write (Elt F) f w Finset.univ = w :=
  Memref.write_access_unit_zero_univ (Elt F) cc0_scratch0 zero2 _ f w
theorem write_bSt (f w : (cc0_scratch1 : Ref sig .tc).ty.Contents (Elt F)) :
    ((bSt : Memref sig .tc .vmem S384x768 .bf16).access rBw : View sig .tc _ _ _).write (Elt F) f w Finset.univ = w :=
  Memref.write_access_unit_zero_univ (Elt F) cc0_scratch1 zero2 _ f w

/-! ## The three column chunks of the [768, 768] result -/

/-- An index lies in the chunk of 256 columns from column `k` exactly when its column does. -/
theorem mem_colO {k : ℕ} (inb : ∀ a, (![0, k] : Fin 2 → ℕ) a + S768x256.size a ≤ S768x768.size a) (i : S768x768.Idx) :
    i ∈ (Rect.unit (s := S768x768) ![0, k] S768x256.size inb).set ↔ k ≤ (i 1 : ℕ) ∧ (i 1 : ℕ) < k + 256 := by
  have h0 : (i 0 : ℕ) < 768 := (i 0).isLt
  rw [Rect.mem_set_unit, Fin.forall_fin_two]
  simp only [Matrix.cons_val_zero, Matrix.cons_val_one, Matrix.head_cons]
  constructor
  · rintro ⟨_, h⟩; exact h
  · intro h; exact ⟨⟨Nat.zero_le _, by omega⟩, h⟩

theorem colO_d01 : Disjoint rO0.set rO1.set := by
  rw [Finset.disjoint_left]; intro i h h'; rw [mem_colO] at h h'; omega
theorem colO_d02 : Disjoint rO0.set rO2.set := by
  rw [Finset.disjoint_left]; intro i h h'; rw [mem_colO] at h h'; omega
theorem colO_d12 : Disjoint rO1.set rO2.set := by
  rw [Finset.disjoint_left]; intro i h h'; rw [mem_colO] at h h'; omega

theorem colO_cover (i : S768x768.Idx) : i ∈ rO0.set ∨ i ∈ rO1.set ∨ i ∈ rO2.set := by
  have h1 : (i 1 : ℕ) < 768 := (i 1).isLt
  rw [mem_colO, mem_colO, mem_colO]
  omega

theorem set_oV (r : Rect S768x768) : ((oM : Memref sig .tc .vmem S768x768 .f32).access r : View sig .tc _ _ _).set = r.set :=
  View.set_slice_whole cc0_stg2_0 r

/-- A write to one rectangle of the result buffer is not seen through a rectangle disjoint from it. -/
theorem read_write_ne {rJ rK : Rect S768x768} (hd : Disjoint rJ.set rK.set) (f : (cc0_stg2_0 : Ref sig .tc).ty.Contents (Elt F))
    (w : rK.shape.Idx → Elt F .f32) :
    (oM : Memref sig .tc .vmem S768x768 .f32).view.readAt (Elt F) rJ.toLoadRect (((oM : Memref sig .tc .vmem S768x768 .f32).access rK : View sig .tc _ _ _).write (Elt F) f w Finset.univ)
      = (oM : Memref sig .tc .vmem S768x768 .f32).view.readAt (Elt F) rJ.toLoadRect f :=
  View.read_slice_write_slice_of_disjoint (v := View.whole cc0_stg2_0) rJ rK f w Finset.univ
    (by rw [View.setOn_univ, View.set_slice_whole, View.set_slice_whole]; exact hd)

/-! ## The result buffer written chunk by chunk, twice -/

/-- Reading a column chunk of the result buffer just written there gives what was written. -/
theorem read_write_o0 (f : (cc0_stg2_0 : Ref sig .tc).ty.Contents (Elt F)) (w : FVec F S768x256 .f32) :
    (oM : Memref sig .tc .vmem S768x768 .f32).view.readAt (Elt F) rO0.toLoadRect
      (((oM : Memref sig .tc .vmem S768x768 .f32).access rO0 : View sig .tc _ _ _).write (Elt F) f w Finset.univ) = w :=
  View.read_write_univ (v := ((oM : Memref sig .tc .vmem S768x768 .f32).access rO0 : View sig .tc _ _ _)) f w

/-- The body's six chunk stores (three products, then each chunk re-read and the second product added), from ANY initial
    contents `d`, leave the result buffer at `outV`. -/
theorem out_final (c : Dev nD) (d : (cc0_stg2_0 : Ref sig .tc).ty.Contents (Elt F)) :
    let o1 := ((oM : Memref sig .tc .vmem S768x768 .f32).access rO0 : View sig .tc _ _ _).write (Elt F) d (k0_pay4 (Ain m c) (chB0 (bStV m c))) Finset.univ
    let o2 := ((oM : Memref sig .tc .vmem S768x768 .f32).access rO1 : View sig .tc _ _ _).write (Elt F) o1 (k0_pay5 (Ain m c) (chB1 (bStV m c))) Finset.univ
    let o3 := ((oM : Memref sig .tc .vmem S768x768 .f32).access rO2 : View sig .tc _ _ _).write (Elt F) o2 (k0_pay6 (k0_pay3 (Ain m c)) (chB2 (bStV m c)) (constant S768x256 .f32 0x00000000#32)) Finset.univ
    let o4 := ((oM : Memref sig .tc .vmem S768x768 .f32).access rO0 : View sig .tc _ _ _).write (Elt F) o3
      (k0_pay7 (aRvV m c) ((oM : Memref sig .tc .vmem S768x768 .f32).view.readAt (Elt F) rO0.toLoadRect o3) (chR0 (bRvV m c))) Finset.univ
    let o5 := ((oM : Memref sig .tc .vmem S768x768 .f32).access rO1 : View sig .tc _ _ _).write (Elt F) o4
      (k0_pay8 (aRvV m c) ((oM : Memref sig .tc .vmem S768x768 .f32).view.readAt (Elt F) rO1.toLoadRect o4) (chR1 (bRvV m c))) Finset.univ
    let o6 := ((oM : Memref sig .tc .vmem S768x768 .f32).access rO2 : View sig .tc _ _ _).write (Elt F) o5
      (k0_pay9 (aRvV m c) ((oM : Memref sig .tc .vmem S768x768 .f32).view.readAt (Elt F) rO2.toLoadRect o5) (chR2 (bRvV m c))) Finset.univ
    o6 = outV m c := by
  intro o1 o2 o3 o4 o5 o6
  -- each chunk, re-read after the three first stores, is the product stored there
  have e4 : (oM : Memref sig .tc .vmem S768x768 .f32).view.readAt (Elt F) rO0.toLoadRect o3 = k0_pay4 (Ain m c) (chB0 (bStV m c)) :=
    (read_write_ne colO_d02 o2 _).trans ((read_write_ne colO_d01 o1 _).trans (View.read_write_univ (v := ((oM : Memref sig .tc .vmem S768x768 .f32).access rO0 : View sig .tc _ _ _)) d _))
  have w4 : k0_pay7 (aRvV m c) ((oM : Memref sig .tc .vmem S768x768 .f32).view.readAt (Elt F) rO0.toLoadRect o3) (chR0 (bRvV m c)) = outCh0 m c := by rw [e4]; rfl
  have e5 : (oM : Memref sig .tc .vmem S768x768 .f32).view.readAt (Elt F) rO1.toLoadRect o4 = k0_pay5 (Ain m c) (chB1 (bStV m c)) :=
    (read_write_ne colO_d01.symm o3 _).trans ((read_write_ne colO_d12 o2 _).trans (View.read_write_univ (v := ((oM : Memref sig .tc .vmem S768x768 .f32).access rO1 : View sig .tc _ _ _)) o1 _))
  have w5 : k0_pay8 (aRvV m c) ((oM : Memref sig .tc .vmem S768x768 .f32).view.readAt (Elt F) rO1.toLoadRect o4) (chR1 (bRvV m c)) = outCh1 m c := by rw [e5]; rfl
  have e6 : (oM : Memref sig .tc .vmem S768x768 .f32).view.readAt (Elt F) rO2.toLoadRect o5 = k0_pay6 (k0_pay3 (Ain m c)) (chB2 (bStV m c)) (constant S768x256 .f32 0x00000000#32) :=
    (read_write_ne colO_d12.symm o4 _).trans ((read_write_ne colO_d02.symm o3 _).trans (View.read_write_univ (v := ((oM : Memref sig .tc .vmem S768x768 .f32).access rO2 : View sig .tc _ _ _)) o2 _))
  have w6 : k0_pay9 (aRvV m c) ((oM : Memref sig .tc .vmem S768x768 .f32).view.readAt (Elt F) rO2.toLoadRect o5) (chR2 (bRvV m c)) = outCh2 m c := by rw [e6]; rfl
  -- the second stores write the three final chunks, and the chunks cover the buffer
  funext i
  unfold outV
  refine View.write_congr (v := ((oM : Memref sig .tc .vmem S768x768 .f32).access rO2 : View sig .tc _ _ _)) (fun x _ _ => congrFun w6 x) fun h2 => ?_
  refine View.write_congr (v := ((oM : Memref sig .tc .vmem S768x768 .f32).access rO1 : View sig .tc _ _ _)) (fun x _ _ => congrFun w5 x) fun h1 => ?_
  refine View.write_congr (v := ((oM : Memref sig .tc .vmem S768x768 .f32).access rO0 : View sig .tc _ _ _)) (fun x _ _ => congrFun w4 x) fun h0 => ?_
  exfalso
  rw [View.setOn_univ, set_oV] at h0 h1 h2
  rcases colO_cover i with h | h | h
  · exact h0 h
  · exact h1 h
  · exact h2 h

end Cert.KernelIdeal.Mm

end
-- ==== Proof.Levels.lean ====
/-
  The deadlock argument's levels: a device waits on its barrier cell (level 1) while it owes only receive credit (levels
  2 and 3), on its x-copy's receive cell (level 2) while it owes only the y-relay's receive credit (level 3), and on
  everything else owing nothing; the pipeline's staging waits are at level 0, below all a device ever owes.
-/
import proofs.«900556_g7700000000000557_dist_matmul_kn_xy_m768_n768_k384_v7x_xy2x2_f32_1_alg».proof.Proof.Sched

noncomputable section

namespace Cert.KernelIdeal.Mm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Two cells are equal exactly when their devices and their semaphore indices are. -/
theorem cell_eq_iff {a b : Dev nD} {j k : Fin 11} : cell a j = cell b k ↔ a = b ∧ j = k :=
  ⟨fun h => ⟨congrArg (fun g : GSem nD τ sig => g.1.1) h, csem_injective (congrArg Prod.snd h)⟩, fun h => by rw [h.1, h.2]⟩

/-- The y-relay's landing is the only thing owed last. -/
theorem O6_pos {c : Dev nD} {g : GSem nD τ sig} {u : Unit} (h : 0 < O6 c g u) : g = cell (yp c) 4 :=
  (Pipeline.tallyAt_pos h).1

/-- After both signals a device owes the five landings only. -/
theorem O2_pos {c : Dev nD} {g : GSem nD τ sig} {u : Unit} (h : 0 < O2 c g u) :
    g = cell (xp c) 2 ∨ g = cell (xp c) 8 ∨ g = cell (xp c) 9 ∨ g = cell (xp c) 10 ∨ g = cell (yp c) 4 := by
  unfold O2 O3 O4 O5 at h
  rcases Pipeline.add_pos_cases h with h | h
  · rcases Pipeline.add_pos_cases h with h | h
    · rcases Pipeline.add_pos_cases h with h | h
      · rcases Pipeline.add_pos_cases h with h | h
        · exact .inr (.inr (.inr (.inr (O6_pos h))))
        · exact .inr (.inr (.inr (.inl (Pipeline.tallyAt_pos h).1)))
      · exact .inr (.inr (.inl (Pipeline.tallyAt_pos h).1))
    · exact .inr (.inl (Pipeline.tallyAt_pos h).1)
  · exact .inl (Pipeline.tallyAt_pos h).1

/-- A device owes only its peers' barrier and receive cells. -/
theorem O₀_pos {c : Dev nD} {g : GSem nD τ sig} {u : Unit} (h : 0 < O₀ c g u) :
    g = cell (xp c) 0 ∨ g = cell (yp c) 0 ∨ g = cell (xp c) 2 ∨ g = cell (xp c) 8 ∨ g = cell (xp c) 9 ∨ g = cell (xp c) 10 ∨ g = cell (yp c) 4 := by
  unfold O₀ O1 at h
  rcases Pipeline.add_pos_cases h with h | h
  · rcases Pipeline.add_pos_cases h with h | h
    · exact .inr (.inr (O2_pos h))
    · exact .inr (.inl (Pipeline.tallyAt_pos h).1)
  · exact .inl (Pipeline.tallyAt_pos h).1

/-- Every cell of a device carries the one index. -/
theorem mem_L_cell (c : Dev nD) (k : Fin 11) (u : Unit) : u ∈ L (cell c k) := by
  rw [L_tc]; exact Finset.mem_singleton_self _

/-- A wait on a DMA cell of level 0 (a staging cell, a send cell), owing everything or nothing. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl | rfl <;> exact mem_L_cell _ _ _)
      (fun p hp => by rw [Finset.mem_singleton.mp hp]; exact le_of_eq hq)
      (fun g u hg => by
        rcases O₀_pos hg with rfl | rfl | rfl | rfl | rfl | rfl | rfl <;> (show 0 < lv (cell _ _) (); rw [lv_cell]; decide))
  · rw [MayWait_zero]; iintro -; iempintro

/-- The barrier wait, owing the five landings. -/
theorem mayWait_bar (c : Dev nD) : (levAts L lv : sProp 𝕄) ⊢ MayWait (c : Thread nD τ) (.reg barS) () (O2 c) :=
  MayOwe.of_cut (L := L) (lev := lv) 1 (fun p hp => by rw [Finset.mem_singleton.mp hp, L_tc]; exact Finset.mem_singleton_self _)
    (fun g u hg => by rcases O2_pos hg with rfl | rfl | rfl | rfl | rfl <;> exact mem_L_cell _ _ _)
    (fun p hp => by rw [Finset.mem_singleton.mp hp]; show lv (cell c 0) () ≤ 1; rw [lv_cell]; decide)
    (fun g u hg => by
      rcases O2_pos hg with rfl | rfl | rfl | rfl | rfl <;> (show 1 < lv (cell _ _) (); rw [lv_cell]; decide))

/-- The wait for the x-copy's landing, owing the y-relay's landing only. -/
theorem mayWait_axR (c : Dev nD) : (levAts L lv : sProp 𝕄) ⊢ MayWait (c : Thread nD τ) (.dma axR) () (O6 c) :=
  MayOwe.of_cut (L := L) (lev := lv) 2 (fun p hp => by rw [Finset.mem_singleton.mp hp, L_tc]; exact Finset.mem_singleton_self _)
    (fun g u hg => by rw [O6_pos hg]; exact mem_L_cell _ _ _)
    (fun p hp => by rw [Finset.mem_singleton.mp hp]; show lv (cell c 2) () ≤ 2; rw [lv_cell]; decide)
    (fun g u hg => by rw [O6_pos hg]; show 2 < lv (cell _ _) (); rw [lv_cell]; decide)

end Cert.KernelIdeal.Mm

end
-- ==== Proof.Body.lean ====
/-
  One device's body, stepped in program order: the two barrier signals hand each peer the part of this device's receive
  buffers that peer will write; the barrier wait brings the peers' parts; each transfer pays its landing's duty with the
  destination rewritten; the local products are stored; the receive waits bring the landed rows and columns; the second
  products are added; the send waits bring the sources' shares back; the ten own cells close.
-/
import proofs.«900556_g7700000000000557_dist_matmul_kn_xy_m768_n768_k384_v7x_xy2x2_f32_1_alg».proof.Proof.Data
import proofs.«900556_g7700000000000557_dist_matmul_kn_xy_m768_n768_k384_v7x_xy2x2_f32_1_alg».proof.Proof.Views
import proofs.«900556_g7700000000000557_dist_matmul_kn_xy_m768_n768_k384_v7x_xy2x2_f32_1_alg».proof.Proof.Levels

noncomputable section

namespace Cert.KernelIdeal.Mm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the first signal hands the x-peer: this device's own-offset half of its A receive buffer and its B receive buffer. -/
theorem pay_bar_x (c : Dev nD) (f1 : Buf (Elt F) ((c : Thread nD τ).loc cc0_scratch2)) (f2 : Buf (Elt F) ((c : Thread nD τ).loc cc0_scratch3)) :
    iprop(((aRvH c).view.loc (c : Thread nD τ) ↦[(aRvH c).view.set]{fullShare} f1) ∗ (((c : Thread nD τ).loc cc0_scratch3) ↦{fullShare} f2))
      ⊢ (Rd m).payload (cell (xp c) 0) 0 false := by
  rw [payload_cell]
  show _ ⊢ iprop((∃ f, (aRvH (xp c)).view.loc (xp (xp c) : Thread nD τ) ↦[(aRvH (xp c)).view.set]{fullShare} f)
        ∗ (∃ f, (bRv : Memref sig .tc .vmem S384x768 .bf16).view.loc (xp (xp c) : Thread nD τ) ↦[(bRv : Memref sig .tc .vmem S384x768 .bf16).view.set]{fullShare} f))
  rw [xp_xp, aRvH_xp]
  iintro ⟨H1, H2⟩
  isplitl [H1]
  · iexists f1; iexact H1
  · iexists f2; rw [View.set_whole]; iexact H2

/-- What the second signal hands the y-peer: the other half of this device's A receive buffer. -/
theorem pay_bar_y (c : Dev nD) (f1 : Buf (Elt F) ((c : Thread nD τ).loc cc0_scratch2)) :
    ((aRvH (yp c)).view.loc (c : Thread nD τ) ↦[(aRvH (yp c)).view.set]{fullShare} f1 : sProp 𝕄)
      ⊢ (Rd m).payload (cell (yp c) 0) 0 true := by
  rw [payload_cell]
  show _ ⊢ iprop(∃ f, (aRvH (yp c)).view.loc (yp (yp c) : Thread nD τ) ↦[(aRvH (yp c)).view.set]{fullShare} f)
  rw [yp_yp]
  iintro H1
  iexists f1; iexact H1

theorem pay0f (c : Dev nD) : pay m 0 c false = iprop((∃ f, (aRvH c).view.loc (xp c : Thread nD τ) ↦[(aRvH c).view.set]{fullShare} f)
        ∗ (∃ f, (bRv : Memref sig .tc .vmem S384x768 .bf16).view.loc (xp c : Thread nD τ) ↦[(bRv : Memref sig .tc .vmem S384x768 .bf16).view.set]{fullShare} f)) := rfl
theorem pay0t (c : Dev nD) : pay m 0 c true = iprop(∃ f, (aRvH c).view.loc (yp c : Thread nD τ) ↦[(aRvH c).view.set]{fullShare} f) := rfl
theorem amt_0 : amt 0 = 1 := rfl
theorem amt_A (k : Fin 11) (h0 : k ≠ 0) (h4 : k.val ≤ 4) : amt k = NA := by unfold amt; rw [if_neg h0, if_pos h4]
theorem amt_B (k : Fin 11) (h4 : ¬ k.val ≤ 4) : amt k = NB := by
  unfold amt; rw [if_neg (fun h => h4 (by rw [h]; decide)), if_neg h4]

theorem pay2 (c : Dev nD) : pay m 2 c false = ((aRvH c).view.loc (c : Thread nD τ) ↦[(aRvH c).view.set]{fullShare} aRvV m c) := rfl
theorem pay4 (c : Dev nD) : pay m 4 c false = ((aRvH (yp c)).view.loc (c : Thread nD τ) ↦[(aRvH (yp c)).view.set]{fullShare} aRvV m c) := rfl
theorem pay1 (c : Dev nD) : pay m 1 c false = ((aSt : Memref sig .tc .vmem S384x384 .bf16).view.loc (c : Thread nD τ) ↦[(aSt : Memref sig .tc .vmem S384x384 .bf16).view.set]{fullShare} aStV m c) := rfl
theorem pay3 (c : Dev nD) : pay m 3 c false = ((aRvH c).view.loc (c : Thread nD τ) ↦[(aRvH c).view.set]{qs} aRvV m c) := rfl
theorem pay5 (c : Dev nD) : pay m 5 c false = ((bSt0 : Memref sig .tc .vmem S384x256 .bf16).view.loc (c : Thread nD τ) ↦[(bSt0 : Memref sig .tc .vmem S384x256 .bf16).view.set]{qs} k0_pay2 (Bin m c)) := rfl
theorem pay6 (c : Dev nD) : pay m 6 c false = ((bSt1 : Memref sig .tc .vmem S384x256 .bf16).view.loc (c : Thread nD τ) ↦[(bSt1 : Memref sig .tc .vmem S384x256 .bf16).view.set]{qs} k0_pay2 (Bin m c)) := rfl
theorem pay7 (c : Dev nD) : pay m 7 c false = ((bSt2 : Memref sig .tc .vmem S384x256 .bf16).view.loc (c : Thread nD τ) ↦[(bSt2 : Memref sig .tc .vmem S384x256 .bf16).view.set]{qs} k0_pay2 (Bin m c)) := rfl
theorem pay8 (c : Dev nD) : pay m 8 c false = ((bRv0 : Memref sig .tc .vmem S384x256 .bf16).view.loc (c : Thread nD τ) ↦[(bRv0 : Memref sig .tc .vmem S384x256 .bf16).view.set]{fullShare} bRvV m c) := rfl
theorem pay9 (c : Dev nD) : pay m 9 c false = ((bRv1 : Memref sig .tc .vmem S384x256 .bf16).view.loc (c : Thread nD τ) ↦[(bRv1 : Memref sig .tc .vmem S384x256 .bf16).view.set]{fullShare} bRvV m c) := rfl
theorem pay10 (c : Dev nD) : pay m 10 c false = ((bRv2 : Memref sig .tc .vmem S384x256 .bf16).view.loc (c : Thread nD τ) ↦[(bRv2 : Memref sig .tc .vmem S384x256 .bf16).view.set]{fullShare} bRvV m c) := rfl

theorem aStW_eq (d : Dev nD) (q : PosShare TreeShare) (f : Buf (Elt F) ((d : Thread nD τ).loc cc0_scratch0)) :
    ((aSt : Memref sig .tc .vmem S384x384 .bf16).view.loc (d : Thread nD τ) ↦[(aSt : Memref sig .tc .vmem S384x384 .bf16).view.set]{q} f : sProp 𝕄)
      = (((d : Thread nD τ).loc cc0_scratch0) ↦{q} f) := by rw [View.set_whole]
theorem bRvW_eq (d : Dev nD) (q : PosShare TreeShare) (f : Buf (Elt F) ((d : Thread nD τ).loc cc0_scratch3)) :
    ((bRv : Memref sig .tc .vmem S384x768 .bf16).view.loc (d : Thread nD τ) ↦[(bRv : Memref sig .tc .vmem S384x768 .bf16).view.set]{q} f : sProp 𝕄)
      = (((d : Thread nD τ).loc cc0_scratch3) ↦{q} f) := by rw [View.set_whole]

theorem closed_eq (c : Dev nD) : closed (F := F) c = iprop(semVal (cell c 1) 0 ∗ semVal (cell c 2) 0 ∗ semVal (cell c 3) 0 ∗ semVal (cell c 4) 0 ∗ semVal (cell c 5) 0
    ∗ semVal (cell c 6) 0 ∗ semVal (cell c 7) 0 ∗ semVal (cell c 8) 0 ∗ semVal (cell c 9) 0 ∗ semVal (cell c 10) 0) := by
  unfold closed
  exact bigSep_univ_eq_bigSepL [(0 : Fin 10), 1, 2, 3, 4, 5, 6, 7, 8, 9] (by decide) (by decide) _

theorem wp_send_ax (K : Dev nD × Fin 11 → ℕ) (c n : Dev nD) (hn : n = xp c)
    {hsc : (aRvH c : Memref sig (Dev.tc n : Thread nD τ).2.kind .vmem S384x384 .bf16).view.ref.isScScratch = false}
    {hsrc : (aSt : Memref sig .tc .vmem S384x384 .bf16).view.WordExact} {hdst : (aRvH c : Memref sig .tc .vmem S384x384 .bf16).view.WordExact}
    {hsem : DmaTarget.Typed .vmem (.dma axR) (.remote (Dev.tc n : Thread nD τ) (aRvH c : Memref sig .tc .vmem S384x384 .bf16) (.dma axS) hsc)}
    {α : Type} {Q : α → sProp 𝕄} {k : PUnit → Prog (TpuEff nD τ sig (Elt F) Λ₀ .tc) α}
    (fd : Buf (Elt F) ((aRvH c : Memref sig .tc .vmem S384x384 .bf16).view.loc (xp c : Thread nD τ))) (O : CellTallies nD τ sig Unit) (W : Waits sig Unit) :
    iprop(records m K
        ∗ ((aSt : Memref sig .tc .vmem S384x384 .bf16).view.loc (c : Thread nD τ) ↦[(aSt : Memref sig .tc .vmem S384x384 .bf16).view.set]{fullShare} aStV m c)
        ∗ ((aRvH c : Memref sig .tc .vmem S384x384 .bf16).view.loc (xp c : Thread nD τ) ↦[(aRvH c : Memref sig .tc .vmem S384x384 .bf16).view.set]{fullShare} fd)
        ∗ owes (c : Thread nD τ) (O + tallyAt (cell (xp c) 2) () NA) W
        ∗ dutyTok ER (cell c 1) 0 false ∗ dutyTok ER (cell (xp c) 2) 0 false)
      ⊢ iprop(((cred (tallyAt (cell c 1) () NA) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aSt : Memref sig .tc .vmem S384x384 .bf16) (.remote (Dev.tc n : Thread nD τ) (aRvH c : Memref sig .tc .vmem S384x384 .bf16) (.dma axS) hsc) (.dma axR) hsrc hdst hsem) k) Q) := by
  subst hn
  iintro ⟨#Hrec, Hs, Hd, HO, Ht1, Ht2⟩
  iapply (Rounds.wp_send_pointsTo 𝒱₀ ER (Rd m) (c : Thread nD τ) none (κ₁ := K (c, 1)) (κ₂ := K (xp c, 2))
    (r₁ := 0) (r₂ := 0) (d₁ := false) (d₂ := false) (fd := fd) (q := fullShare) (fs := aStV m c)
    (by rw [duties_dma m c 1 (by decide)]; exact Finset.mem_singleton_self _)
    (by rw [duties_dma m (xp c) 2 (by decide)]; exact Finset.mem_singleton_self _)
    () () NA rfl ((amount_cell m c 1 false).trans (amt_A 1 (by decide) (by decide))) ((amount_cell m (xp c) 2 false).trans (amt_A 2 (by decide) (by decide))) O rfl (W := W)
    (by rw [payload_cell]; exact BI.Entails.refl _)
    (by rw [payload_cell]; exact Entails.of_eq (land_ax m c fd))) $$ [Hs Hd HO Ht1 Ht2]
  isplitr; · iapply (inv_at m K (c, 1)); iexact Hrec
  isplitr; · iapply (inv_at m K (xp c, 2)); iexact Hrec
  isplitl [Hs]; · iexact Hs
  isplitl [Hd]; · iexact Hd
  isplitl [HO]; · iexact HO
  isplitl [Ht1]; · iexact Ht1
  isplitr; · iapply (reached_at m K (c, 1)); iexact Hrec
  isplitl [Ht2]; · iexact Ht2
  iapply (reached_at m K (xp c, 2)); iexact Hrec

theorem wp_send_ay (K : Dev nD × Fin 11 → ℕ) (c n : Dev nD) (hn : n = yp c)
    {hsc : (aRvH c : Memref sig (Dev.tc n : Thread nD τ).2.kind .vmem S384x384 .bf16).view.ref.isScScratch = false}
    {hsrc : (aRvH c : Memref sig .tc .vmem S384x384 .bf16).view.WordExact} {hdst : (aRvH c : Memref sig .tc .vmem S384x384 .bf16).view.WordExact}
    {hsem : DmaTarget.Typed .vmem (.dma ayR) (.remote (Dev.tc n : Thread nD τ) (aRvH c : Memref sig .tc .vmem S384x384 .bf16) (.dma ayS) hsc)}
    {α : Type} {Q : α → sProp 𝕄} {k : PUnit → Prog (TpuEff nD τ sig (Elt F) Λ₀ .tc) α}
    (fd : Buf (Elt F) ((aRvH c : Memref sig .tc .vmem S384x384 .bf16).view.loc (yp c : Thread nD τ))) (O : CellTallies nD τ sig Unit) (W : Waits sig Unit) :
    iprop(records m K
        ∗ ((aRvH c : Memref sig .tc .vmem S384x384 .bf16).view.loc (c : Thread nD τ) ↦[(aRvH c : Memref sig .tc .vmem S384x384 .bf16).view.set]{qs} aRvV m c)
        ∗ ((aRvH c : Memref sig .tc .vmem S384x384 .bf16).view.loc (yp c : Thread nD τ) ↦[(aRvH c : Memref sig .tc .vmem S384x384 .bf16).view.set]{fullShare} fd)
        ∗ owes (c : Thread nD τ) (O + tallyAt (cell (yp c) 4) () NA) W
        ∗ dutyTok ER (cell c 3) 0 false ∗ dutyTok ER (cell (yp c) 4) 0 false)
      ⊢ iprop(((cred (tallyAt (cell c 3) () NA) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aRvH c : Memref sig .tc .vmem S384x384 .bf16) (.remote (Dev.tc n : Thread nD τ) (aRvH c : Memref sig .tc .vmem S384x384 .bf16) (.dma ayS) hsc) (.dma ayR) hsrc hdst hsem) k) Q) := by
  subst hn
  iintro ⟨#Hrec, Hs, Hd, HO, Ht1, Ht2⟩
  iapply (Rounds.wp_send_pointsTo 𝒱₀ ER (Rd m) (c : Thread nD τ) none (κ₁ := K (c, 3)) (κ₂ := K (yp c, 4))
    (r₁ := 0) (r₂ := 0) (d₁ := false) (d₂ := false) (fd := fd) (q := qs) (fs := aRvV m c)
    (by rw [duties_dma m c 3 (by decide)]; exact Finset.mem_singleton_self _)
    (by rw [duties_dma m (yp c) 4 (by decide)]; exact Finset.mem_singleton_self _)
    () () NA rfl ((amount_cell m c 3 false).trans (amt_A 3 (by decide) (by decide))) ((amount_cell m (yp c) 4 false).trans (amt_A 4 (by decide) (by decide))) O rfl (W := W)
    (by rw [payload_cell]; exact BI.Entails.refl _)
    (by rw [payload_cell]; exact Entails.of_eq (land_ay m c fd))) $$ [Hs Hd HO Ht1 Ht2]
  isplitr; · iapply (inv_at m K (c, 3)); iexact Hrec
  isplitr; · iapply (inv_at m K (yp c, 4)); iexact Hrec
  isplitl [Hs]; · iexact Hs
  isplitl [Hd]; · iexact Hd
  isplitl [HO]; · iexact HO
  isplitl [Ht1]; · iexact Ht1
  isplitr; · iapply (reached_at m K (c, 3)); iexact Hrec
  isplitl [Ht2]; · iexact Ht2
  iapply (reached_at m K (yp c, 4)); iexact Hrec

theorem wp_send_b0 (K : Dev nD × Fin 11 → ℕ) (c n : Dev nD) (hn : n = xp c)
    {hsc : (bRv0 : Memref sig (Dev.tc n : Thread nD τ).2.kind .vmem S384x256 .bf16).view.ref.isScScratch = false}
    {hsrc : (bSt0 : Memref sig .tc .vmem S384x256 .bf16).view.WordExact} {hdst : (bRv0 : Memref sig .tc .vmem S384x256 .bf16).view.WordExact}
    {hsem : DmaTarget.Typed .vmem (.dma bR0) (.remote (Dev.tc n : Thread nD τ) (bRv0 : Memref sig .tc .vmem S384x256 .bf16) (.dma bS0) hsc)}
    {α : Type} {Q : α → sProp 𝕄} {k : PUnit → Prog (TpuEff nD τ sig (Elt F) Λ₀ .tc) α}
    (fd : Buf (Elt F) ((bRv0 : Memref sig .tc .vmem S384x256 .bf16).view.loc (xp c : Thread nD τ))) (O : CellTallies nD τ sig Unit) (W : Waits sig Unit) :
    iprop(records m K
        ∗ ((bSt0 : Memref sig .tc .vmem S384x256 .bf16).view.loc (c : Thread nD τ) ↦[(bSt0 : Memref sig .tc .vmem S384x256 .bf16).view.set]{qs} bStV m c)
        ∗ ((bRv0 : Memref sig .tc .vmem S384x256 .bf16).view.loc (xp c : Thread nD τ) ↦[(bRv0 : Memref sig .tc .vmem S384x256 .bf16).view.set]{fullShare} fd)
        ∗ owes (c : Thread nD τ) (O + tallyAt (cell (xp c) 8) () NB) W
        ∗ dutyTok ER (cell c 5) 0 false ∗ dutyTok ER (cell (xp c) 8) 0 false)
      ⊢ iprop(((cred (tallyAt (cell c 5) () NB) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bSt0 : Memref sig .tc .vmem S384x256 .bf16) (.remote (Dev.tc n : Thread nD τ) (bRv0 : Memref sig .tc .vmem S384x256 .bf16) (.dma bS0) hsc) (.dma bR0) hsrc hdst hsem) k) Q) := by
  subst hn
  iintro ⟨#Hrec, Hs, Hd, HO, Ht1, Ht2⟩
  iapply (Rounds.wp_send_pointsTo 𝒱₀ ER (Rd m) (c : Thread nD τ) none (κ₁ := K (c, 5)) (κ₂ := K (xp c, 8))
    (r₁ := 0) (r₂ := 0) (d₁ := false) (d₂ := false) (fd := fd) (q := qs) (fs := bStV m c)
    (by rw [duties_dma m c 5 (by decide)]; exact Finset.mem_singleton_self _)
    (by rw [duties_dma m (xp c) 8 (by decide)]; exact Finset.mem_singleton_self _)
    () () NB rfl ((amount_cell m c 5 false).trans (amt_B 5 (by decide))) ((amount_cell m (xp c) 8 false).trans (amt_B 8 (by decide))) O rfl (W := W)
    (by rw [payload_cell]; exact BI.Entails.refl _)
    (by rw [payload_cell]; exact Entails.of_eq (land_b0 m c fd))) $$ [Hs Hd HO Ht1 Ht2]
  isplitr; · iapply (inv_at m K (c, 5)); iexact Hrec
  isplitr; · iapply (inv_at m K (xp c, 8)); iexact Hrec
  isplitl [Hs]; · iexact Hs
  isplitl [Hd]; · iexact Hd
  isplitl [HO]; · iexact HO
  isplitl [Ht1]; · iexact Ht1
  isplitr; · iapply (reached_at m K (c, 5)); iexact Hrec
  isplitl [Ht2]; · iexact Ht2
  iapply (reached_at m K (xp c, 8)); iexact Hrec

theorem wp_send_b1 (K : Dev nD × Fin 11 → ℕ) (c n : Dev nD) (hn : n = xp c)
    {hsc : (bRv1 : Memref sig (Dev.tc n : Thread nD τ).2.kind .vmem S384x256 .bf16).view.ref.isScScratch = false}
    {hsrc : (bSt1 : Memref sig .tc .vmem S384x256 .bf16).view.WordExact} {hdst : (bRv1 : Memref sig .tc .vmem S384x256 .bf16).view.WordExact}
    {hsem : DmaTarget.Typed .vmem (.dma bR1) (.remote (Dev.tc n : Thread nD τ) (bRv1 : Memref sig .tc .vmem S384x256 .bf16) (.dma bS1) hsc)}
    {α : Type} {Q : α → sProp 𝕄} {k : PUnit → Prog (TpuEff nD τ sig (Elt F) Λ₀ .tc) α}
    (fd : Buf (Elt F) ((bRv1 : Memref sig .tc .vmem S384x256 .bf16).view.loc (xp c : Thread nD τ))) (O : CellTallies nD τ sig Unit) (W : Waits sig Unit) :
    iprop(records m K
        ∗ ((bSt1 : Memref sig .tc .vmem S384x256 .bf16).view.loc (c : Thread nD τ) ↦[(bSt1 : Memref sig .tc .vmem S384x256 .bf16).view.set]{qs} bStV m c)
        ∗ ((bRv1 : Memref sig .tc .vmem S384x256 .bf16).view.loc (xp c : Thread nD τ) ↦[(bRv1 : Memref sig .tc .vmem S384x256 .bf16).view.set]{fullShare} fd)
        ∗ owes (c : Thread nD τ) (O + tallyAt (cell (xp c) 9) () NB) W
        ∗ dutyTok ER (cell c 6) 0 false ∗ dutyTok ER (cell (xp c) 9) 0 false)
      ⊢ iprop(((cred (tallyAt (cell c 6) () NB) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bSt1 : Memref sig .tc .vmem S384x256 .bf16) (.remote (Dev.tc n : Thread nD τ) (bRv1 : Memref sig .tc .vmem S384x256 .bf16) (.dma bS1) hsc) (.dma bR1) hsrc hdst hsem) k) Q) := by
  subst hn
  iintro ⟨#Hrec, Hs, Hd, HO, Ht1, Ht2⟩
  iapply (Rounds.wp_send_pointsTo 𝒱₀ ER (Rd m) (c : Thread nD τ) none (κ₁ := K (c, 6)) (κ₂ := K (xp c, 9))
    (r₁ := 0) (r₂ := 0) (d₁ := false) (d₂ := false) (fd := fd) (q := qs) (fs := bStV m c)
    (by rw [duties_dma m c 6 (by decide)]; exact Finset.mem_singleton_self _)
    (by rw [duties_dma m (xp c) 9 (by decide)]; exact Finset.mem_singleton_self _)
    () () NB rfl ((amount_cell m c 6 false).trans (amt_B 6 (by decide))) ((amount_cell m (xp c) 9 false).trans (amt_B 9 (by decide))) O rfl (W := W)
    (by rw [payload_cell]; exact BI.Entails.refl _)
    (by rw [payload_cell]; exact Entails.of_eq (land_b1 m c fd))) $$ [Hs Hd HO Ht1 Ht2]
  isplitr; · iapply (inv_at m K (c, 6)); iexact Hrec
  isplitr; · iapply (inv_at m K (xp c, 9)); iexact Hrec
  isplitl [Hs]; · iexact Hs
  isplitl [Hd]; · iexact Hd
  isplitl [HO]; · iexact HO
  isplitl [Ht1]; · iexact Ht1
  isplitr; · iapply (reached_at m K (c, 6)); iexact Hrec
  isplitl [Ht2]; · iexact Ht2
  iapply (reached_at m K (xp c, 9)); iexact Hrec

theorem wp_send_b2 (K : Dev nD × Fin 11 → ℕ) (c n : Dev nD) (hn : n = xp c)
    {hsc : (bRv2 : Memref sig (Dev.tc n : Thread nD τ).2.kind .vmem S384x256 .bf16).view.ref.isScScratch = false}
    {hsrc : (bSt2 : Memref sig .tc .vmem S384x256 .bf16).view.WordExact} {hdst : (bRv2 : Memref sig .tc .vmem S384x256 .bf16).view.WordExact}
    {hsem : DmaTarget.Typed .vmem (.dma bR2) (.remote (Dev.tc n : Thread nD τ) (bRv2 : Memref sig .tc .vmem S384x256 .bf16) (.dma bS2) hsc)}
    {α : Type} {Q : α → sProp 𝕄} {k : PUnit → Prog (TpuEff nD τ sig (Elt F) Λ₀ .tc) α}
    (fd : Buf (Elt F) ((bRv2 : Memref sig .tc .vmem S384x256 .bf16).view.loc (xp c : Thread nD τ))) (O : CellTallies nD τ sig Unit) (W : Waits sig Unit) :
    iprop(records m K
        ∗ ((bSt2 : Memref sig .tc .vmem S384x256 .bf16).view.loc (c : Thread nD τ) ↦[(bSt2 : Memref sig .tc .vmem S384x256 .bf16).view.set]{qs} bStV m c)
        ∗ ((bRv2 : Memref sig .tc .vmem S384x256 .bf16).view.loc (xp c : Thread nD τ) ↦[(bRv2 : Memref sig .tc .vmem S384x256 .bf16).view.set]{fullShare} fd)
        ∗ owes (c : Thread nD τ) (O + tallyAt (cell (xp c) 10) () NB) W
        ∗ dutyTok ER (cell c 7) 0 false ∗ dutyTok ER (cell (xp c) 10) 0 false)
      ⊢ iprop(((cred (tallyAt (cell c 7) () NB) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bSt2 : Memref sig .tc .vmem S384x256 .bf16) (.remote (Dev.tc n : Thread nD τ) (bRv2 : Memref sig .tc .vmem S384x256 .bf16) (.dma bS2) hsc) (.dma bR2) hsrc hdst hsem) k) Q) := by
  subst hn
  iintro ⟨#Hrec, Hs, Hd, HO, Ht1, Ht2⟩
  iapply (Rounds.wp_send_pointsTo 𝒱₀ ER (Rd m) (c : Thread nD τ) none (κ₁ := K (c, 7)) (κ₂ := K (xp c, 10))
    (r₁ := 0) (r₂ := 0) (d₁ := false) (d₂ := false) (fd := fd) (q := qs) (fs := bStV m c)
    (by rw [duties_dma m c 7 (by decide)]; exact Finset.mem_singleton_self _)
    (by rw [duties_dma m (xp c) 10 (by decide)]; exact Finset.mem_singleton_self _)
    () () NB rfl ((amount_cell m c 7 false).trans (amt_B 7 (by decide))) ((amount_cell m (xp c) 10 false).trans (amt_B 10 (by decide))) O rfl (W := W)
    (by rw [payload_cell]; exact BI.Entails.refl _)
    (by rw [payload_cell]; exact Entails.of_eq (land_b2 m c fd))) $$ [Hs Hd HO Ht1 Ht2]
  isplitr; · iapply (inv_at m K (c, 7)); iexact Hrec
  isplitr; · iapply (inv_at m K (xp c, 10)); iexact Hrec
  isplitl [Hs]; · iexact Hs
  isplitl [Hd]; · iexact Hd
  isplitl [HO]; · iexact HO
  isplitl [Ht1]; · iexact Ht1
  isplitr; · iapply (reached_at m K (c, 7)); iexact Hrec
  isplitl [Ht2]; · iexact Ht2
  iapply (reached_at m K (xp c, 10)); iexact Hrec

theorem positions_eq (c : Dev nD) : positions (F := F) c = iprop(atPos ER (cell c 0) 0 ∅ 0 ∗ atPos ER (cell c 1) 0 ∅ 0 ∗ atPos ER (cell c 2) 0 ∅ 0 ∗ atPos ER (cell c 3) 0 ∅ 0
    ∗ atPos ER (cell c 4) 0 ∅ 0 ∗ atPos ER (cell c 5) 0 ∅ 0 ∗ atPos ER (cell c 6) 0 ∅ 0 ∗ atPos ER (cell c 7) 0 ∅ 0
    ∗ atPos ER (cell c 8) 0 ∅ 0 ∗ atPos ER (cell c 9) 0 ∅ 0 ∗ atPos ER (cell c 10) 0 ∅ 0) := by
  unfold positions
  exact bigSep_univ_eq_bigSepL [(0 : Fin 11), 1, 2, 3, 4, 5, 6, 7, 8, 9, 10] (by decide) (by decide) _

/-- The body from `bodyPre` to `bodyPost`. -/
theorem sound_body (K : Dev nD × Fin 11 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9) Kt := by
  unfold bodyPre ghost payToks creds scratch
  rw [positions_eq]
  iintro ⟨⟨⟨⟨#Hrec, ⟨Hp0, Hp1, Hp2, Hp3, Hp4, Hp5, Hp6, Hp7, Hp8, Hp9, Hp10⟩, HtBX, HtBY, HtAX, HtAY, HtB0, HtB1, HtB2, HtSax, HtSay, HtSb0, HtSb1, HtSb2⟩,
      ⟨HcB, HcAX, HcAY, HcB0, HcB1, HcB2⟩, #Hlev, ⟨%fa, Hast⟩, ⟨%fb, Hbst⟩, ⟨%fr, Harv⟩, ⟨%fs, Hbrv⟩⟩,
    Ho, ⟨%g0, %hg0, Hx⟩, ⟨%g1, %hg1, Hy⟩, ⟨%d2, %g2, %hg2, Hout⟩⟩, Hk⟩
  subst hg0; subst hg1; subst hg2
  unfold Dat.owesAt Pipeline.owesWithin
  icases Ho with ⟨%W, %hW, HO⟩
  rw [show (dats m ρ 0 c).owed t0_0.castSucc = O₀ c from rfl]
  -- the A receive buffer by halves: the own-offset half (with the B receive buffer) goes to the x-peer, the other to the y-peer
  ihave Hh := (aRv_split c c fullShare fr).1 $$ Harv
  icases Hh with ⟨HarvC, HarvY⟩
  ihave HpX := (pay_bar_x m c fr fs) $$ [HarvC Hbrv]
  · isplitl [HarvC] <;> iassumption
  ihave HpY := (pay_bar_y m c fr) $$ HarvY
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  simp only [dev1_eq c, dev2_eq c]
  -- the first signal, to the x-peer's barrier cell: its duty `false`
  unfold O₀
  iapply (Rounds.wp_signal 𝒱₀ ER (Rd m) (c : Thread nD τ) none (dst := (xp c : Thread nD τ)) (κ := K (xp c, 0))
      (d := false) (by rw [duties_bar]; exact Finset.mem_univ _) ((amount_cell m (xp c) 0 false).trans rfl) () (O1 c) rfl)
    $$ [HO HtBX HpX]
  · isplitr; · iapply (inv_at m K (xp c, 0)); iexact Hrec
    isplitl [HO]; · iexact HO
    isplitl [HtBX]; · iexact HtBX
    isplitl [HpX]; · iexact HpX
    iapply (reached_at m K (xp c, 0)); iexact Hrec
  iintro HO
  -- the second, to the y-peer's: its duty `true`
  unfold O1
  iapply (Rounds.wp_signal 𝒱₀ ER (Rd m) (c : Thread nD τ) none (dst := (yp c : Thread nD τ)) (κ := K (yp c, 0))
      (d := true) (by rw [duties_bar]; exact Finset.mem_univ _) ((amount_cell m (yp c) 0 true).trans rfl) () (O2 c) rfl)
    $$ [HO HtBY HpY]
  · isplitr; · iapply (inv_at m K (yp c, 0)); iexact Hrec
    isplitl [HO]; · iexact HO
    isplitl [HtBY]; · iexact HtBY
    isplitl [HpY]; · iexact HpY
    iapply (reached_at m K (yp c, 0)); iexact Hrec
  iintro HO
  -- the half of rows to send is staged
  iapply (wp_load 𝒱₀ (c : Thread nD τ) none Set.univ (m := aIn) (Finset.subset_univ _)) $$ Hx; iintro Hx
  iapply (wp_load 𝒱₀ (c : Thread nD τ) none Set.univ (m := aSt) (Finset.subset_univ _)) $$ Hast; iintro Hast
  iapply (wp_store 𝒱₀ (c : Thread nD τ) none Set.univ (m := aSt) (r := rSw) (Mk := Finset.univ) (Finset.subset_univ _)) $$ Hast; iintro Hast
  rw [write_aSt]
  -- the barrier wait for both peers' units, owing the five landings
  iapply (Rounds.wp_wait_rest_token 𝒱₀ ER (Rd m) (c : Thread nD τ) none (κ := K (c, 0))
      (wpE_semWait_eq 𝒱₀ (c : Thread nD τ) none Set.univ) (Set.mem_univ _) () (O := O2 c) (W := W) (R := 0) (m := 0) (T := ∅)
      (by rw [expect_bar]; decide)) $$ [HcB HO Hp0]
  · isplitr; · iapply (inv_at m K (c, 0)); iexact Hrec
    isplitl [HcB]; · iexact HcB
    isplitl [HO]; · iexact HO
    isplitr; · iapply (mayWait_bar c); iexact Hlev
    iexact Hp0
  iintro ⟨HO, Hp0, -, Hpay⟩
  ihave Hp := (Entails.of_eq (rest_bar m c)) $$ Hpay
  rw [pay0f, pay0t]
  icases Hp with ⟨⟨⟨%fX, HdX⟩, ⟨%fbX, HdB⟩⟩, ⟨%fY, HdY⟩⟩
  -- the x-copy of A: the staged half into the x-peer's own-offset half
  ihave Hast' := (Entails.of_eq (aStW_eq c fullShare _).symm) $$ Hast
  unfold O2
  iapply (wp_send_ax m K c _ (dev3_eq c) fX (O3 c) (insert (SemLoc.reg barS, ()) W)) $$ [Hast' HdX HO HtSax HtAX]
  · isplitr; · iexact Hrec
    isplitl [Hast']; · iexact Hast'
    isplitl [HdX]; · iexact HdX
    isplitl [HO]; · iexact HO
    isplitl [HtSax] <;> iassumption
  iintro ⟨HcSax, HO⟩
  -- the B block is staged, narrowed
  iapply (wp_load 𝒱₀ (c : Thread nD τ) none Set.univ (m := bIn) (Finset.subset_univ _)) $$ Hy; iintro Hy
  rw [read_bIn]
  iapply (wp_load 𝒱₀ (c : Thread nD τ) none Set.univ (m := bSt) (Finset.subset_univ _)) $$ Hbst; iintro Hbst
  iapply (wp_store 𝒱₀ (c : Thread nD τ) none Set.univ (m := bSt) (r := rBw) (Mk := Finset.univ) (Finset.subset_univ _)) $$ Hbst; iintro Hbst
  rw [write_bSt]
  -- its three column chunks, each share halved: one half travels with the transfer, the other stays for the loads
  ihave Hb := (bSt_split c fullShare _).1 $$ Hbst
  icases Hb with ⟨Hb0, Hb1, Hb2⟩
  ihave Hb0 := (share_halves _ _).1 $$ Hb0
  icases Hb0 with ⟨Hb0s, Hb0l⟩
  ihave Hb1 := (share_halves _ _).1 $$ Hb1
  icases Hb1 with ⟨Hb1s, Hb1l⟩
  ihave Hb2 := (share_halves _ _).1 $$ Hb2
  icases Hb2 with ⟨Hb2s, Hb2l⟩
  -- the x-peer's B receive buffer by chunks
  ihave HdB := (Entails.of_eq (bRvW_eq (xp c) fullShare fbX)) $$ HdB
  ihave HdB := (bRv_split (xp c) fullShare fbX).1 $$ HdB
  icases HdB with ⟨HdB0, HdB1, HdB2⟩
  unfold O3
  iapply (wp_send_b0 m K c _ (dev4_eq c) fbX (O4 c) (insert (SemLoc.reg barS, ()) W)) $$ [Hb0s HdB0 HO HtSb0 HtB0]
  · isplitr; · iexact Hrec
    isplitl [Hb0s]; · iexact Hb0s
    isplitl [HdB0]; · iexact HdB0
    isplitl [HO]; · iexact HO
    isplitl [HtSb0] <;> iassumption
  iintro ⟨HcSb0, HO⟩
  unfold O4
  iapply (wp_send_b1 m K c _ (dev5_eq c) fbX (O5 c) (insert (SemLoc.reg barS, ()) W)) $$ [Hb1s HdB1 HO HtSb1 HtB1]
  · isplitr; · iexact Hrec
    isplitl [Hb1s]; · iexact Hb1s
    isplitl [HdB1]; · iexact HdB1
    isplitl [HO]; · iexact HO
    isplitl [HtSb1] <;> iassumption
  iintro ⟨HcSb1, HO⟩
  unfold O5
  iapply (wp_send_b2 m K c _ (dev6_eq c) fbX (O6 c) (insert (SemLoc.reg barS, ()) W)) $$ [Hb2s HdB2 HO HtSb2 HtB2]
  · isplitr; · iexact Hrec
    isplitl [Hb2s]; · iexact Hb2s
    isplitl [HdB2]; · iexact HdB2
    isplitl [HO]; · iexact HO
    isplitl [HtSb2] <;> iassumption
  iintro ⟨HcSb2, HO⟩
  -- the kept halves of the three chunks are the whole staged B again, at the kept share
  ihave Hbl := (bSt_split c ql _).2 $$ [Hb0l Hb1l Hb2l]
  · isplitl [Hb0l]; · iexact Hb0l
    isplitl [Hb1l] <;> iassumption
  -- the first chunk of the local product
  iapply (wp_load 𝒱₀ (c : Thread nD τ) none Set.univ (m := aIn) (Finset.subset_univ _)) $$ Hx; iintro Hx
  rw [read_aIn]
  iapply (wp_load 𝒱₀ (c : Thread nD τ) none Set.univ (m := bSt) (Finset.subset_univ _)) $$ Hbl; iintro Hbl
  iapply (wp_load 𝒱₀ (c : Thread nD τ) none Set.univ (m := oM) (Finset.subset_univ _)) $$ Hout; iintro Hout
  iapply (wp_store 𝒱₀ (c : Thread nD τ) none Set.univ (m := oM) (r := rO0) (Mk := Finset.univ) (Finset.subset_univ _)) $$ Hout; iintro Hout
  -- the wait for the x-copy's landing, owing the y-relay's landing only: the own-offset half at its final contents
  iapply (Rounds.wp_wait_rest_token 𝒱₀ ER (Rd m) (c : Thread nD τ) none (κ := K (c, 2))
      (wpE_waitDma2_eq 𝒱₀ (c : Thread nD τ) none Set.univ) (Set.mem_univ _) () (O := O6 c) (W := (insert (SemLoc.reg barS, ()) W)) (R := 0) (m := 0) (T := ∅)
      (by rw [Nat.zero_add, expect_dma m c 2 (by decide), amt_A 2 (by decide) (by decide)])) $$ [HcAX HO Hp2]
  · isplitr; · iapply (inv_at m K (c, 2)); iexact Hrec
    isplitl [HcAX]; · iexact HcAX
    isplitl [HO]; · iexact HO
    isplitr; · iapply (mayWait_axR c); iexact Hlev
    iexact Hp2
  iintro ⟨HO, Hp2, -, Hpay⟩
  ihave Har := (Entails.of_eq ((rest_dma m c 2 (by decide)).trans (pay2 m c))) $$ Hpay
  ihave Har := (share_halves _ _).1 $$ Har
  icases Har with ⟨Hars, Harl⟩
  -- the y-relay: the half just received into the y-peer's other half
  ihave HO := (Entails.of_eq (congrArg (fun X => owes (c : Thread nD τ) X (insert (SemLoc.dma axR, ()) (insert (SemLoc.reg barS, ()) W))) (zero_add (O6 c)).symm)) $$ HO
  unfold O6
  iapply (wp_send_ay m K c _ (dev7_eq c) fY 0 (insert (SemLoc.dma axR, ()) (insert (SemLoc.reg barS, ()) W))) $$ [Hars HdY HO HtSay HtAY]
  · isplitr; · iexact Hrec
    isplitl [Hars]; · iexact Hars
    isplitl [HdY]; · iexact HdY
    isplitl [HO]; · iexact HO
    isplitl [HtSay] <;> iassumption
  iintro ⟨HcSay, HO⟩
  -- the second and third chunks of the local product
  iapply (wp_load 𝒱₀ (c : Thread nD τ) none Set.univ (m := bSt) (Finset.subset_univ _)) $$ Hbl; iintro Hbl
  iapply (wp_load 𝒱₀ (c : Thread nD τ) none Set.univ (m := oM) (Finset.subset_univ _)) $$ Hout; iintro Hout
  iapply (wp_store 𝒱₀ (c : Thread nD τ) none Set.univ (m := oM) (r := rO1) (Mk := Finset.univ) (Finset.subset_univ _)) $$ Hout; iintro Hout
  iapply (wp_load 𝒱₀ (c : Thread nD τ) none Set.univ (m := bSt) (Finset.subset_univ _)) $$ Hbl; iintro Hbl
  iapply (wp_load 𝒱₀ (c : Thread nD τ) none Set.univ (m := oM) (Finset.subset_univ _)) $$ Hout; iintro Hout
  iapply (wp_store 𝒱₀ (c : Thread nD τ) none Set.univ (m := oM) (r := rO2) (Mk := Finset.univ) (Finset.subset_univ _)) $$ Hout; iintro Hout
  -- the wait for the y-relay's landing: the other half at its final contents
  iapply (Rounds.wp_wait_rest_token 𝒱₀ ER (Rd m) (c : Thread nD τ) none (κ := K (c, 4))
      (wpE_waitDma2_eq 𝒱₀ (c : Thread nD τ) none Set.univ) (Set.mem_univ _) () (O := 0) (W := (insert (SemLoc.dma axR, ()) (insert (SemLoc.reg barS, ()) W))) (R := 0) (m := 0) (T := ∅)
      (by rw [Nat.zero_add, expect_dma m c 4 (by decide), amt_A 4 (by decide) (by decide)])) $$ [HcAY HO Hp4]
  · isplitr; · iapply (inv_at m K (c, 4)); iexact Hrec
    isplitl [HcAY]; · iexact HcAY
    isplitl [HO]; · iexact HO
    isplitr; · rw [MayWait_zero]; iempintro
    iexact Hp4
  iintro ⟨HO, Hp4, -, Hpay⟩
  ihave HarY := (Entails.of_eq ((rest_dma m c 4 (by decide)).trans (pay4 m c))) $$ Hpay
  ihave HarY := (share_halves _ _).1 $$ HarY
  icases HarY with ⟨HarYs, HarYl⟩
  -- both halves at the kept share are the whole A receive buffer, loaded whole
  ihave Hal := (aRv_split c c ql _).2 $$ [Harl HarYl]
  · isplitl [Harl] <;> iassumption
  iapply (wp_load 𝒱₀ (c : Thread nD τ) none Set.univ (m := aRv) (Finset.subset_univ _)) $$ Hal; iintro Hal
  rw [read_aRv]
  -- the wait for B chunk 0's landing, then the second product added to chunk 0 of the result
  iapply (Rounds.wp_wait_rest_token 𝒱₀ ER (Rd m) (c : Thread nD τ) none (κ := K (c, 8))
      (wpE_waitDma2_eq 𝒱₀ (c : Thread nD τ) none Set.univ) (Set.mem_univ _) () (O := 0) (W := (insert (SemLoc.dma ayR, ()) (insert (SemLoc.dma axR, ()) (insert (SemLoc.reg barS, ()) W)))) (R := 0) (m := 0) (T := ∅)
      (by rw [Nat.zero_add, expect_dma m c 8 (by decide), amt_B 8 (by decide)])) $$ [HcB0 HO Hp8]
  · isplitr; · iapply (inv_at m K (c, 8)); iexact Hrec
    isplitl [HcB0]; · iexact HcB0
    isplitl [HO]; · iexact HO
    isplitr; · rw [MayWait_zero]; iempintro
    iexact Hp8
  iintro ⟨HO, Hp8, -, Hpay⟩
  ihave Hr0 := (Entails.of_eq ((rest_dma m c 8 (by decide)).trans (pay8 m c))) $$ Hpay
  iapply (wp_load 𝒱₀ (c : Thread nD τ) none Set.univ (m := oM) (Finset.subset_univ _)) $$ Hout; iintro Hout
  iapply (wp_load 𝒱₀ (c : Thread nD τ) none Set.univ (m := bRv) setOn_bRv_0) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := rO0) (Mk := Finset.univ) (Finset.subset_univ _)) $$ Hout; iintro Hout
  -- the wait for B chunk 1's landing, then the second product added to chunk 1 of the result
  iapply (Rounds.wp_wait_rest_token 𝒱₀ ER (Rd m) (c : Thread nD τ) none (κ := K (c, 9))
      (wpE_waitDma2_eq 𝒱₀ (c : Thread nD τ) none Set.univ) (Set.mem_univ _) () (O := 0) (W := (insert (SemLoc.dma bR0, ()) (insert (SemLoc.dma ayR, ()) (insert (SemLoc.dma axR, ()) (insert (SemLoc.reg barS, ()) W))))) (R := 0) (m := 0) (T := ∅)
      (by rw [Nat.zero_add, expect_dma m c 9 (by decide), amt_B 9 (by decide)])) $$ [HcB1 HO Hp9]
  · isplitr; · iapply (inv_at m K (c, 9)); iexact Hrec
    isplitl [HcB1]; · iexact HcB1
    isplitl [HO]; · iexact HO
    isplitr; · rw [MayWait_zero]; iempintro
    iexact Hp9
  iintro ⟨HO, Hp9, -, Hpay⟩
  ihave Hr1 := (Entails.of_eq ((rest_dma m c 9 (by decide)).trans (pay9 m c))) $$ Hpay
  iapply (wp_load 𝒱₀ (c : Thread nD τ) none Set.univ (m := oM) (Finset.subset_univ _)) $$ Hout; iintro Hout
  iapply (wp_load 𝒱₀ (c : Thread nD τ) none Set.univ (m := bRv) setOn_bRv_1) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := rO1) (Mk := Finset.univ) (Finset.subset_univ _)) $$ Hout; iintro Hout
  -- the wait for B chunk 2's landing, then the second product added to chunk 2 of the result
  iapply (Rounds.wp_wait_rest_token 𝒱₀ ER (Rd m) (c : Thread nD τ) none (κ := K (c, 10))
      (wpE_waitDma2_eq 𝒱₀ (c : Thread nD τ) none Set.univ) (Set.mem_univ _) () (O := 0) (W := (insert (SemLoc.dma bR1, ()) (insert (SemLoc.dma bR0, ()) (insert (SemLoc.dma ayR, ()) (insert (SemLoc.dma axR, ()) (insert (SemLoc.reg barS, ()) W)))))) (R := 0) (m := 0) (T := ∅)
      (by rw [Nat.zero_add, expect_dma m c 10 (by decide), amt_B 10 (by decide)])) $$ [HcB2 HO Hp10]
  · isplitr; · iapply (inv_at m K (c, 10)); iexact Hrec
    isplitl [HcB2]; · iexact HcB2
    isplitl [HO]; · iexact HO
    isplitr; · rw [MayWait_zero]; iempintro
    iexact Hp10
  iintro ⟨HO, Hp10, -, Hpay⟩
  ihave Hr2 := (Entails.of_eq ((rest_dma m c 10 (by decide)).trans (pay10 m c))) $$ Hpay
  iapply (wp_load 𝒱₀ (c : Thread nD τ) none Set.univ (m := oM) (Finset.subset_univ _)) $$ Hout; iintro Hout
  iapply (wp_load 𝒱₀ (c : Thread nD τ) none Set.univ (m := bRv) setOn_bRv_2) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := rO2) (Mk := Finset.univ) (Finset.subset_univ _)) $$ Hout; iintro Hout
  -- the wait on send cell 1: the source's share back
  iapply (Rounds.wp_wait_rest_token 𝒱₀ ER (Rd m) (c : Thread nD τ) none (κ := K (c, 1))
      (wpE_waitDma2_eq 𝒱₀ (c : Thread nD τ) none Set.univ) (Set.mem_univ _) () (O := 0) (W := (insert (SemLoc.dma bR2, ()) (insert (SemLoc.dma bR1, ()) (insert (SemLoc.dma bR0, ()) (insert (SemLoc.dma ayR, ()) (insert (SemLoc.dma axR, ()) (insert (SemLoc.reg barS, ()) W))))))) (R := 0) (m := 0) (T := ∅)
      (by rw [Nat.zero_add, expect_dma m c 1 (by decide), amt_A 1 (by decide) (by decide)])) $$ [HcSax HO Hp1]
  · isplitr; · iapply (inv_at m K (c, 1)); iexact Hrec
    isplitl [HcSax]; · iexact HcSax
    isplitl [HO]; · iexact HO
    isplitr; · rw [MayWait_zero]; iempintro
    iexact Hp1
  iintro ⟨HO, Hp1, -, Hpay⟩
  ihave Hsax := (Entails.of_eq ((rest_dma m c 1 (by decide)).trans (pay1 m c))) $$ Hpay
  -- the wait on send cell 3: the source's share back
  iapply (Rounds.wp_wait_rest_token 𝒱₀ ER (Rd m) (c : Thread nD τ) none (κ := K (c, 3))
      (wpE_waitDma2_eq 𝒱₀ (c : Thread nD τ) none Set.univ) (Set.mem_univ _) () (O := 0) (W := (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W)))))))) (R := 0) (m := 0) (T := ∅)
      (by rw [Nat.zero_add, expect_dma m c 3 (by decide), amt_A 3 (by decide) (by decide)])) $$ [HcSay HO Hp3]
  · isplitr; · iapply (inv_at m K (c, 3)); iexact Hrec
    isplitl [HcSay]; · iexact HcSay
    isplitl [HO]; · iexact HO
    isplitr; · rw [MayWait_zero]; iempintro
    iexact Hp3
  iintro ⟨HO, Hp3, -, Hpay⟩
  ihave Hsay := (Entails.of_eq ((rest_dma m c 3 (by decide)).trans (pay3 m c))) $$ Hpay
  -- the wait on send cell 5: the source's share back
  iapply (Rounds.wp_wait_rest_token 𝒱₀ ER (Rd m) (c : Thread nD τ) none (κ := K (c, 5))
      (wpE_waitDma2_eq 𝒱₀ (c : Thread nD τ) none Set.univ) (Set.mem_univ _) () (O := 0) (W := (insert (SemLoc.dma ayS, ()) (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W))))))))) (R := 0) (m := 0) (T := ∅)
      (by rw [Nat.zero_add, expect_dma m c 5 (by decide), amt_B 5 (by decide)])) $$ [HcSb0 HO Hp5]
  · isplitr; · iapply (inv_at m K (c, 5)); iexact Hrec
    isplitl [HcSb0]; · iexact HcSb0
    isplitl [HO]; · iexact HO
    isplitr; · rw [MayWait_zero]; iempintro
    iexact Hp5
  iintro ⟨HO, Hp5, -, Hpay⟩
  ihave Hsb0 := (Entails.of_eq ((rest_dma m c 5 (by decide)).trans (pay5 m c))) $$ Hpay
  -- the wait on send cell 6: the source's share back
  iapply (Rounds.wp_wait_rest_token 𝒱₀ ER (Rd m) (c : Thread nD τ) none (κ := K (c, 6))
      (wpE_waitDma2_eq 𝒱₀ (c : Thread nD τ) none Set.univ) (Set.mem_univ _) () (O := 0) (W := (insert (SemLoc.dma bS0, ()) (insert (SemLoc.dma ayS, ()) (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W)))))))))) (R := 0) (m := 0) (T := ∅)
      (by rw [Nat.zero_add, expect_dma m c 6 (by decide), amt_B 6 (by decide)])) $$ [HcSb1 HO Hp6]
  · isplitr; · iapply (inv_at m K (c, 6)); iexact Hrec
    isplitl [HcSb1]; · iexact HcSb1
    isplitl [HO]; · iexact HO
    isplitr; · rw [MayWait_zero]; iempintro
    iexact Hp6
  iintro ⟨HO, Hp6, -, Hpay⟩
  ihave Hsb1 := (Entails.of_eq ((rest_dma m c 6 (by decide)).trans (pay6 m c))) $$ Hpay
  -- the wait on send cell 7: the source's share back
  iapply (Rounds.wp_wait_rest_token 𝒱₀ ER (Rd m) (c : Thread nD τ) none (κ := K (c, 7))
      (wpE_waitDma2_eq 𝒱₀ (c : Thread nD τ) none Set.univ) (Set.mem_univ _) () (O := 0) (W := (insert (SemLoc.dma bS1, ()) (insert (SemLoc.dma bS0, ()) (insert (SemLoc.dma ayS, ()) (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W))))))))))) (R := 0) (m := 0) (T := ∅)
      (by rw [Nat.zero_add, expect_dma m c 7 (by decide), amt_B 7 (by decide)])) $$ [HcSb2 HO Hp7]
  · isplitr; · iapply (inv_at m K (c, 7)); iexact Hrec
    isplitl [HcSb2]; · iexact HcSb2
    isplitl [HO]; · iexact HO
    isplitr; · rw [MayWait_zero]; iempintro
    iexact Hp7
  iintro ⟨HO, Hp7, -, Hpay⟩
  ihave Hsb2 := (Entails.of_eq ((rest_dma m c 7 (by decide)).trans (pay7 m c))) $$ Hpay
  -- the ten own cells close: their counters at zero are the device's again
  imod (Rounds.cell_close ER (Rd m) (Set.mem_univ (K (c, 1))) (fun h => h) (R := 0 + 1) (duties_later m (cell c 1))) $$ [Hp1] with Hz1
  · isplitr; · iapply (inv_at m K (c, 1)); iexact Hrec
    iexact Hp1
  imod (Rounds.cell_close ER (Rd m) (Set.mem_univ (K (c, 2))) (fun h => h) (R := 0 + 1) (duties_later m (cell c 2))) $$ [Hp2] with Hz2
  · isplitr; · iapply (inv_at m K (c, 2)); iexact Hrec
    iexact Hp2
  imod (Rounds.cell_close ER (Rd m) (Set.mem_univ (K (c, 3))) (fun h => h) (R := 0 + 1) (duties_later m (cell c 3))) $$ [Hp3] with Hz3
  · isplitr; · iapply (inv_at m K (c, 3)); iexact Hrec
    iexact Hp3
  imod (Rounds.cell_close ER (Rd m) (Set.mem_univ (K (c, 4))) (fun h => h) (R := 0 + 1) (duties_later m (cell c 4))) $$ [Hp4] with Hz4
  · isplitr; · iapply (inv_at m K (c, 4)); iexact Hrec
    iexact Hp4
  imod (Rounds.cell_close ER (Rd m) (Set.mem_univ (K (c, 5))) (fun h => h) (R := 0 + 1) (duties_later m (cell c 5))) $$ [Hp5] with Hz5
  · isplitr; · iapply (inv_at m K (c, 5)); iexact Hrec
    iexact Hp5
  imod (Rounds.cell_close ER (Rd m) (Set.mem_univ (K (c, 6))) (fun h => h) (R := 0 + 1) (duties_later m (cell c 6))) $$ [Hp6] with Hz6
  · isplitr; · iapply (inv_at m K (c, 6)); iexact Hrec
    iexact Hp6
  imod (Rounds.cell_close ER (Rd m) (Set.mem_univ (K (c, 7))) (fun h => h) (R := 0 + 1) (duties_later m (cell c 7))) $$ [Hp7] with Hz7
  · isplitr; · iapply (inv_at m K (c, 7)); iexact Hrec
    iexact Hp7
  imod (Rounds.cell_close ER (Rd m) (Set.mem_univ (K (c, 8))) (fun h => h) (R := 0 + 1) (duties_later m (cell c 8))) $$ [Hp8] with Hz8
  · isplitr; · iapply (inv_at m K (c, 8)); iexact Hrec
    iexact Hp8
  imod (Rounds.cell_close ER (Rd m) (Set.mem_univ (K (c, 9))) (fun h => h) (R := 0 + 1) (duties_later m (cell c 9))) $$ [Hp9] with Hz9
  · isplitr; · iapply (inv_at m K (c, 9)); iexact Hrec
    iexact Hp9
  imod (Rounds.cell_close ER (Rd m) (Set.mem_univ (K (c, 10))) (fun h => h) (R := 0 + 1) (duties_later m (cell c 10))) $$ [Hp10] with Hz10
  · isplitr; · iapply (inv_at m K (c, 10)); iexact Hrec
    iexact Hp10
  -- the scratch buffers whole again: the staged half of A
  ihave Hast := (Entails.of_eq (aStW_eq c fullShare _)) $$ Hsax
  -- the staged B: each chunk's two halves of the share, then the three chunks
  ihave Hbl := (bSt_split c ql _).1 $$ Hbl
  icases Hbl with ⟨Hb0l, Hb1l, Hb2l⟩
  ihave Hb0 := (share_halves _ _).2 $$ [Hsb0 Hb0l]
  · isplitl [Hsb0] <;> iassumption
  ihave Hb1 := (share_halves _ _).2 $$ [Hsb1 Hb1l]
  · isplitl [Hsb1] <;> iassumption
  ihave Hb2 := (share_halves _ _).2 $$ [Hsb2 Hb2l]
  · isplitl [Hsb2] <;> iassumption
  ihave Hbst := (bSt_split c fullShare _).2 $$ [Hb0 Hb1 Hb2]
  · isplitl [Hb0]; · iexact Hb0
    isplitl [Hb1] <;> iassumption
  -- the A receive buffer: each half's two halves of the share, then the two halves of rows
  ihave Hal := (aRv_split c c ql _).1 $$ Hal
  icases Hal with ⟨Harl, HarYl⟩
  ihave HarC := (share_halves _ _).2 $$ [Hsay Harl]
  · isplitl [Hsay] <;> iassumption
  ihave HarY := (share_halves _ _).2 $$ [HarYs HarYl]
  · isplitl [HarYs] <;> iassumption
  ihave Harv := (aRv_split c c fullShare _).2 $$ [HarC HarY]
  · isplitl [HarC] <;> iassumption
  -- the B receive buffer: its three chunks
  ihave Hbrv := (bRv_split c fullShare _).2 $$ [Hr0 Hr1 Hr2]
  · isplitl [Hr0]; · iexact Hr0
    isplitl [Hr1] <;> iassumption
  rw [wp_ret]; imodintro
  iapply Hk
  unfold bodyPost Φ₁ scratch Dat.owesAt Pipeline.owesWithin
  rw [show (dats m ρ 0 c).owed t0_0.succ = 0 from rfl, closed_eq]
  isplitl [Hast Hbst Harv Hbrv Hz1 Hz2 Hz3 Hz4 Hz5 Hz6 Hz7 Hz8 Hz9 Hz10]
  · isplitl [Hast Hbst Harv Hbrv]
    · isplitl [Hast]; · iexists _; iexact Hast
      isplitl [Hbst]; · iexists _; iexact Hbst
      isplitl [Harv]; · iexists _; iexact Harv
      iexists _; iexact Hbrv
    · isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      iexact Hz10
  isplitl [HO]
  · iexists (insert (SemLoc.dma bS2, ()) (insert (SemLoc.dma bS1, ()) (insert (SemLoc.dma bS0, ()) (insert (SemLoc.dma ayS, ()) (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W)))))))))))
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; exact out_final m c g2)
  iexact Hout

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8 cc0_scratch9) (fun _ => bodyPost m ρ c)
  unfold bodyPre' Φ₀ start
  iintro ⟨⟨⟨⟨%K, Hg⟩, Hcr, Hlev⟩, Hscr⟩, Ho, ⟨%d0, %g0, %hg0, Hx⟩, ⟨%d1, %g1, %hg1, Hy⟩, ⟨%d2, Hout⟩⟩
  have hx : g0 = Ain m c := by rw [hg0]; unfold Dat.before; rw [if_pos (fetch0_0 t0_0)]; rfl
  have hy : g1 = Bin m c := by rw [hg1]; unfold Dat.before; rw [if_pos (fetch0_1 t0_0)]; rfl
  subst hx; subst hy
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexists _; isplitr; · (ipureintro; rfl)
                    iexact Hx
    isplitl [Hy]; · iexists _; isplitr; · (ipureintro; rfl)
                    iexact Hy
    iexists _; iexact Hout
  · iintro H; iexact H

end Cert.KernelIdeal.Mm

end
-- ==== Proof.Credit.lean ====
/-
  The launch credit: summing over the four devices what each owes a cell gives the cell's owner its credit: two units on
  its barrier cell (one from each peer), one transfer's worth on each of its five receive cells.
-/
import proofs.«900556_g7700000000000557_dist_matmul_kn_xy_m768_n768_k384_v7x_xy2x2_f32_1_alg».proof.Proof.Data

noncomputable section

namespace Cert.KernelIdeal.Mm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What every device owes its x-peer's cell `k`, summed over the devices, is one such amount on one's own cell `k`. -/
theorem launch_xp (c : Dev nD) (k : Fin 11) (n : ℕ) :
    (Pipeline.launchCred (fun d : Dev nD => (tallyAt (cell (xp d) k) () n : CellTallies nD τ sig Unit)) c : sProp 𝕄) ⊢ cred (tallyAt (cell c k) () n) :=
  Pipeline.launchCred_tallyAt (csem k) xp xp xp_xp xp_xp () n c

/-- The same across the y axis. -/
theorem launch_yp (c : Dev nD) (k : Fin 11) (n : ℕ) :
    (Pipeline.launchCred (fun d : Dev nD => (tallyAt (cell (yp d) k) () n : CellTallies nD τ sig Unit)) c : sProp 𝕄) ⊢ cred (tallyAt (cell c k) () n) :=
  Pipeline.launchCred_tallyAt (csem k) yp yp yp_yp yp_yp () n c

/-- The credit the launch deals device `c`: what its peers owe its barrier cell and its five receive cells. -/
theorem creds_of_launch (c : Dev nD) : (Pipeline.launchCred O₀ c : sProp 𝕄) ⊢ creds c := by
  rw [show (O₀ : Dev nD → CellTallies nD τ sig Unit) = fun d => O1 d + tallyAt (cell (xp d) 0) () 1 from rfl, Pipeline.launchCred_add,
    show (O1 : Dev nD → CellTallies nD τ sig Unit) = fun d => O2 d + tallyAt (cell (yp d) 0) () 1 from rfl, Pipeline.launchCred_add,
    show (O2 : Dev nD → CellTallies nD τ sig Unit) = fun d => O3 d + tallyAt (cell (xp d) 2) () NA from rfl, Pipeline.launchCred_add,
    show (O3 : Dev nD → CellTallies nD τ sig Unit) = fun d => O4 d + tallyAt (cell (xp d) 8) () NB from rfl, Pipeline.launchCred_add,
    show (O4 : Dev nD → CellTallies nD τ sig Unit) = fun d => O5 d + tallyAt (cell (xp d) 9) () NB from rfl, Pipeline.launchCred_add,
    show (O5 : Dev nD → CellTallies nD τ sig Unit) = fun d => O6 d + tallyAt (cell (xp d) 10) () NB from rfl, Pipeline.launchCred_add,
    show (O6 : Dev nD → CellTallies nD τ sig Unit) = fun d => tallyAt (cell (yp d) 4) () NA from rfl]
  unfold creds
  iintro ⟨⟨⟨⟨⟨⟨H4, H10⟩, H9⟩, H8⟩, H2⟩, Hy0⟩, Hx0⟩
  isplitl [Hx0 Hy0]
  · rw [show (2 : ℕ) = 1 + 1 from rfl, ← tallyAt_add]
    iapply (cred_add _ _).2
    isplitl [Hx0]
    · iapply (launch_xp c 0 1); iexact Hx0
    · iapply (launch_yp c 0 1); iexact Hy0
  isplitl [H2]; · iapply (launch_xp c 2 NA); iexact H2
  isplitl [H4]; · iapply (launch_yp c 4 NA); iexact H4
  isplitl [H8]; · iapply (launch_xp c 8 NB); iexact H8
  isplitl [H9]; · iapply (launch_xp c 9 NB); iexact H9
  iapply (launch_xp c 10 NB); iexact H10

end Cert.KernelIdeal.Mm

end
-- ==== Proof.Launch.lean ====
/-
  The launch: the protocol's ghost state is minted for all cells of all devices at once, each device's cells' invariants are
  allocated over its ten own semaphores and its barrier semaphore at zero, the duty tokens are dealt to the devices that
  pay them (across the x axis and across the y axis), the credit the peers owe a device's cells is read off what each
  device owes, and the launch theorem turns the four body obligations into a run of the whole program.
-/
import proofs.«900556_g7700000000000557_dist_matmul_kn_xy_m768_n768_k384_v7x_xy2x2_f32_1_alg».proof.Proof.Body
import proofs.«900556_g7700000000000557_dist_matmul_kn_xy_m768_n768_k384_v7x_xy2x2_f32_1_alg».proof.Proof.Levels
import proofs.«900556_g7700000000000557_dist_matmul_kn_xy_m768_n768_k384_v7x_xy2x2_f32_1_alg».proof.Proof.Credit

noncomputable section

namespace Cert.KernelIdeal.Mm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 11 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
/-- All 44 cells: eleven on each of the four devices. -/
def allCells : Finset (GSem nD τ sig) := Finset.univ.map ⟨kcell, kcell_injective⟩

/-- The duty tokens as minted, by owner: of each of a device's eleven cells the duty false of round 0, and of its barrier
    cell the duty true besides. -/
abbrev tokOf (cj : Dev nD × (Fin 11 ⊕ Unit)) : GSem nD τ sig × ℕ × Bool := match cj.2 with
  | .inl k => (cell cj.1 k, 0, false)
  | .inr _ => (cell cj.1 0, 0, true)
theorem tokOf_injective : Function.Injective (tokOf : Dev nD × (Fin 11 ⊕ Unit) → GSem nD τ sig × ℕ × Bool) := by
  rintro ⟨c, j⟩ ⟨c', j'⟩ h
  have h1 : c = c' := by
    have := congrArg (fun x : GSem nD τ sig × ℕ × Bool => x.1.1.1) h
    rcases j with k | u <;> rcases j' with k' | u' <;> exact this
  subst h1
  rcases j with k | u <;> rcases j' with k' | u'
  · have h2 : k = k' := csem_injective (congrArg (fun x : GSem nD τ sig × ℕ × Bool => x.1.2) h)
    subst h2; rfl
  · exact absurd (congrArg (fun x : GSem nD τ sig × ℕ × Bool => x.2.2) h) (fun h' => by cases h')
  · exact absurd (congrArg (fun x : GSem nD τ sig × ℕ × Bool => x.2.2) h) (fun h' => by cases h')
  · rfl
/-- All 48 tokens. -/
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  iprop((bigSep Finset.univ fun k : Fin 11 => dutyTok ER (cell c k) 0 false) ∗ dutyTok ER (cell c 0) 0 true)

/-- What the launch element gives device c: its eleven cells' round states at counter zero, its positions with the marks
    that round 0 is reached, and its own cells' tokens. -/
def G (c : Dev nD) : sProp 𝕄 :=
  iprop((bigSep Finset.univ fun k : Fin 11 => roundState ER (Rd m) (kcell (c, k)) 0)
    ∗ (bigSep Finset.univ fun k : Fin 11 => iprop(atPos ER (kcell (c, k)) 0 ∅ 0 ∗ reached ER (kcell (c, k)) 0)) ∗ toks c)

/-- What all devices' counters at zero make of it. -/
def G' (c : Dev nD) : sProp 𝕄 := iprop(∃ K, ghost m K c)

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 11 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_sum, bigSep_univ_of_subsingleton ()]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants allocated -/

/-- The barrier semaphore is the one semaphore that is not scoped. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

/-- The ten own counters and the barrier's are the eleven cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [unscopedSems0_eq, bigSep_fin_succ]
  unfold Pipeline.ownSems0
  iintro ⟨Ho, HB⟩
  isplitl [HB]; · iexact HB
  iexact Ho

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 11 => iprop(∃ κ : ℕ, cellInv ER (Rd m) κ (kcell (c, k))))
          ∗ (bigSep Finset.univ fun k : Fin 11 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER (Rd m) (kcell (c, k)) 0)
      ⊢ (|={Set.univ}=> bigSep Finset.univ fun k : Fin 11 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them -/

/-- A barrier's token false, and the tokens of the receive cells of the x-copy and of the three B chunks, go across the x
    axis; a barrier's token true and the token of the y-relay's receive cell go across the y axis; the five send cells'
    tokens stay. -/
theorem toks_dealt : (bigSep Finset.univ fun c : Dev nD => (toks c : sProp 𝕄)) ⊢ bigSep Finset.univ fun c : Dev nD => payToks c := by
  unfold toks payToks
  simp only [bigSep_fin11, bigSep_sep']
  rw [bigSep_univ_equiv xswap (fun c : Dev nD => (dutyTok ER (cell c 0) 0 false : sProp 𝕄)),
    bigSep_univ_equiv yswap (fun c : Dev nD => (dutyTok ER (cell c 0) 0 true : sProp 𝕄)),
    bigSep_univ_equiv xswap (fun c : Dev nD => (dutyTok ER (cell c 2) 0 false : sProp 𝕄)),
    bigSep_univ_equiv yswap (fun c : Dev nD => (dutyTok ER (cell c 4) 0 false : sProp 𝕄)),
    bigSep_univ_equiv xswap (fun c : Dev nD => (dutyTok ER (cell c 8) 0 false : sProp 𝕄)),
    bigSep_univ_equiv xswap (fun c : Dev nD => (dutyTok ER (cell c 9) 0 false : sProp 𝕄)),
    bigSep_univ_equiv xswap (fun c : Dev nD => (dutyTok ER (cell c 10) 0 false : sProp 𝕄))]
  iintro ⟨⟨H0, H1, H2, H3, H4, H5, H6, H7, H8, H9, H10⟩, Ht⟩
  isplitl [H0]; · iexact H0
  isplitl [Ht]; · iexact Ht
  isplitl [H2]; · iexact H2
  isplitl [H4]; · iexact H4
  isplitl [H8]; · iexact H8
  isplitl [H9]; · iexact H9
  isplitl [H10]; · iexact H10
  isplitl [H1]; · iexact H1
  isplitl [H3]; · iexact H3
  isplitl [H5]; · iexact H5
  isplitl [H6]; · iexact H6
  iexact H7

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 11 → ℕ) (c : Dev nD) : iprop(records m K ∗ positions c ∗ payToks c) ⊢ G' m c := by
  unfold G' ghost
  iintro H
  iexists K
  iexact H

theorem regroup :
    (bigSep Finset.univ fun c : Dev nD => iprop((bigSep Finset.univ fun k : Fin 11 => iprop(∃ κ : ℕ, cellInv ER (Rd m) κ (kcell (c, k))))
          ∗ (bigSep Finset.univ fun k : Fin 11 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 11 => iprop(∃ κ : ℕ, cellInv ER (Rd m) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (Rd m) κ (kcell ck) : sProp 𝕄))) $$ HI
  icases HK with ⟨%K, #HI⟩
  ihave Htk := (toks_dealt (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

/-- All devices' own and barrier counters at zero, at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch closed Pipeline.ownSems0
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the four devices' program terminates, nothing
    faulting, with each windowed array at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Mm

end
-- ==== Proof.Bridge.lean ====
/-
  The value bridge: each device's result chunks, read index by index, are its block of columns of the whole product A · B.
-/
import proofs.«900556_g7700000000000557_dist_matmul_kn_xy_m768_n768_k384_v7x_xy2x2_f32_1_alg».proof.Proof.Proto
import proofs.«900556_g7700000000000557_dist_matmul_kn_xy_m768_n768_k384_v7x_xy2x2_f32_1_alg».proof.Proof.Gen.ReferenceIdeal.Run
import proofs.«900556_g7700000000000557_dist_matmul_kn_xy_m768_n768_k384_v7x_xy2x2_f32_1_alg».proof.Proof.Gen.ReferenceIdeal.Read
import proofs.«900556_g7700000000000557_dist_matmul_kn_xy_m768_n768_k384_v7x_xy2x2_f32_1_alg».proof.Defs
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.MmBridge

open Cert.KernelIdeal Cert.KernelIdeal.Gen Cert.KernelIdeal.Mm
open Idealize.ShloMosaic Idealize.ShloMosaic.TcCoe Idealize.SL.Sem

open Idealize.ShloMosaic.ValueIdx

/-! ## The chunk product read at an index -/

theorem lhs_0 (i : S768x256.Idx) (q : dot_S768x384_S384x256_S768x256_1_0_0_1_n_n.contr.Idx) :
    (dot_S768x384_S384x256_S768x256_1_0_0_1_n_n.lhsIdx i q 0).val = (i 0).val := by
  unfold DotDims.lhsIdx
  rw [dif_neg (show ¬(0 : Fin S768x384.rank) ∈ dot_S768x384_S384x256_S768x256_1_0_0_1_n_n.lhsBatch by decide), dif_pos (show (0 : Fin S768x384.rank) ∈ dot_S768x384_S384x256_S768x256_1_0_0_1_n_n.lhsNonContracting by decide)]
  rfl
theorem lhs_1 (i : S768x256.Idx) (q : dot_S768x384_S384x256_S768x256_1_0_0_1_n_n.contr.Idx) :
    (dot_S768x384_S384x256_S768x256_1_0_0_1_n_n.lhsIdx i q 1).val = (q ⟨0, by decide⟩).val :=
  dot_S768x384_S384x256_S768x256_1_0_0_1_n_n.lhsIdx_val_of_single rfl i q
theorem rhs_0 (i : S768x256.Idx) (q : dot_S768x384_S384x256_S768x256_1_0_0_1_n_n.contr.Idx) :
    (dot_S768x384_S384x256_S768x256_1_0_0_1_n_n.rhsIdx i q 0).val = (q ⟨0, by decide⟩).val :=
  dot_S768x384_S384x256_S768x256_1_0_0_1_n_n.rhsIdx_val_of_single rfl i q
theorem rhs_1 (i : S768x256.Idx) (q : dot_S768x384_S384x256_S768x256_1_0_0_1_n_n.contr.Idx) :
    (dot_S768x384_S384x256_S768x256_1_0_0_1_n_n.rhsIdx i q 1).val = (i 1).val := by
  unfold DotDims.rhsIdx
  rw [dif_neg (show ¬(1 : Fin S384x256.rank) ∈ dot_S768x384_S384x256_S768x256_1_0_0_1_n_n.rhsBatch by decide), dif_pos (show (1 : Fin S384x256.rank) ∈ dot_S768x384_S384x256_S768x256_1_0_0_1_n_n.rhsNonContracting by decide)]
  rfl

/-- The product of a [768, 384] block with a [384, 256] chunk into the zero accumulator, at row p and column q, is the
    sum over the 384 contracted positions. -/
theorem mm_apply (a : FVec Ideal S768x384 .bf16) (b : FVec Ideal S384x256 .bf16) (p : Fin 768) (q : Fin 256) :
    matmul dot_S768x384_S384x256_S768x256_1_0_0_1_n_n none a b (constant S768x256 .f32 0x00000000#32) (ix2 p q)
      = ∑ k : Fin 384, a (ix2 p k) * b (ix2 k q) := by
  simp only [matmul]
  rw [Ideal.matmul_constant_zero_apply, ← Equiv.sum_comp (ValueIdx.contrEquiv1 dot_S768x384_S384x256_S768x256_1_0_0_1_n_n 384 rfl rfl).symm]
  refine Finset.sum_congr rfl fun k _ => ?_
  have hk := ValueIdx.contrEquiv1_symm_val dot_S768x384_S384x256_S768x256_1_0_0_1_n_n 384 rfl rfl k
  have el : dot_S768x384_S384x256_S768x256_1_0_0_1_n_n.lhsIdx (ix2 p q) ((ValueIdx.contrEquiv1 dot_S768x384_S384x256_S768x256_1_0_0_1_n_n 384 rfl rfl).symm k) = ix2 p k := funext fun a => Fin.ext (by
    match a with
    | ⟨0, _⟩ => exact lhs_0 _ _
    | ⟨1, _⟩ => exact (lhs_1 _ _).trans hk)
  have er : dot_S768x384_S384x256_S768x256_1_0_0_1_n_n.rhsIdx (ix2 p q) ((ValueIdx.contrEquiv1 dot_S768x384_S384x256_S768x256_1_0_0_1_n_n 384 rfl rfl).symm k) = ix2 k q := funext fun a => Fin.ext (by
    match a with
    | ⟨0, _⟩ => exact (rhs_0 _ _).trans hk
    | ⟨1, _⟩ => exact rhs_1 _ _)
  rw [el, er]

/-! ## The staged argument blocks -/

section Args
variable (m : (ℓ : Loc nD τ sig) → Buf (Elt Ideal) ℓ)

theorem Ain_eq (c : Dev nD) : Ain (F := Ideal) m c = m ((c.tc : Thread nD τ).loc main_arg0) := by
  unfold Ain
  exact Memref.read_access_unit_zero (Elt Ideal) main_arg0 (funext fun a => Nat.zero_mul _) _ _

theorem Bin_eq (c : Dev nD) : Bin (F := Ideal) m c = m ((c.tc : Thread nD τ).loc main_arg1) := by
  unfold Bin
  exact Memref.read_access_unit_zero (Elt Ideal) main_arg1 (funext fun a => Nat.zero_mul _) _ _

end Args

/-! ## Narrowing is the identity at the ideal values -/

theorem pay1_eq (v : Vec Ideal S384x384 .f32) : k0_pay1 (F := Ideal) v = v := by
  simp only [k0_pay1, shapeCast_self]
  rfl
theorem pay2_eq (v : Vec Ideal S384x768 .f32) : k0_pay2 (F := Ideal) v = v := by
  simp only [k0_pay2, shapeCast_self]
  rfl
theorem pay3_eq (v : Vec Ideal S768x384 .f32) : k0_pay3 (F := Ideal) v = v := by
  simp only [k0_pay3, shapeCast_self]
  rfl

/-! ## The chunk payloads at an index -/

theorem pay4_apply (a : Vec Ideal S768x384 .f32) (b : Vec Ideal S384x256 .bf16) (p : Fin 768) (q : Fin 256) :
    k0_pay4 (F := Ideal) a b (ix2 p q) = ∑ k : Fin 384, a (ix2 p k) * b (ix2 k q) := by
  simp only [k0_pay4, pay3_eq]
  exact mm_apply a b p q
theorem pay5_apply (a : Vec Ideal S768x384 .f32) (b : Vec Ideal S384x256 .bf16) (p : Fin 768) (q : Fin 256) :
    k0_pay5 (F := Ideal) a b (ix2 p q) = ∑ k : Fin 384, a (ix2 p k) * b (ix2 k q) := by
  simp only [k0_pay5, pay3_eq]
  exact mm_apply a b p q
theorem pay6_apply (a : FVec Ideal S768x384 .bf16) (b : Vec Ideal S384x256 .bf16) (p : Fin 768) (q : Fin 256) :
    k0_pay6 (F := Ideal) a b (constant S768x256 .f32 0x00000000#32) (ix2 p q) = ∑ k : Fin 384, a (ix2 p k) * b (ix2 k q) := by
  simp only [k0_pay6]
  exact mm_apply a b p q
theorem pay7_apply (a : Vec Ideal S768x384 .bf16) (z : Vec Ideal S768x256 .f32) (b : Vec Ideal S384x256 .bf16) (p : Fin 768) (q : Fin 256) :
    k0_pay7 (F := Ideal) a z b (ix2 p q) = z (ix2 p q) + ∑ k : Fin 384, a (ix2 p k) * b (ix2 k q) := by
  simp only [k0_pay7, shapeCast_self]
  exact congrArg (z (ix2 p q) + ·) (mm_apply a b p q)
theorem pay8_apply (a : Vec Ideal S768x384 .bf16) (z : Vec Ideal S768x256 .f32) (b : Vec Ideal S384x256 .bf16) (p : Fin 768) (q : Fin 256) :
    k0_pay8 (F := Ideal) a z b (ix2 p q) = z (ix2 p q) + ∑ k : Fin 384, a (ix2 p k) * b (ix2 k q) := by
  simp only [k0_pay8, shapeCast_self]
  exact congrArg (z (ix2 p q) + ·) (mm_apply a b p q)
theorem pay9_apply (a : Vec Ideal S768x384 .bf16) (z : Vec Ideal S768x256 .f32) (b : Vec Ideal S384x256 .bf16) (p : Fin 768) (q : Fin 256) :
    k0_pay9 (F := Ideal) a z b (ix2 p q) = z (ix2 p q) + ∑ k : Fin 384, a (ix2 p k) * b (ix2 k q) := by
  simp only [k0_pay9, shapeCast_self]
  exact congrArg (z (ix2 p q) + ·) (mm_apply a b p q)

/-! ## Indices by coordinates -/

theorem ix2_ext {n0 n1 : Nat} (i j : (⟨2, ![n0, n1]⟩ : Shape).Idx) (h0 : (i 0).val = (j 0).val) (h1 : (i 1).val = (j 1).val) :
    i = j := by
  funext a
  match a with
  | ⟨0, _⟩ => exact Fin.ext h0
  | ⟨1, _⟩ => exact Fin.ext h1

/-! ## The A side: the staged half of rows and the receive buffer's two halves -/

section ASide
variable (m : (ℓ : Loc nD τ sig) → Buf (Elt Ideal) ℓ)

/-- What a device stages of A: the rows of its block at its own half's offset. -/
theorem aStV_apply (c : Dev nD) (r k : Fin 384) (p : Fin 768) (hp : p.val = 384 * (c.val % 2) + r.val) :
    aStV (F := Ideal) m c (ix2 r k) = Ain (F := Ideal) m c (ix2 p k) := by
  unfold aStV
  rw [pay1_eq]
  show Ain (F := Ideal) m c ((rHalf c).toLoadRect.idx (ix2 r k)) = _
  refine congrArg (Ain (F := Ideal) m c) (ix2_ext _ _ ?_ ?_)
  · show k0_off1 c 0 + 1 * r.val = p.val
    rw [k0_off1_eq]; simp; omega
  · show k0_off1 c 1 + 1 * k.val = k.val
    rw [k0_off1_eq]; simp

/-- Writing a half of rows of the A receive buffer: inside the half, the payload; -/
theorem aRvH_write_in (o : Dev nD) (f : (cc0_scratch2 : Ref sig .tc).ty.Contents (Elt Ideal)) (w : S384x384.Idx → Elt Ideal .bf16)
    (p : Fin 768) (k r : Fin 384) (hp : p.val = 384 * (o.val % 2) + r.val) :
    (aRvH o).view.write (Elt Ideal) f w Finset.univ (ix2 p k) = w (ix2 r k) := by
  have e : (ix2 p k : S768x384.Idx) = (aRvH o).view.emb (ix2 r k) := ix2_ext _ _
    (by show p.val = k0_off2 o 0 + 1 * r.val
        rw [k0_off2_eq]; simp; omega)
    (by show k.val = k0_off2 o 1 + 1 * k.val
        rw [k0_off2_eq]; simp)
  rw [e, View.write_emb_of_mem _ _ (Finset.mem_univ _)]
  rfl

/-- outside it, the old contents. -/
theorem aRvH_write_out (o : Dev nD) (f : (cc0_scratch2 : Ref sig .tc).ty.Contents (Elt Ideal)) (w : S384x384.Idx → Elt Ideal .bf16)
    (p : Fin 768) (k : Fin 384) (hp : p.val < 384 * (o.val % 2) ∨ 384 * (o.val % 2) + 384 ≤ p.val) :
    (aRvH o).view.write (Elt Ideal) f w Finset.univ (ix2 p k) = f (ix2 p k) := by
  refine View.write_of_not_mem _ _ _ fun h => ?_
  obtain ⟨y, hy⟩ := View.exists_emb_of_mem_set _ h
  have h0 : k0_off2 o 0 + 1 * (y 0).val = p.val := congrArg (fun i : S768x384.Idx => (i 0).val) hy
  have hy0 : (y 0).val < 384 := (y 0).isLt
  rw [k0_off2_eq] at h0
  simp at h0
  omega

end ASide

/-! ## The peers' coordinates -/

theorem xp_mod (c : Dev nD) : (xp c).val % 2 = c.val % 2 := by revert c; decide
theorem xp_div (c : Dev nD) : (xp c).val / 2 = 1 - c.val / 2 := by revert c; decide
theorem yp_mod (c : Dev nD) : (yp c).val % 2 = 1 - c.val % 2 := by revert c; decide
theorem yp_div (c : Dev nD) : (yp c).val / 2 = c.val / 2 := by revert c; decide

section ARecv
variable (m : (ℓ : Loc nD τ sig) → Buf (Elt Ideal) ℓ)

/-- The A receive buffer at a row and a column: on the device's own half of rows the x-peer's block, on the other half the
    block of the y-peer's x-peer. -/
theorem aRvV_apply (c : Dev nD) (p : Fin 768) (k : Fin 384) :
    aRvV (F := Ideal) m c (ix2 p k)
      = if 384 * (c.val % 2) ≤ p.val ∧ p.val < 384 * (c.val % 2) + 384 then Ain (F := Ideal) m (xp c) (ix2 p k)
        else Ain (F := Ideal) m (xp (yp c)) (ix2 p k) := by
  have hy := yp_mod c
  have hx := xp_mod c
  have hxy := xp_mod (yp c)
  have hp := p.isLt
  unfold aRvV
  by_cases h : 384 * (c.val % 2) ≤ p.val ∧ p.val < 384 * (c.val % 2) + 384
  · rw [if_pos h, aRvH_write_out (yp c) _ _ p k (by omega),
      aRvH_write_in c _ _ p k ⟨p.val - 384 * (c.val % 2), by omega⟩
        (by show p.val = 384 * (c.val % 2) + (p.val - 384 * (c.val % 2)); omega)]
    show aStV (F := Ideal) m (xp c) (ix2 _ k) = _
    exact aStV_apply m (xp c) _ k p (by show p.val = 384 * ((xp c).val % 2) + (p.val - 384 * (c.val % 2)); omega)
  · rw [if_neg h, aRvH_write_in (yp c) _ _ p k ⟨p.val - 384 * ((yp c).val % 2), by omega⟩
        (by show p.val = 384 * ((yp c).val % 2) + (p.val - 384 * ((yp c).val % 2)); omega)]
    show aStV (F := Ideal) m (xp (yp c)) (ix2 _ k) = _
    exact aStV_apply m (xp (yp c)) _ k p
      (by show p.val = 384 * ((xp (yp c)).val % 2) + (p.val - 384 * ((yp c).val % 2)); omega)

end ARecv

/-! ## The B side: a column chunk of a [384, 768] buffer, and of the result buffer -/

theorem chB_apply (off : Nat) (inb : ∀ a, (![0, off] : Fin 2 → Nat) a + S384x256.size a ≤ S384x768.size a)
    (X : (cc0_scratch1 : Ref sig .tc).ty.Contents (Elt Ideal)) (k : Fin 384) (q : Fin 256) (n : Fin 768) (hn : n.val = off + q.val) :
    (bSt : Memref sig .tc .vmem S384x768 .bf16).view.readAt (Elt Ideal) (Rect.unit (s := S384x768) ![0, off] S384x256.size inb).toLoadRect X (ix2 k q)
      = X (ix2 k n) := by
  show X ((Rect.unit (s := S384x768) ![0, off] S384x256.size inb).toLoadRect.idx (ix2 k q)) = _
  refine congrArg X (ix2_ext _ _ ?_ ?_)
  · show (![0, off] : Fin 2 → Nat) 0 + 1 * k.val = k.val
    simp
  · show (![0, off] : Fin 2 → Nat) 1 + 1 * q.val = n.val
    simp; omega
theorem chR_apply (off : Nat) (inb : ∀ a, (![0, off] : Fin 2 → Nat) a + S384x256.size a ≤ S384x768.size a)
    (X : (cc0_scratch3 : Ref sig .tc).ty.Contents (Elt Ideal)) (k : Fin 384) (q : Fin 256) (n : Fin 768) (hn : n.val = off + q.val) :
    (bRv : Memref sig .tc .vmem S384x768 .bf16).view.readAt (Elt Ideal) (Rect.unit (s := S384x768) ![0, off] S384x256.size inb).toLoadRect X (ix2 k q)
      = X (ix2 k n) := by
  show X ((Rect.unit (s := S384x768) ![0, off] S384x256.size inb).toLoadRect.idx (ix2 k q)) = _
  refine congrArg X (ix2_ext _ _ ?_ ?_)
  · show (![0, off] : Fin 2 → Nat) 0 + 1 * k.val = k.val
    simp
  · show (![0, off] : Fin 2 → Nat) 1 + 1 * q.val = n.val
    simp; omega

/-- Writing a column chunk of the result buffer: inside the chunk, the payload; -/
theorem o_write_in (off : Nat) (inb : ∀ a, (![0, off] : Fin 2 → Nat) a + S768x256.size a ≤ S768x768.size a)
    (f : (cc0_stg2_0 : Ref sig .tc).ty.Contents (Elt Ideal)) (w : S768x256.Idx → Elt Ideal .f32) (p n : Fin 768) (q : Fin 256)
    (hn : n.val = off + q.val) :
    ((oM : Memref sig .tc .vmem S768x768 .f32).access (Rect.unit (s := S768x768) ![0, off] S768x256.size inb) : View sig .tc _ _ _).write
        (Elt Ideal) f w Finset.univ (ix2 p n) = w (ix2 p q) := by
  have e : (ix2 p n : S768x768.Idx)
      = ((oM : Memref sig .tc .vmem S768x768 .f32).access (Rect.unit (s := S768x768) ![0, off] S768x256.size inb) : View sig .tc _ _ _).emb (ix2 p q) :=
    ix2_ext _ _
      (by show p.val = (![0, off] : Fin 2 → Nat) 0 + 1 * p.val
          simp)
      (by show n.val = (![0, off] : Fin 2 → Nat) 1 + 1 * q.val
          simp; omega)
  rw [e, View.write_emb_of_mem _ _ (Finset.mem_univ _)]
  rfl
/-- outside it, the old contents. -/
theorem o_write_out (off : Nat) (inb : ∀ a, (![0, off] : Fin 2 → Nat) a + S768x256.size a ≤ S768x768.size a)
    (f : (cc0_stg2_0 : Ref sig .tc).ty.Contents (Elt Ideal)) (w : S768x256.Idx → Elt Ideal .f32) (p n : Fin 768)
    (hn : n.val < off ∨ off + 256 ≤ n.val) :
    ((oM : Memref sig .tc .vmem S768x768 .f32).access (Rect.unit (s := S768x768) ![0, off] S768x256.size inb) : View sig .tc _ _ _).write
        (Elt Ideal) f w Finset.univ (ix2 p n) = f (ix2 p n) := by
  refine View.write_of_not_mem _ _ _ fun h => ?_
  obtain ⟨y, hy⟩ := View.exists_emb_of_mem_set _ h
  have h1 : (![0, off] : Fin 2 → Nat) 1 + 1 * (y 1).val = n.val := congrArg (fun i : S768x768.Idx => (i 1).val) hy
  have hy1 : (y 1).val < 256 := (y 1).isLt
  simp at h1
  omega

/-! ## The result buffer at a row and a column -/

section Out
variable (m : (ℓ : Loc nD τ sig) → Buf (Elt Ideal) ℓ)

theorem bStV_apply (c : Dev nD) (i : S384x768.Idx) : bStV (F := Ideal) m c i = Bin (F := Ideal) m c i := by
  unfold bStV
  exact congrFun (pay2_eq _) i
theorem bRvV_apply (c : Dev nD) (i : S384x768.Idx) : bRvV (F := Ideal) m c i = Bin (F := Ideal) m (xp c) i := by
  unfold bRvV
  exact bStV_apply m (xp c) i

/-- A device's staged blocks and its A receive buffer, as arrays of extended reals. -/
abbrev Av (c : Dev nD) : (⟨2, ![768, 384]⟩ : Shape).Idx → EReal := Ain (F := Ideal) m c
abbrev Bv (c : Dev nD) : (⟨2, ![384, 768]⟩ : Shape).Idx → EReal := Bin (F := Ideal) m c
abbrev Rv (c : Dev nD) : (⟨2, ![768, 384]⟩ : Shape).Idx → EReal := aRvV (F := Ideal) m c

/-- The two sums a result element is: the device's own blocks' product and the received blocks'. -/
abbrev twoSums (c : Dev nD) (p n : Fin 768) : EReal :=
  (∑ k : Fin 384, Av m c (ix2 p k) * Bv m c (ix2 k n)) + ∑ k : Fin 384, Rv m c (ix2 p k) * Bv m (xp c) (ix2 k n)

theorem outCh0_apply (c : Dev nD) (p n : Fin 768) (q : Fin 256) (hn : n.val = 0 + q.val) :
    outCh0 (F := Ideal) m c (ix2 p q) = twoSums m c p n := by
  unfold outCh0
  rw [pay7_apply, pay4_apply]
  refine congrArg₂ (· + ·) (Finset.sum_congr rfl fun k _ => ?_) (Finset.sum_congr rfl fun k _ => ?_)
  · rw [show chB0 (bStV (F := Ideal) m c) (ix2 k q) = Bin (F := Ideal) m c (ix2 k n) from
      (chB_apply 0 _ _ k q n hn).trans (bStV_apply m c _)]
  · rw [show chR0 (bRvV (F := Ideal) m c) (ix2 k q) = Bin (F := Ideal) m (xp c) (ix2 k n) from
      (chR_apply 0 _ _ k q n hn).trans (bRvV_apply m c _)]
theorem outCh1_apply (c : Dev nD) (p n : Fin 768) (q : Fin 256) (hn : n.val = 256 + q.val) :
    outCh1 (F := Ideal) m c (ix2 p q) = twoSums m c p n := by
  unfold outCh1
  rw [pay8_apply, pay5_apply]
  refine congrArg₂ (· + ·) (Finset.sum_congr rfl fun k _ => ?_) (Finset.sum_congr rfl fun k _ => ?_)
  · rw [show chB1 (bStV (F := Ideal) m c) (ix2 k q) = Bin (F := Ideal) m c (ix2 k n) from
      (chB_apply 256 _ _ k q n hn).trans (bStV_apply m c _)]
  · rw [show chR1 (bRvV (F := Ideal) m c) (ix2 k q) = Bin (F := Ideal) m (xp c) (ix2 k n) from
      (chR_apply 256 _ _ k q n hn).trans (bRvV_apply m c _)]
theorem outCh2_apply (c : Dev nD) (p n : Fin 768) (q : Fin 256) (hn : n.val = 512 + q.val) :
    outCh2 (F := Ideal) m c (ix2 p q) = twoSums m c p n := by
  unfold outCh2
  rw [pay9_apply, pay6_apply, pay3_eq]
  refine congrArg₂ (· + ·) (Finset.sum_congr rfl fun k _ => ?_) (Finset.sum_congr rfl fun k _ => ?_)
  · rw [show chB2 (bStV (F := Ideal) m c) (ix2 k q) = Bin (F := Ideal) m c (ix2 k n) from
      (chB_apply 512 _ _ k q n hn).trans (bStV_apply m c _)]
  · rw [show chR2 (bRvV (F := Ideal) m c) (ix2 k q) = Bin (F := Ideal) m (xp c) (ix2 k n) from
      (chR_apply 512 _ _ k q n hn).trans (bRvV_apply m c _)]

/-- The staged result at a row and a column, whichever chunk the column is in. -/
theorem outV_apply (c : Dev nD) (p n : Fin 768) : outV (F := Ideal) m c (ix2 p n) = twoSums m c p n := by
  have hn := n.isLt
  unfold outV
  by_cases h0 : n.val < 256
  · refine (o_write_out 512 _ _ _ p n (by omega)).trans ?_
    refine (o_write_out 256 _ _ _ p n (by omega)).trans ?_
    refine (o_write_in 0 _ _ _ p n ⟨n.val, h0⟩ (by show n.val = 0 + n.val; omega)).trans ?_
    exact outCh0_apply m c p n _ (by show n.val = 0 + n.val; omega)
  · by_cases h1 : n.val < 512
    · refine (o_write_out 512 _ _ _ p n (by omega)).trans ?_
      refine (o_write_in 256 _ _ _ p n ⟨n.val - 256, by omega⟩ (by show n.val = 256 + (n.val - 256); omega)).trans ?_
      exact outCh1_apply m c p n _ (by show n.val = 256 + (n.val - 256); omega)
    · refine (o_write_in 512 _ _ _ p n ⟨n.val - 512, by omega⟩ (by show n.val = 512 + (n.val - 512); omega)).trans ?_
      exact outCh2_apply m c p n _ (by show n.val = 512 + (n.val - 512); omega)

end Out

/-! ## The blocks of the whole arrays -/

theorem meshA (c : Dev nD) : ((Layout.meshBlock [2, 2] ![[], [0]] c) 0).val = 0 ∧ ((Layout.meshBlock [2, 2] ![[], [0]] c) 1).val = c.val / 2 := by
  revert c; decide
theorem meshB (c : Dev nD) : ((Layout.meshBlock [2, 2] ![[0], [1]] c) 0).val = c.val / 2 ∧ ((Layout.meshBlock [2, 2] ![[0], [1]] c) 1).val = c.val % 2 := by
  revert c; decide
theorem meshO (c : Dev nD) : ((Layout.meshBlock [2, 2] ![[], [1]] c) 0).val = 0 ∧ ((Layout.meshBlock [2, 2] ![[], [1]] c) 1).val = c.val % 2 := by
  revert c; decide

/-- A device's A block at a row and a column: the whole A at the column of its column block. -/
theorem A_blk (A : (⟨2, ![768, 768]⟩ : Shape).Idx → EReal) (c : Dev nD) (p : Fin 768) (k : Fin 384) (kk : Fin 768)
    (hk : kk.val = 384 * (c.val / 2) + k.val) :
    (Layout.blockN ⟨2, ![768, 384]⟩ ⟨2, ![768, 768]⟩ (Layout.meshBlock [2, 2] ![[], [0]] c) A) (ix2 p k) = A (ix2 p kk) := by
  rw [Layout.blockN_apply]
  refine congrArg A (ix2_ext _ _ ?_ ?_)
  · show ((Layout.meshBlock [2, 2] ![[], [0]] c) 0).val * 768 + p.val = p.val
    rw [(meshA c).1]; omega
  · show ((Layout.meshBlock [2, 2] ![[], [0]] c) 1).val * 384 + k.val = kk.val
    rw [(meshA c).2]; omega

/-- A device's B block at a row and a column. -/
theorem B_blk (B : (⟨2, ![768, 1536]⟩ : Shape).Idx → EReal) (c : Dev nD) (k : Fin 384) (n kk : Fin 768) (nn : Fin 1536)
    (hk : kk.val = 384 * (c.val / 2) + k.val) (hn : nn.val = 768 * (c.val % 2) + n.val) :
    (Layout.blockN ⟨2, ![384, 768]⟩ ⟨2, ![768, 1536]⟩ (Layout.meshBlock [2, 2] ![[0], [1]] c) B) (ix2 k n) = B (ix2 kk nn) := by
  rw [Layout.blockN_apply]
  refine congrArg B (ix2_ext _ _ ?_ ?_)
  · show ((Layout.meshBlock [2, 2] ![[0], [1]] c) 0).val * 384 + k.val = kk.val
    rw [(meshB c).1]; omega
  · show ((Layout.meshBlock [2, 2] ![[0], [1]] c) 1).val * 768 + n.val = nn.val
    rw [(meshB c).2]; omega

/-- A device's block of columns of a [768, 1536] array at a row and a column. -/
theorem O_blk (V : (⟨2, ![768, 1536]⟩ : Shape).Idx → EReal) (c : Dev nD) (p n : Fin 768) (nn : Fin 1536)
    (hn : nn.val = 768 * (c.val % 2) + n.val) :
    (Layout.blockN ⟨2, ![768, 768]⟩ ⟨2, ![768, 1536]⟩ (Layout.meshBlock [2, 2] ![[], [1]] c) V) (ix2 p n) = V (ix2 p nn) := by
  rw [Layout.blockN_apply]
  refine congrArg V (ix2_ext _ _ ?_ ?_)
  · show ((Layout.meshBlock [2, 2] ![[], [1]] c) 0).val * 768 + p.val = p.val
    rw [(meshO c).1]; omega
  · show ((Layout.meshBlock [2, 2] ![[], [1]] c) 1).val * 768 + n.val = nn.val
    rw [(meshO c).2]; omega

/-! ## The contraction's two halves -/

/-- A sum over the 768 contracted positions is the sum over one half plus the sum over the other, in either order. -/
theorem sum_halves (g : Fin 768 → EReal) (x : Nat) (hx : x < 2) :
    (∑ k : Fin 384, g ⟨384 * x + k.val, by omega⟩) + (∑ k : Fin 384, g ⟨384 * (1 - x) + k.val, by omega⟩) = ∑ kk : Fin 768, g kk := by
  have key : ∑ kk : Fin 768, g kk = (∑ k : Fin 384, g ⟨k.val, by omega⟩) + ∑ k : Fin 384, g ⟨384 + k.val, by omega⟩ :=
    Fin.sum_univ_add (a := 384) (b := 384) g
  rw [key]
  have hx' : x = 0 ∨ x = 1 := by omega
  rcases hx' with rfl | rfl
  · exact congrArg₂ (· + ·) (Finset.sum_congr rfl fun k _ => congrArg g (Fin.ext (by show 384 * 0 + k.val = k.val; omega)))
      (Finset.sum_congr rfl fun k _ => congrArg g (Fin.ext (by show 384 * (1 - 0) + k.val = 384 + k.val; omega)))
  · rw [add_comm]
    exact congrArg₂ (· + ·) (Finset.sum_congr rfl fun k _ => congrArg g (Fin.ext (by show 384 * (1 - 1) + k.val = k.val; omega)))
      (Finset.sum_congr rfl fun k _ => congrArg g (Fin.ext (by show 384 * 1 + k.val = 384 + k.val; omega)))

/-! ## The bridge -/

section Bridge
variable (m : (ℓ : Loc nD τ sig) → Buf (Elt Ideal) ℓ)
  (A : (⟨2, ![768, 768]⟩ : Shape).Idx → EReal) (B : (⟨2, ![768, 1536]⟩ : Shape).Idx → EReal)
  (hA : ∀ c : Dev nD, m ((c.tc : Thread nD τ).loc main_arg0)
    = Layout.blockN ⟨2, ![768, 384]⟩ ⟨2, ![768, 768]⟩ (Layout.meshBlock [2, 2] ![[], [0]] c) A)
  (hB : ∀ c : Dev nD, m ((c.tc : Thread nD τ).loc main_arg1)
    = Layout.blockN ⟨2, ![384, 768]⟩ ⟨2, ![768, 1536]⟩ (Layout.meshBlock [2, 2] ![[0], [1]] c) B)

include hA in
/-- A device's staged A block is its column block of the whole A. -/
theorem Av_blk (c : Dev nD) (p : Fin 768) (k : Fin 384) (kk : Fin 768) (hk : kk.val = 384 * (c.val / 2) + k.val) :
    Av m c (ix2 p k) = A (ix2 p kk) :=
  (congrFun ((Ain_eq m c).trans (hA c)) (ix2 p k)).trans (A_blk A c p k kk hk)

include hB in
/-- A device's staged B block is its block of the whole B. -/
theorem Bv_blk (c : Dev nD) (k : Fin 384) (n kk : Fin 768) (nn : Fin 1536)
    (hk : kk.val = 384 * (c.val / 2) + k.val) (hn : nn.val = 768 * (c.val % 2) + n.val) :
    Bv m c (ix2 k n) = B (ix2 kk nn) :=
  (congrFun ((Bin_eq m c).trans (hB c)) (ix2 k n)).trans (B_blk B c k n kk nn hk hn)

include hA in
/-- Both halves of the A receive buffer come from devices holding the OTHER column block of A. -/
theorem Rv_blk (c : Dev nD) (p : Fin 768) (k : Fin 384) (kk : Fin 768) (hk : kk.val = 384 * (1 - c.val / 2) + k.val) :
    Rv m c (ix2 p k) = A (ix2 p kk) := by
  show aRvV (F := Ideal) m c (ix2 p k) = _
  rw [aRvV_apply]
  by_cases h : 384 * (c.val % 2) ≤ p.val ∧ p.val < 384 * (c.val % 2) + 384
  · rw [if_pos h]
    exact Av_blk m A hA (xp c) p k kk (by rw [xp_div]; exact hk)
  · rw [if_neg h]
    exact Av_blk m A hA (xp (yp c)) p k kk (by rw [xp_div, yp_div]; exact hk)

include hA hB in
/-- A staged result element is the whole product's element in the device's block of columns. -/
theorem outV_blk (c : Dev nD) (p n : Fin 768) (nn : Fin 1536) (hn : nn.val = 768 * (c.val % 2) + n.val) :
    outV (F := Ideal) m c (ix2 p n) = ∑ kk : Fin 768, A (ix2 p kk) * B (ix2 kk nn) := by
  have hc4 : c.val < 4 := c.isLt
  have hc : c.val / 2 < 2 := by omega
  rw [outV_apply, ← sum_halves (fun kk => A (ix2 p kk) * B (ix2 kk nn)) (c.val / 2) hc]
  refine congrArg₂ (· + ·) (Finset.sum_congr rfl fun k _ => ?_) (Finset.sum_congr rfl fun k _ => ?_)
  · exact congrArg₂ (· * ·) (Av_blk m A hA c p k _ rfl) (Bv_blk m B hB c k n _ nn rfl hn)
  · exact congrArg₂ (· * ·) (Rv_blk m A hA c p k _ rfl)
      (Bv_blk m B hB (xp c) k n _ nn (by rw [xp_div]) (by rw [xp_mod]; exact hn))

include hA hB in
/-- The same against the reference's product read through the device's block of columns. -/
theorem outV_block_apply (c : Dev nD) (p n : Fin 768) :
    outV (F := Ideal) m c (ix2 p n)
      = (Layout.blockN ⟨2, ![768, 768]⟩ ⟨2, ![768, 1536]⟩ (Layout.meshBlock [2, 2] ![[], [1]] c)
          (Cert.ReferenceIdeal.Read.val_main_v0 (F := Ideal) A B)) (ix2 p n) := by
  have hcn : 768 * (c.val % 2) + n.val < 1536 := by have := n.isLt; omega
  rw [O_blk _ c p n ⟨768 * (c.val % 2) + n.val, hcn⟩ rfl, Cert.ReferenceIdeal.Read.val_main_v0_apply,
    outV_blk m A B hA hB c p n ⟨768 * (c.val % 2) + n.val, hcn⟩ rfl]
  have key : (∑ kk : Fin 768, A (ix2 p kk) * B (ix2 kk ⟨768 * (c.val % 2) + n.val, hcn⟩))
      = ∑ k : Fin 768, A (Cert.ReferenceIdeal.Read.lidx_main_v0 (ix2 p ⟨768 * (c.val % 2) + n.val, hcn⟩) k)
          * B (Cert.ReferenceIdeal.Read.ridx_main_v0 (ix2 p ⟨768 * (c.val % 2) + n.val, hcn⟩) k) :=
    Finset.sum_congr rfl fun kk _ =>
      congrArg₂ (· * ·) (congrArg A (ix2_ext _ _ rfl rfl)) (congrArg B (ix2_ext _ _ rfl rfl))
  exact key

end Bridge

/-! ## The statement -/

/-- Each device's staged result is its block of columns of the reference's product, when each device's argument arrays are
    its blocks of the reference's. -/
theorem outV_eq_block (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD,
      m ((c.tc : Thread nD τ).loc main_arg0) = Layout.blockN ⟨2, ![768, 384]⟩ ⟨2, ![768, 768]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread nD τ).loc main_arg1) = Layout.blockN ⟨2, ![384, 768]⟩ ⟨2, ![768, 1536]⟩ (Layout.meshBlock [2, 2] ![[0], [1]] c) (m' (((0 : Dev Cert.ReferenceIdeal.nD).tc : Thread Cert.ReferenceIdeal.nD Cert.ReferenceIdeal.τ).loc Cert.ReferenceIdeal.main_arg1)))
    (c : Dev nD) :
    (outV (F := Ideal) m c : S768x768.Idx → Elt Ideal .f32)
      = Layout.blockN ⟨2, ![768, 768]⟩ ⟨2, ![768, 1536]⟩ (Layout.meshBlock [2, 2] ![[], [1]] c)
          (Cert.ReferenceIdeal.Read.val_main_v0 (F := Ideal)
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  funext i
  obtain ⟨p, n, rfl⟩ : ∃ p n, i = ix2 p n := ⟨i 0, i 1, eq_ix2 i⟩
  exact outV_block_apply m _ _ (fun d => (hagree d).1) (fun d => (hagree d).2) c p n

end Cert.KernelIdeal.MmBridge

end
-- ==== Proof.Claims.lean ====
/-
  The claims: each frame is the run with the values dropped; the two idealized programs end with equal results because each
  device's staged result is its block of columns of the reference's product.
-/
import proofs.«900556_g7700000000000557_dist_matmul_kn_xy_m768_n768_k384_v7x_xy2x2_f32_1_alg».proof.Proof.Launch
import proofs.«900556_g7700000000000557_dist_matmul_kn_xy_m768_n768_k384_v7x_xy2x2_f32_1_alg».proof.Proof.Bridge
import proofs.«900556_g7700000000000557_dist_matmul_kn_xy_m768_n768_k384_v7x_xy2x2_f32_1_alg».proof.Defs

noncomputable section

namespace Cert.Proof.Claims

open Cert.KernelIdeal Cert.KernelIdeal.Gen Cert.KernelIdeal.Mm
open Idealize.ShloMosaic Idealize.ShloMosaic.TcCoe Idealize.SL.Sem
open Idealize.ShloMosaic.Pipeline (Dat)

section Final

variable {F : FTy → Type} [FloatOps F]
variable (m : (ℓ : Loc nD τ sig) → Buf (Elt F) ℓ) (ρ : Dev nD → PrngReg)

/-- An argument window's array is never written back: it ends as launched. -/
theorem finalA_arg0 (c : Dev nD) : finalA m ρ c 0 = m ((c.tc : Thread nD τ).loc main_arg0) :=
  (dats m ρ 0 c).arrAt_in 0 rfl _
theorem finalA_arg1 (c : Dev nD) : finalA m ρ c 1 = m ((c.tc : Thread nD τ).loc main_arg1) :=
  (dats m ρ 0 c).arrAt_in 1 rfl _

/-- Every index of a buffer lies in the rectangle of the buffer's own sizes at zero offsets. -/
theorem mem_access_unit_zero (b : Ref sig .tc) {off : Fin b.ty.shape.rank → Nat} (h : off = fun _ => 0)
    (inb : ∀ a, off a + b.ty.shape.size a ≤ b.ty.shape.size a) (i : b.ty.shape.Idx) :
    i ∈ ((Memref.whole b).access (Rect.unit off b.ty.shape.size inb) : View sig .tc _ _ _).set := by
  subst h
  show i ∈ ((Memref.whole b).access (Rect.whole _) : View sig .tc _ _ _).set
  rw [Memref.set_access_whole]; exact Finset.mem_univ _

/-- The result window's one block sits at offset zero on both axes. -/
theorem off_out (t : Fin cfg0.N) : (fun a => win0_2.index t a * win0_2.size a) = fun _ => 0 :=
  funext fun a => Nat.zero_mul _

/-- The result array ends holding the staged result: the one write-back covers the whole array. -/
theorem finalA_out (c : Dev nD) : finalA m ρ c 2 = outV m c :=
  (dats m ρ 0 c).arrAt_eq_of_cover 2 (outV m c)
    (fun t _ => (Memref.read_access_unit_zero (Elt F) main_v1 (off_out t) _ (outV m c)).symm)
    (fun i => ⟨t0_0, flush0_2 t0_0, mem_access_unit_zero main_v1 (off_out t0_0) _ i⟩)

end Final

/-- The idealized kernel runs and leaves its argument arrays unchanged. -/
theorem frame_pi [hKernelIdeal : Cert.KernelIdeal.Facts] [hPre : Cert.Pre_finite_inputs_Kernel.Facts] : Cert.frame_KernelIdeal :=
  fun m g _ => (θ_run (Cert.KernelIdeal.defs (F := Ideal)) _ _).mono
    (fun r h c => ⟨(h c 0).trans (finalA_arg0 m g c), (h c 1).trans (finalA_arg1 m g c)⟩)
    (Cert.KernelIdeal.Mm.run_main (F := Ideal) m g)

/-- The reference runs and leaves its argument arrays unchanged. -/
theorem frame_ri [hReferenceIdeal : Cert.ReferenceIdeal.Facts] [hPre : Cert.Pre_finite_inputs_ReferenceIdeal.Facts] : Cert.frame_ReferenceIdeal :=
  fun m g _ => (θ_run (Cert.ReferenceIdeal.defs (F := Ideal)) _ _).mono (fun _ h c => (h c).2)
    (Cert.ReferenceIdeal.Value.run (F := Ideal) m g)

/-- Both idealized programs run, and each device's result is its block of the reference's. -/
theorem algebraic [hKernelIdeal : Cert.KernelIdeal.Facts] [hReferenceIdeal : Cert.ReferenceIdeal.Facts] [hPre : Cert.Pre_finite_inputs_Kernel.Facts] :
    Cert.algebraic_KernelIdeal_ReferenceIdeal := by
  intro m g m' g' _ hagree
  refine ⟨Cert.ReferenceIdeal.Read.val_main_v0 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun r h c => ⟨(h c 2).trans ((finalA_out m g c).trans (Cert.KernelIdeal.MmBridge.outV_eq_block m m' hagree c)),
        (h c 0).trans (finalA_arg0 m g c), (h c 1).trans (finalA_arg1 m g c)⟩)
      (Cert.KernelIdeal.Mm.run_main (F := Ideal) m g)
  · exact (θ_run (Cert.ReferenceIdeal.defs (F := Ideal)) _ _).mono
      (fun r h => ⟨(h 0).1.trans (Cert.ReferenceIdeal.Read.val_main_v0_eq _ _), (h 0).2.1, (h 0).2.2⟩)
      (Cert.ReferenceIdeal.Value.run (F := Ideal) m' g')

end Cert.Proof.Claims

end
-- ==== Proof.BitsProto.lean ====
/-
  The 2 × 2 mesh's two peers of a device, the kernel's buffers and semaphore cells, and the contents every buffer
  holds during the run, as functions of the launch memory.

  Device `c` sits at (x, y) = (c / 2, c % 2). Its x-peer `xp c` = (1 - x, y) holds the other half of the
  contraction axis (the other column block of A, the other row block of B); its y-peer `yp c` = (x, 1 - y) holds
  the same column block of A. Each device multiplies its own blocks, receives the x-peer's B block whole (three
  column chunks) and the x-peer's A block by halves of rows — the half of rows `y` straight from the x-peer, the
  other half relayed by the y-peer, which received it from ITS x-peer — and adds the second product.
-/
import proofs.«900556_g7700000000000557_dist_matmul_kn_xy_m768_n768_k384_v7x_xy2x2_f32_1_alg».proof.Proof.Gen.Kernel
import proofs.«900556_g7700000000000557_dist_matmul_kn_xy_m768_n768_k384_v7x_xy2x2_f32_1_alg».proof.Proof.Gen.Kernel.Skeleton
import proofs.«900556_g7700000000000557_dist_matmul_kn_xy_m768_n768_k384_v7x_xy2x2_f32_1_alg».proof.Proof.Gen.Kernel.Launch
import proofs.«900556_g7700000000000557_dist_matmul_kn_xy_m768_n768_k384_v7x_xy2x2_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Mm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two peers -/

/-- The device across the x axis: (x, y) ↦ (1 - x, y). -/
def xp (c : Dev nD) : Dev nD := ⟨((c.val % 2) + 2) - 2 * (c.val / 2), by have := c.isLt; revert this; generalize c.val = v; decide +revert⟩
/-- The device across the y axis: (x, y) ↦ (x, 1 - y). -/
def yp (c : Dev nD) : Dev nD := ⟨(2 * (c.val / 2) + 1) - (c.val % 2), by have := c.isLt; revert this; generalize c.val = v; decide +revert⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne (c : Dev nD) : xp c ≠ c := by revert c; decide
theorem yp_ne (c : Dev nD) : yp c ≠ c := by revert c; decide
theorem xp_ne_yp (c : Dev nD) : xp c ≠ yp c := by revert c; decide

def xswap : Dev nD ≃ Dev nD := ⟨xp, xp, xp_xp, xp_xp⟩
def yswap : Dev nD ≃ Dev nD := ⟨yp, yp, yp_yp, yp_yp⟩

/-- The kernel's `device_id` chains: both signals' and every transfer's target. -/
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev4_eq (c : Dev nD) : (⟨k0_dev4 c, k0_dev4_lt c⟩ : Dev nD) = xp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = xp c := Fin.ext (k0_dev6_eq c)
theorem dev7_eq (c : Dev nD) : (⟨k0_dev7 c, k0_dev7_lt c⟩ : Dev nD) = yp c := Fin.ext (k0_dev7_eq c)

/-- The row offset of a device's half depends on its y coordinate only. -/
theorem off2_xp (c : Dev nD) : k0_off2 (xp c) = k0_off2 c := by revert c; decide +kernel
theorem off1_eq_off2 (c : Dev nD) : k0_off1 c = k0_off2 c := by rw [k0_off1_eq, k0_off2_eq]

/-! ## The memrefs -/

abbrev aIn : Memref sig .tc .vmem S768x384 .f32 := Memref.whole cc0_stg0_0
abbrev bIn : Memref sig .tc .vmem S384x768 .f32 := Memref.whole cc0_stg1_0
abbrev oM : Memref sig .tc .vmem S768x768 .f32 := Memref.whole cc0_stg2_0
abbrev aSt : Memref sig .tc .vmem S384x384 .bf16 := Memref.whole cc0_scratch0
abbrev bSt : Memref sig .tc .vmem S384x768 .bf16 := Memref.whole cc0_scratch1
abbrev aRv : Memref sig .tc .vmem S768x384 .bf16 := Memref.whole cc0_scratch2
abbrev bRv : Memref sig .tc .vmem S384x768 .bf16 := Memref.whole cc0_scratch3

/-- The half of rows of the A receive buffer at device `o`'s offset. -/
abbrev aRvH (o : Dev nD) : Memref sig .tc .vmem S384x384 .bf16 :=
  aRv.slice (Rect.unit (s := S768x384) (k0_off2 o) S384x384.size (k0_off2_inb o)) (fun _ => rfl)

abbrev bSt0 : Memref sig .tc .vmem S384x256 .bf16 := bSt.slice (Rect.unit (s := S384x768) ![0, 0] S384x256.size inb_S384x768_S384x256_0_0) (fun _ => rfl)
abbrev bSt1 : Memref sig .tc .vmem S384x256 .bf16 := bSt.slice (Rect.unit (s := S384x768) ![0, 256] S384x256.size inb_S384x768_S384x256_0_256) (fun _ => rfl)
abbrev bSt2 : Memref sig .tc .vmem S384x256 .bf16 := bSt.slice (Rect.unit (s := S384x768) ![0, 512] S384x256.size inb_S384x768_S384x256_0_512) (fun _ => rfl)
abbrev bRv0 : Memref sig .tc .vmem S384x256 .bf16 := bRv.slice (Rect.unit (s := S384x768) ![0, 0] S384x256.size inb_S384x768_S384x256_0_0) (fun _ => rfl)
abbrev bRv1 : Memref sig .tc .vmem S384x256 .bf16 := bRv.slice (Rect.unit (s := S384x768) ![0, 256] S384x256.size inb_S384x768_S384x256_0_256) (fun _ => rfl)
abbrev bRv2 : Memref sig .tc .vmem S384x256 .bf16 := bRv.slice (Rect.unit (s := S384x768) ![0, 512] S384x256.size inb_S384x768_S384x256_0_512) (fun _ => rfl)

/-! ## The semaphores and cells -/

abbrev barS : Sem sig := (SemArray.scalar (sig.barrier 0 rfl) : Sems sig S_).sem
abbrev axS : DmaSem sig := (cc0_scratch4 : DmaSems sig S_).sem
abbrev axR : DmaSem sig := (cc0_scratch5 : DmaSems sig S_).sem
abbrev ayS : DmaSem sig := (cc0_scratch6 : DmaSems sig S_).sem
abbrev ayR : DmaSem sig := (cc0_scratch7 : DmaSems sig S_).sem
abbrev bS0 : DmaSem sig := (((cc0_scratch8 : DmaSems sig S3).slice (Rect.unit (s := S3) ![0] S1.size inb_S3_S1_0)).squeeze S_ squeezes_S1_S_).sem
abbrev bS1 : DmaSem sig := (((cc0_scratch8 : DmaSems sig S3).slice (Rect.unit (s := S3) ![1] S1.size inb_S3_S1_1)).squeeze S_ squeezes_S1_S_).sem
abbrev bS2 : DmaSem sig := (((cc0_scratch8 : DmaSems sig S3).slice (Rect.unit (s := S3) ![2] S1.size inb_S3_S1_2)).squeeze S_ squeezes_S1_S_).sem
abbrev bR0 : DmaSem sig := (((cc0_scratch9 : DmaSems sig S3).slice (Rect.unit (s := S3) ![0] S1.size inb_S3_S1_0)).squeeze S_ squeezes_S1_S_).sem
abbrev bR1 : DmaSem sig := (((cc0_scratch9 : DmaSems sig S3).slice (Rect.unit (s := S3) ![1] S1.size inb_S3_S1_1)).squeeze S_ squeezes_S1_S_).sem
abbrev bR2 : DmaSem sig := (((cc0_scratch9 : DmaSems sig S3).slice (Rect.unit (s := S3) ![2] S1.size inb_S3_S1_2)).squeeze S_ squeezes_S1_S_).sem

theorem axS_eq : axS = (3 : DmaSem sig) := by decide
theorem axR_eq : axR = (4 : DmaSem sig) := by decide
theorem ayS_eq : ayS = (5 : DmaSem sig) := by decide
theorem ayR_eq : ayR = (6 : DmaSem sig) := by decide
theorem bS0_eq : bS0 = (7 : DmaSem sig) := by decide
theorem bS1_eq : bS1 = (8 : DmaSem sig) := by decide
theorem bS2_eq : bS2 = (9 : DmaSem sig) := by decide
theorem bR0_eq : bR0 = (10 : DmaSem sig) := by decide
theorem bR1_eq : bR1 = (11 : DmaSem sig) := by decide
theorem bR2_eq : bR2 = (12 : DmaSem sig) := by decide

/-- The protocol's eleven semaphores of a device: the barrier, then send / receive of the x-copy of A, of the y-relay of
    A, the three B sends, the three B receives. -/
abbrev csem : Fin 11 → SemLoc sig := fun
  | 0 => .reg barS | 1 => .dma axS | 2 => .dma axR | 3 => .dma ayS | 4 => .dma ayR
  | 5 => .dma bS0 | 6 => .dma bS1 | 7 => .dma bS2 | 8 => .dma bR0 | 9 => .dma bR1 | 10 => .dma bR2
/-- The ten scoped ones (the launch theorem's own semaphores). -/
abbrev osem : Fin 10 → SemLoc sig := fun k => csem k.succ

abbrev kcell (ck : Dev nD × Fin 11) : GSem nD τ sig := ((ck.1 : Thread nD τ), csem ck.2)
abbrev cell (c : Dev nD) (k : Fin 11) : GSem nD τ sig := ((c : Thread nD τ), csem k)

theorem csem_injective : Function.Injective csem := by decide

/-- The credit of the A half's transfer and of a B chunk's. -/
abbrev NA : ℕ := (aSt : Memref sig .tc .vmem S384x384 .bf16).view.dmaCredit
abbrev NB : ℕ := (bSt0 : Memref sig .tc .vmem S384x256 .bf16).view.dmaCredit
theorem NA_pos : 0 < NA := View.dmaCredit_pos _ (by decide)
theorem NB_pos : 0 < NB := View.dmaCredit_pos _ (by decide)

/-! ## Contents -/

section Contents

variable (m : (ℓ : Loc nD τ sig) → Buf (Elt F) ℓ)

/-- Device `c`'s block of A, f32[768, 384], and of B, f32[384, 768], as staged (each window is its whole array). -/
def Ain (c : Dev nD) : (cc0_stg0_0 : Ref sig .tc).ty.Contents (Elt F) :=
  (win0_0.blk (0 : Fin 1)).view.read (Elt F) (m ((c : Thread nD τ).loc main_arg0))
def Bin (c : Dev nD) : (cc0_stg1_0 : Ref sig .tc).ty.Contents (Elt F) :=
  (win0_1.blk (0 : Fin 1)).view.read (Elt F) (m ((c : Thread nD τ).loc main_arg1))

/-- The 384 rows of the A block at device `o`'s row offset (its y coordinate's half). -/
abbrev rHalf (o : Dev nD) : Rect S768x384 := Rect.unit (s := S768x384) (k0_off1 o) S384x384.size (k0_off1_inb o)
/-- The three column chunks of a [384, 768] buffer and of the [768, 768] result. -/
abbrev rB0 : Rect S384x768 := Rect.unit (s := S384x768) ![0, 0] S384x256.size inb_S384x768_S384x256_0_0
abbrev rB1 : Rect S384x768 := Rect.unit (s := S384x768) ![0, 256] S384x256.size inb_S384x768_S384x256_0_256
abbrev rB2 : Rect S384x768 := Rect.unit (s := S384x768) ![0, 512] S384x256.size inb_S384x768_S384x256_0_512
abbrev rO0 : Rect S768x768 := Rect.unit (s := S768x768) ![0, 0] S768x256.size inb_S768x768_S768x256_0_0
abbrev rO1 : Rect S768x768 := Rect.unit (s := S768x768) ![0, 256] S768x256.size inb_S768x768_S768x256_0_256
abbrev rO2 : Rect S768x768 := Rect.unit (s := S768x768) ![0, 512] S768x256.size inb_S768x768_S768x256_0_512

/-- What device `c` stages for sending: its half of rows of its A block, and its B block, both narrowed to bf16. -/
def aStV (c : Dev nD) : (cc0_scratch0 : Ref sig .tc).ty.Contents (Elt F) :=
  k0_pay1 ((aIn : Memref sig .tc .vmem S768x384 .f32).view.readAt (Elt F) (rHalf c).toLoadRect (Ain m c))
def bStV (c : Dev nD) : (cc0_scratch1 : Ref sig .tc).ty.Contents (Elt F) := k0_pay2 (Bin m c)

/-- What device `c`'s A receive buffer ends holding: on its own half of rows what its x-peer staged, on the other half
    what its y-peer's x-peer staged (relayed by the y-peer). -/
def aRvV (c : Dev nD) : (cc0_scratch2 : Ref sig .tc).ty.Contents (Elt F) :=
  (aRvH (yp c)).view.write (Elt F)
    ((aRvH c).view.write (Elt F) (fun _ => Classical.arbitrary _) ((aSt : Memref sig .tc .vmem S384x384 .bf16).view.read (Elt F) (aStV m (xp c))) Finset.univ)
    ((aSt : Memref sig .tc .vmem S384x384 .bf16).view.read (Elt F) (aStV m (xp (yp c)))) Finset.univ
/-- What its B receive buffer ends holding: what its x-peer staged. -/
def bRvV (c : Dev nD) : (cc0_scratch3 : Ref sig .tc).ty.Contents (Elt F) := bStV m (xp c)

/-- A column chunk of a [384, 768] bf16 buffer's contents, as the body loads it. -/
abbrev chB0 (X : (cc0_scratch1 : Ref sig .tc).ty.Contents (Elt F)) : Vec F S384x256 .bf16 := (bSt : Memref sig .tc .vmem S384x768 .bf16).view.readAt (Elt F) rB0.toLoadRect X
abbrev chB1 (X : (cc0_scratch1 : Ref sig .tc).ty.Contents (Elt F)) : Vec F S384x256 .bf16 := (bSt : Memref sig .tc .vmem S384x768 .bf16).view.readAt (Elt F) rB1.toLoadRect X
abbrev chB2 (X : (cc0_scratch1 : Ref sig .tc).ty.Contents (Elt F)) : Vec F S384x256 .bf16 := (bSt : Memref sig .tc .vmem S384x768 .bf16).view.readAt (Elt F) rB2.toLoadRect X
abbrev chR0 (X : (cc0_scratch3 : Ref sig .tc).ty.Contents (Elt F)) : Vec F S384x256 .bf16 := (bRv : Memref sig .tc .vmem S384x768 .bf16).view.readAt (Elt F) rB0.toLoadRect X
abbrev chR1 (X : (cc0_scratch3 : Ref sig .tc).ty.Contents (Elt F)) : Vec F S384x256 .bf16 := (bRv : Memref sig .tc .vmem S384x768 .bf16).view.readAt (Elt F) rB1.toLoadRect X
abbrev chR2 (X : (cc0_scratch3 : Ref sig .tc).ty.Contents (Elt F)) : Vec F S384x256 .bf16 := (bRv : Memref sig .tc .vmem S384x768 .bf16).view.readAt (Elt F) rB2.toLoadRect X

/-- The three column chunks of the result: the local product plus the product of the received blocks. -/
def outCh0 (c : Dev nD) : FVec F S768x256 .f32 := k0_pay7 (aRvV m c) (k0_pay4 (Ain m c) (chB0 (bStV m c))) (chR0 (bRvV m c))
def outCh1 (c : Dev nD) : FVec F S768x256 .f32 := k0_pay8 (aRvV m c) (k0_pay5 (Ain m c) (chB1 (bStV m c))) (chR1 (bRvV m c))
def outCh2 (c : Dev nD) : FVec F S768x256 .f32 :=
  k0_pay9 (aRvV m c) (k0_pay6 (k0_pay3 (Ain m c)) (chB2 (bStV m c)) (constant S768x256 .f32 0x00000000#32)) (chR2 (bRvV m c))

/-- The result staging buffer after the body: the three chunks side by side. -/
def outV (c : Dev nD) : (cc0_stg2_0 : Ref sig .tc).ty.Contents (Elt F) :=
  ((oM : Memref sig .tc .vmem S768x768 .f32).access rO2 : View sig .tc _ _ _).write (Elt F)
    (((oM : Memref sig .tc .vmem S768x768 .f32).access rO1 : View sig .tc _ _ _).write (Elt F)
      (((oM : Memref sig .tc .vmem S768x768 .f32).access rO0 : View sig .tc _ _ _).write (Elt F) (fun _ => Classical.arbitrary _) (outCh0 m c) Finset.univ)
      (outCh1 m c) Finset.univ)
    (outCh2 m c) Finset.univ

end Contents

end Cert.Kernel.Mm

end
-- ==== Proof.BitsSched.lean ====
/-
  The protocol as a schedule of rounds: every semaphore cell of every device has ONE round. A device's barrier cell is
  paid one unit by each of its two peers; with the unit a peer hands over the part of ITS OWN receive buffers the
  device will write into (the x-peer: its own-offset half of its A receive buffer and its whole B receive buffer; the
  y-peer: the other half of its A receive buffer). A receive cell is paid by the transfer that lands there and hands the
  owner the landed rows or columns at their final contents; a send cell is paid by the owner's own transfer and hands
  back the share of the source the transfer read.
-/
import proofs.«900556_g7700000000000557_dist_matmul_kn_xy_m768_n768_k384_v7x_xy2x2_f32_1_alg».proof.Proof.BitsProto

noncomputable section

namespace Cert.Kernel.Mm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Which of the eleven a semaphore is -/

def kindOf (s : SemLoc sig) : Option (Fin 11) :=
  if s = csem 0 then some 0 else if s = csem 1 then some 1 else if s = csem 2 then some 2 else if s = csem 3 then some 3
  else if s = csem 4 then some 4 else if s = csem 5 then some 5 else if s = csem 6 then some 6 else if s = csem 7 then some 7
  else if s = csem 8 then some 8 else if s = csem 9 then some 9 else if s = csem 10 then some 10 else none

theorem kindOf_csem : ∀ k : Fin 11, kindOf (csem k) = some k := by decide

/-- The share of a source a transfer holds while the body still loads from that source. -/
abbrev qs : PosShare TreeShare := fullShare.left
abbrev ql : PosShare TreeShare := fullShare.right

/-! ## The payloads -/

/-- The A transfers move NA units, the B chunks NB, a signal one. -/
def amt : Fin 11 → ℕ := fun k => if k = 0 then 1 else if k.val ≤ 4 then NA else NB

theorem amt_pos (k : Fin 11) : 0 < amt k := by
  unfold amt; split; · exact Nat.one_pos
  split; · exact NA_pos
  exact NB_pos

/-- What a duty's payment hands the owner `c` of cell `k`. -/
def pay (k : Fin 11) (c : Dev nD) (d : Bool) : sProp 𝕄 :=
  match k with
  | 0 => if d then iprop(∃ f, (aRvH c).view.loc (yp c : Thread nD τ) ↦[(aRvH c).view.set]{fullShare} f)
      else iprop((∃ f, (aRvH c).view.loc (xp c : Thread nD τ) ↦[(aRvH c).view.set]{fullShare} f)
        ∗ (∃ f, (bRv : Memref sig .tc .vmem S384x768 .bf16).view.loc (xp c : Thread nD τ) ↦[(bRv : Memref sig .tc .vmem S384x768 .bf16).view.set]{fullShare} f))
  | 1 => (aSt : Memref sig .tc .vmem S384x384 .bf16).view.loc (c : Thread nD τ) ↦[(aSt : Memref sig .tc .vmem S384x384 .bf16).view.set]{fullShare} aStV m c
  | 2 => (aRvH c).view.loc (c : Thread nD τ) ↦[(aRvH c).view.set]{fullShare} aRvV m c
  | 3 => (aRvH c).view.loc (c : Thread nD τ) ↦[(aRvH c).view.set]{qs} aRvV m c
  | 4 => (aRvH (yp c)).view.loc (c : Thread nD τ) ↦[(aRvH (yp c)).view.set]{fullShare} aRvV m c
  | 5 => (bSt0 : Memref sig .tc .vmem S384x256 .bf16).view.loc (c : Thread nD τ) ↦[(bSt0 : Memref sig .tc .vmem S384x256 .bf16).view.set]{qs} bStV m c
  | 6 => (bSt1 : Memref sig .tc .vmem S384x256 .bf16).view.loc (c : Thread nD τ) ↦[(bSt1 : Memref sig .tc .vmem S384x256 .bf16).view.set]{qs} bStV m c
  | 7 => (bSt2 : Memref sig .tc .vmem S384x256 .bf16).view.loc (c : Thread nD τ) ↦[(bSt2 : Memref sig .tc .vmem S384x256 .bf16).view.set]{qs} bStV m c
  | 8 => (bRv0 : Memref sig .tc .vmem S384x256 .bf16).view.loc (c : Thread nD τ) ↦[(bRv0 : Memref sig .tc .vmem S384x256 .bf16).view.set]{fullShare} bRvV m c
  | 9 => (bRv1 : Memref sig .tc .vmem S384x256 .bf16).view.loc (c : Thread nD τ) ↦[(bRv1 : Memref sig .tc .vmem S384x256 .bf16).view.set]{fullShare} bRvV m c
  | 10 => (bRv2 : Memref sig .tc .vmem S384x256 .bf16).view.loc (c : Thread nD τ) ↦[(bRv2 : Memref sig .tc .vmem S384x256 .bf16).view.set]{fullShare} bRvV m c

set_option synthInstance.maxHeartbeats 400000 in
instance pay_storable (k : Fin 11) (c : Dev nD) (d : Bool) : BI.Storable (upEmb : UEmb _ 𝕄) (pay (F := F) m k c d) := by
  unfold pay; split <;> (try split) <;> infer_instance

/-! ## The schedule -/

def Rd : Rounds.Schedule (GSem nD τ sig) Bool 𝕄 where
  duties g r := if r = 0 ∧ g.1.2 = .tc then (match kindOf g.2 with | some k => if k = 0 then Finset.univ else {false} | none => ∅) else ∅
  unitless _ := False
  amount g _ _ := match kindOf g.2 with | some k => amt k | none => 1
  payload g _ d := match kindOf g.2 with | some k => pay m k g.1.1 d | none => iprop(emp)
  amount_pos g _ _ _ := by
    cases h : kindOf g.2 with
    | none => exact Nat.one_pos
    | some k => exact amt_pos k

instance Rd_payload_storable (g : GSem nD τ sig) (r : ℕ) (d : Bool) : BI.Storable (upEmb : UEmb _ 𝕄) ((Rd (F := F) m).payload g r d) := by
  show BI.Storable upEmb (match kindOf g.2 with | some k => pay m k g.1.1 d | none => iprop(emp))
  cases kindOf g.2 <;> infer_instance

section Tables
variable (c : Dev nD)

theorem duties_bar : (Rd (F := F) m).duties (cell c 0) 0 = Finset.univ := by
  dsimp only [Rd]; rw [if_pos ⟨rfl, rfl⟩, kindOf_csem]; rfl
theorem duties_dma (k : Fin 11) (hk : k ≠ 0) : (Rd (F := F) m).duties (cell c k) 0 = {false} := by
  dsimp only [Rd]; rw [if_pos ⟨rfl, rfl⟩, kindOf_csem]; exact if_neg hk
theorem duties_later (g : GSem nD τ sig) : ∀ r, 1 ≤ r → (Rd (F := F) m).duties g r = ∅ :=
  fun r hr => by dsimp only [Rd]; exact if_neg fun h => by omega
theorem amount_cell (k : Fin 11) (d : Bool) : (Rd (F := F) m).amount (cell c k) 0 d = amt k := by
  dsimp only [Rd]; rw [kindOf_csem]
theorem payload_cell (k : Fin 11) (d : Bool) : (Rd (F := F) m).payload (cell c k) 0 d = pay m k c d := by
  dsimp only [Rd]; rw [kindOf_csem]

theorem expect_bar : (Rd (F := F) m).expect (cell c 0) 0 = 2 := by
  unfold Schedule.expect Schedule.amountOf
  rw [duties_bar, Finset.sum_congr rfl fun d _ => amount_cell m c 0 d, Finset.sum_const, Finset.card_univ, Fintype.card_bool, smul_eq_mul]; rfl
theorem expect_dma (k : Fin 11) (hk : k ≠ 0) : (Rd (F := F) m).expect (cell c k) 0 = amt k := by
  unfold Schedule.expect Schedule.amountOf; rw [duties_dma m c k hk, Finset.sum_singleton, amount_cell]

/-- The barrier cell's whole round: what the x-peer hands and what the y-peer hands. -/
theorem rest_bar : bigSep ((Rd (F := F) m).duties (cell c 0) 0 \ ∅) (fun d => (Rd (F := F) m).payload (cell c 0) 0 d) = iprop(pay m 0 c false ∗ pay m 0 c true) := by
  rw [Finset.sdiff_empty, duties_bar, bigSep_univ_eq_bigSepL [false, true] (by decide) (by decide), bigSepL_cons_cons, bigSepL_singleton,
    payload_cell, payload_cell]
  rfl
theorem rest_dma (k : Fin 11) (hk : k ≠ 0) : bigSep ((Rd (F := F) m).duties (cell c k) 0 \ ∅) (fun d => (Rd (F := F) m).payload (cell c k) 0 d) = pay m k c false := by
  rw [Finset.sdiff_empty, duties_dma m c k hk, bigSep_singleton, payload_cell]

end Tables

/-! ## What a device owes at launch, and the levels -/

/-- In the order the body pays, last summand first: the two signals, the x-copy of A, the three B chunks, the y-relay. -/
def O6 (c : Dev nD) : CellTallies nD τ sig Unit := tallyAt (cell (yp c) 4) () NA
def O5 (c : Dev nD) : CellTallies nD τ sig Unit := O6 c + tallyAt (cell (xp c) 10) () NB
def O4 (c : Dev nD) : CellTallies nD τ sig Unit := O5 c + tallyAt (cell (xp c) 9) () NB
def O3 (c : Dev nD) : CellTallies nD τ sig Unit := O4 c + tallyAt (cell (xp c) 8) () NB
def O2 (c : Dev nD) : CellTallies nD τ sig Unit := O3 c + tallyAt (cell (xp c) 2) () NA
def O1 (c : Dev nD) : CellTallies nD τ sig Unit := O2 c + tallyAt (cell (yp c) 0) () 1
def O₀ (c : Dev nD) : CellTallies nD τ sig Unit := O1 c + tallyAt (cell (xp c) 0) () 1

def L (g : GSem nD τ sig) : Finset Unit := if g.1.2 = .tc then {()} else ∅
/-- Barrier cells at 1, the receive cells of the x-copies at 2, of the y-relay at 3, everything else at 0: a device
    waits on its barrier owing only receive credit, and on its x-copy's receive cell owing only the y-relay's. -/
def lv (g : GSem nD τ sig) (_ : Unit) : ℕ :=
  match kindOf g.2 with
  | some k => if k = 0 then 1 else if k = 4 then 3 else if k = 2 ∨ 8 ≤ k.val then 2 else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : Fin 11) : lv (cell c k) () = if k = 0 then 1 else if k = 4 then 3 else if k = 2 ∨ 8 ≤ k.val then 2 else 0 := by
  unfold lv; rw [kindOf_csem]

end Cert.Kernel.Mm

end
-- ==== Proof.BitsData.lean ====
/-
  What each device holds when its body starts and when it ends: the cells' invariants and reached-marks (shared by all),
  its positions at round 0 of its own eleven cells, the tokens of the twelve duties it pays, the credit its peers owe its
  barrier and receive cells, and its four scratch buffers; at the end the scratch buffers and its ten own cells closed.
  The pipeline's proof data: the two argument blocks staged unchanged, the result staged at the three chunks.
-/
import proofs.«900556_g7700000000000557_dist_matmul_kn_xy_m768_n768_k384_v7x_xy2x2_f32_1_alg».proof.Proof.BitsSched

noncomputable section

namespace Cert.Kernel.Mm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## The ghost state -/

/-- Every cell's invariant, under the names the launch allocated them at, and that every cell is at round 0: persistent,
    held by every device. -/
def records (K : Dev nD × Fin 11 → ℕ) : sProp 𝕄 :=
  iprop((bigSep Finset.univ fun ck : Dev nD × Fin 11 => cellInv ER (Rd m) (K ck) (kcell ck))
    ∗ bigSep Finset.univ fun ck : Dev nD × Fin 11 => reached ER (kcell ck) 0)

instance records_persistent (K : Dev nD × Fin 11 → ℕ) : BI.Persistent (records m K) := by unfold records; infer_instance

theorem inv_at (K : Dev nD × Fin 11 → ℕ) (ck : Dev nD × Fin 11) : records m K ⊢ cellInv ER (Rd m) (K ck) (kcell ck) :=
  sep_elim_left.trans (bigSep_elim (Φ := fun ck : Dev nD × Fin 11 => cellInv ER (Rd m) (K ck) (kcell ck)) (Finset.mem_univ ck))
theorem reached_at (K : Dev nD × Fin 11 → ℕ) (ck : Dev nD × Fin 11) : records m K ⊢ reached ER (kcell ck) 0 :=
  sep_elim_right.trans (bigSep_elim (Φ := fun ck : Dev nD × Fin 11 => (reached ER (kcell ck) 0 : sProp 𝕄)) (Finset.mem_univ ck))

/-- The tokens of the duties device `c` pays: its two barrier signals, the five landings on its peers' receive cells, its
    own five send cells. -/
def payToks (c : Dev nD) : sProp 𝕄 :=
  iprop(dutyTok ER (cell (xp c) 0) 0 false ∗ dutyTok ER (cell (yp c) 0) 0 true
    ∗ dutyTok ER (cell (xp c) 2) 0 false ∗ dutyTok ER (cell (yp c) 4) 0 false
    ∗ dutyTok ER (cell (xp c) 8) 0 false ∗ dutyTok ER (cell (xp c) 9) 0 false ∗ dutyTok ER (cell (xp c) 10) 0 false
    ∗ dutyTok ER (cell c 1) 0 false ∗ dutyTok ER (cell c 3) 0 false
    ∗ dutyTok ER (cell c 5) 0 false ∗ dutyTok ER (cell c 6) 0 false ∗ dutyTok ER (cell c 7) 0 false)

/-- Its positions: round 0, nothing taken, of each of its eleven cells. -/
def positions (c : Dev nD) : sProp 𝕄 := bigSep Finset.univ fun k : Fin 11 => atPos ER (cell c k) 0 ∅ 0

def ghost (K : Dev nD × Fin 11 → ℕ) (c : Dev nD) : sProp 𝕄 := iprop(records m K ∗ positions c ∗ payToks c)

/-- The credit the peers owe device `c`'s cells at launch. -/
def creds (c : Dev nD) : sProp 𝕄 :=
  iprop(cred (tallyAt (cell c 0) () 2) ∗ cred (tallyAt (cell c 2) () NA) ∗ cred (tallyAt (cell c 4) () NA)
    ∗ cred (tallyAt (cell c 8) () NB) ∗ cred (tallyAt (cell c 9) () NB) ∗ cred (tallyAt (cell c 10) () NB))

def start (c : Dev nD) : sProp 𝕄 := iprop((∃ K, ghost m K c) ∗ creds c ∗ levAts L lv)

/-- The four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The ten own cells closed: their counters at zero. -/
def closed (c : Dev nD) : sProp 𝕄 := bigSep Finset.univ fun k : Fin 10 => semVal (cell c k.succ) 0

def Φ₀ (c : Dev nD) : sProp 𝕄 := iprop(start m c ∗ scratch c)
def Φ₁ (c : Dev nD) : sProp 𝕄 := iprop(scratch (F := F) c ∗ closed c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Ain m c
    | ⟨1, _⟩ => Bin m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the names of the invariants opened. -/
def bodyPre (K : Dev nD × Fin 11 → ℕ) (c : Dev nD) : sProp 𝕄 :=
  iprop((ghost m K c ∗ creds c ∗ levAts L lv ∗ scratch c)
    ∗ (dats m ρ 0 c).owesAt () t0_0.castSucc
    ∗ stg c cc0_stg0_0 (Ain m c)
    ∗ stg c cc0_stg1_0 (Bin m c)
    ∗ (∃ d, stg c cc0_stg2_0 d))

def bodyPost (c : Dev nD) : sProp 𝕄 :=
  iprop(Φ₁ c ∗ (dats m ρ 0 c).owesAt () t0_0.succ ∗ stg c cc0_stg0_0 (Ain m c) ∗ stg c cc0_stg1_0 (Bin m c) ∗ stg c cc0_stg2_0 (outV m c))

end Cert.Kernel.Mm

end
-- ==== Proof.BitsViews.lean ====
/-
  Geometry of the receive buffers and the contents that land in them: the two halves of rows tile the A receive buffer,
  the three column chunks tile a B buffer, and each transfer's landing — the destination slice overwritten whole by the
  source slice — is the slice at its final contents.
-/
import proofs.«900556_g7700000000000557_dist_matmul_kn_xy_m768_n768_k384_v7x_xy2x2_f32_1_alg».proof.Proof.BitsProto
import Idealize.ShloMosaic.Lib.Pipeline.Value

noncomputable section

namespace Cert.Kernel.Mm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Points-to along a disjoint union, as an equation -/

theorem pt_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-! ## The halves of the A receive buffer -/

/-- The rows of the half at device `o`'s offset. -/
abbrev rH (o : Dev nD) : Rect S768x384 := Rect.unit (s := S768x384) (k0_off2 o) S384x384.size (k0_off2_inb o)

theorem set_aRvH (o : Dev nD) : (aRvH o).view.set = (rH o).set := View.set_slice_whole cc0_scratch2 _

/-- An index lies in the half at `o`'s offset exactly when its row lies in `o`'s 384 rows. -/
theorem mem_rH (o : Dev nD) (i : S768x384.Idx) :
    i ∈ (rH o).set ↔ 384 * (o.val % 2) ≤ (i 0 : ℕ) ∧ (i 0 : ℕ) < 384 * (o.val % 2) + 384 := by
  have h1 : (i 1 : ℕ) < 384 := (i 1).isLt
  rw [Rect.mem_set_unit, Fin.forall_fin_two, k0_off2_eq]
  simp only [Matrix.cons_val_zero, Matrix.cons_val_one, Matrix.head_cons]
  constructor
  · rintro ⟨h, _⟩; exact h
  · intro h; exact ⟨h, Nat.zero_le _, by omega⟩

theorem yp_mod (c : Dev nD) : (yp c).val % 2 = 1 - c.val % 2 := by revert c; decide

theorem rH_disjoint (c : Dev nD) : Disjoint (rH c).set (rH (yp c)).set := by
  rw [Finset.disjoint_left]
  intro i h1 h2
  rw [mem_rH] at h1 h2
  rw [yp_mod] at h2
  omega

theorem rH_cover (c : Dev nD) : (rH c).set ∪ (rH (yp c)).set = Finset.univ := by
  ext i
  have h0 : (i 0 : ℕ) < 768 := (i 0).isLt
  simp only [Finset.mem_union, Finset.mem_univ, iff_true]
  rw [mem_rH, mem_rH, yp_mod]
  omega

/-- The half depends on the device only through its row offset. -/
theorem aRvH_congr {o o' : Dev nD} (h : k0_off2 o = k0_off2 o') : aRvH o = aRvH o' :=
  Memref.slice_unit_congr _ h _ _ _ _

theorem aRvH_xp (c : Dev nD) : aRvH (xp c) = aRvH c := aRvH_congr (off2_xp c)

/-- Device `d`'s A receive buffer is the half at `c`'s offset beside the half at `yp c`'s. -/
theorem aRv_split (c d : Dev nD) (q : PosShare TreeShare) (f : Buf (Elt F) ((d : Thread nD τ).loc cc0_scratch2)) :
    ((((d : Thread nD τ).loc cc0_scratch2) ↦{q} f : sProp 𝕄))
      ⊣⊢ iprop(((aRvH c).view.loc (d : Thread nD τ) ↦[(aRvH c).view.set]{q} f)
          ∗ ((aRvH (yp c)).view.loc (d : Thread nD τ) ↦[(aRvH (yp c)).view.set]{q} f)) := by
  have hd : Disjoint (aRvH c).view.set (aRvH (yp c)).view.set := by
    rw [set_aRvH, set_aRvH]; exact rH_disjoint c
  have hu : (aRvH c).view.set ∪ (aRvH (yp c)).view.set = Finset.univ := by
    rw [set_aRvH, set_aRvH]; exact rH_cover c
  have h1 := pt_union_eq (ℓ := ((d : Thread nD τ).loc cc0_scratch2)) (q := q) (f := f) hd
  rw [hu] at h1
  exact .of_eq h1

/-! ## The three column chunks of a [384, 768] buffer -/

/-- An index lies in the chunk of 256 columns from column `k` exactly when its column does. -/
theorem mem_colB {k : ℕ} (inb : ∀ a, (![0, k] : Fin 2 → ℕ) a + S384x256.size a ≤ S384x768.size a) (i : S384x768.Idx) :
    i ∈ (Rect.unit (s := S384x768) ![0, k] S384x256.size inb).set ↔ k ≤ (i 1 : ℕ) ∧ (i 1 : ℕ) < k + 256 := by
  have h0 : (i 0 : ℕ) < 384 := (i 0).isLt
  rw [Rect.mem_set_unit, Fin.forall_fin_two]
  simp only [Matrix.cons_val_zero, Matrix.cons_val_one, Matrix.head_cons]
  constructor
  · rintro ⟨_, h⟩; exact h
  · intro h; exact ⟨⟨Nat.zero_le _, by omega⟩, h⟩

theorem colB_disjoint0 : Disjoint rB0.set (rB1.set ∪ rB2.set) := by
  rw [Finset.disjoint_left]
  intro i h0 h12
  rw [Finset.mem_union, mem_colB, mem_colB] at h12
  rw [mem_colB] at h0
  omega

theorem colB_disjoint1 : Disjoint rB1.set rB2.set := by
  rw [Finset.disjoint_left]
  intro i h1 h2
  rw [mem_colB] at h1 h2
  omega

theorem colB_cover : rB0.set ∪ (rB1.set ∪ rB2.set) = Finset.univ := by
  ext i
  have h1 : (i 1 : ℕ) < 768 := (i 1).isLt
  simp only [Finset.mem_union, Finset.mem_univ, iff_true]
  rw [mem_colB, mem_colB, mem_colB]
  omega

/-- A [384, 768] bf16 buffer is its three column chunks (the staging buffer; the receive buffer). -/
theorem bSt_split (d : Dev nD) (q : PosShare TreeShare) (f : Buf (Elt F) ((d : Thread nD τ).loc cc0_scratch1)) :
    ((((d : Thread nD τ).loc cc0_scratch1) ↦{q} f : sProp 𝕄))
      ⊣⊢ iprop(((bSt0 : Memref sig .tc .vmem S384x256 .bf16).view.loc (d : Thread nD τ) ↦[(bSt0 : Memref sig .tc .vmem S384x256 .bf16).view.set]{q} f)
          ∗ ((bSt1 : Memref sig .tc .vmem S384x256 .bf16).view.loc (d : Thread nD τ) ↦[(bSt1 : Memref sig .tc .vmem S384x256 .bf16).view.set]{q} f)
          ∗ ((bSt2 : Memref sig .tc .vmem S384x256 .bf16).view.loc (d : Thread nD τ) ↦[(bSt2 : Memref sig .tc .vmem S384x256 .bf16).view.set]{q} f)) := by
  have e0 : (bSt0 : Memref sig .tc .vmem S384x256 .bf16).view.set = rB0.set := View.set_slice_whole cc0_scratch1 _
  have e1 : (bSt1 : Memref sig .tc .vmem S384x256 .bf16).view.set = rB1.set := View.set_slice_whole cc0_scratch1 _
  have e2 : (bSt2 : Memref sig .tc .vmem S384x256 .bf16).view.set = rB2.set := View.set_slice_whole cc0_scratch1 _
  have h1 := pt_union_eq (ℓ := ((d : Thread nD τ).loc cc0_scratch1)) (q := q) (f := f) colB_disjoint0
  rw [colB_cover, pt_union_eq colB_disjoint1] at h1
  rw [e0, e1, e2]
  exact .of_eq h1
theorem bRv_split (d : Dev nD) (q : PosShare TreeShare) (f : Buf (Elt F) ((d : Thread nD τ).loc cc0_scratch3)) :
    ((((d : Thread nD τ).loc cc0_scratch3) ↦{q} f : sProp 𝕄))
      ⊣⊢ iprop(((bRv0 : Memref sig .tc .vmem S384x256 .bf16).view.loc (d : Thread nD τ) ↦[(bRv0 : Memref sig .tc .vmem S384x256 .bf16).view.set]{q} f)
          ∗ ((bRv1 : Memref sig .tc .vmem S384x256 .bf16).view.loc (d : Thread nD τ) ↦[(bRv1 : Memref sig .tc .vmem S384x256 .bf16).view.set]{q} f)
          ∗ ((bRv2 : Memref sig .tc .vmem S384x256 .bf16).view.loc (d : Thread nD τ) ↦[(bRv2 : Memref sig .tc .vmem S384x256 .bf16).view.set]{q} f)) := by
  have e0 : (bRv0 : Memref sig .tc .vmem S384x256 .bf16).view.set = rB0.set := View.set_slice_whole cc0_scratch3 _
  have e1 : (bRv1 : Memref sig .tc .vmem S384x256 .bf16).view.set = rB1.set := View.set_slice_whole cc0_scratch3 _
  have e2 : (bRv2 : Memref sig .tc .vmem S384x256 .bf16).view.set = rB2.set := View.set_slice_whole cc0_scratch3 _
  have h1 := pt_union_eq (ℓ := ((d : Thread nD τ).loc cc0_scratch3)) (q := q) (f := f) colB_disjoint0
  rw [colB_cover, pt_union_eq colB_disjoint1] at h1
  rw [e0, e1, e2]
  exact .of_eq h1

/-- The full share is the left half beside the right half. -/
theorem share_halves {ℓ : Loc nD τ sig} (S : Finset ℓ.ty.Idx) (f : Buf (Elt F) ℓ) :
    ((ℓ ↦[S]{fullShare} f : sProp 𝕄)) ⊣⊢ iprop((ℓ ↦[S]{fullShare.left} f) ∗ (ℓ ↦[S]{fullShare.right} f)) :=
  pointsTo_share (PosShare.mem_left_op_right fullShare)

/-! ## A write through a unit-stride slice of a whole buffer, in closed form -/

/-- Inside the slice the update reads its payload, whatever lies under it. -/
theorem updateSlice_congr_at {α : Type} {s u : Shape} (x x' : s.Idx → α) {upd upd' : u.Idx → α} {start start' : Fin s.rank → ℕ}
    (hu : upd = upd') (hs : start = start') (h : s.Slices start u) (h' : s.Slices start' u) (i : s.Idx)
    (hin : ∀ a : Fin s.rank, start a ≤ (i a).val ∧ (i a).val < start a + u.size (a.cast h.1.symm)) :
    updateSlice x upd start h i = updateSlice x' upd' start' h' i := by
  subst hu hs
  unfold updateSlice
  rw [dif_pos hin, dif_pos hin]

/-- Outside the slice the update leaves what lies under it. -/
theorem updateSlice_of_not_mem {α : Type} {s u : Shape} (x : s.Idx → α) (upd : u.Idx → α) (start : Fin s.rank → ℕ)
    (h : s.Slices start u) (i : s.Idx)
    (hout : ¬ ∀ a : Fin s.rank, start a ≤ (i a).val ∧ (i a).val < start a + u.size (a.cast h.1.symm)) :
    updateSlice x upd start h i = x i := by
  unfold updateSlice
  rw [dif_neg hout]

theorem aRvH_write (o : Dev nD) (f : (cc0_scratch2 : Ref sig .tc).ty.Contents (Elt F)) (w : S384x384.Idx → Elt F .bf16) :
    (aRvH o).view.write (Elt F) f w Finset.univ = updateSlice f w (k0_off2 o) ⟨rfl, k0_off2_inb o⟩ :=
  View.write_whole_slice_unit cc0_scratch2 (k0_off2 o) S384x384.size (k0_off2_inb o) f w

/-- The receive buffer's final contents on its own half of rows: what the x-peer staged, laid at that half. -/
theorem aRvV_own (c : Dev nD) (x : (cc0_scratch2 : Ref sig .tc).ty.Contents (Elt F)) (i : S768x384.Idx) (hi : i ∈ (rH c).set) :
    aRvV m c i = updateSlice x ((aSt : Memref sig .tc .vmem S384x384 .bf16).view.read (Elt F) (aStV m (xp c))) (k0_off2 c) ⟨rfl, k0_off2_inb c⟩ i := by
  unfold aRvV
  rw [aRvH_write, aRvH_write]
  refine (updateSlice_of_not_mem _ _ _ _ i fun h => ?_).trans ?_
  · exact Finset.disjoint_left.mp (rH_disjoint c) hi (Rect.mem_set_unit.mpr h)
  · exact updateSlice_congr_at _ _ rfl rfl _ _ i (Rect.mem_set_unit.mp hi)

/-- On the other half: what the y-peer's x-peer staged. -/
theorem aRvV_other (c : Dev nD) (x : (cc0_scratch2 : Ref sig .tc).ty.Contents (Elt F)) (i : S768x384.Idx) (hi : i ∈ (rH (yp c)).set) :
    aRvV m c i = updateSlice x ((aSt : Memref sig .tc .vmem S384x384 .bf16).view.read (Elt F) (aStV m (xp (yp c)))) (k0_off2 (yp c)) ⟨rfl, k0_off2_inb (yp c)⟩ i := by
  unfold aRvV
  rw [aRvH_write, aRvH_write]
  exact updateSlice_congr_at _ _ rfl rfl _ _ i (Rect.mem_set_unit.mp hi)

/-! ## The landings -/

/-- The x-copy of A: device `c`'s staged half lands in its x-peer's own-offset half, at that buffer's final contents. -/
theorem land_ax (c : Dev nD) (fd : Buf (Elt F) ((aRvH c).view.loc (xp c : Thread nD τ))) :
    ((aRvH c).view.loc (xp c : Thread nD τ) ↦[(aRvH c).view.set]{fullShare}
        ((aRvH c).view.write (Elt F) fd ((aSt : Memref sig .tc .vmem S384x384 .bf16).view.read (Elt F) (aStV m c)) Finset.univ) : sProp 𝕄)
      = ((aRvH (xp c)).view.loc (xp c : Thread nD τ) ↦[(aRvH (xp c)).view.set]{fullShare} aRvV m (xp c)) := by
  have hs : (rH (xp c)).set = (rH c).set := congrArg (fun r : Rect S768x384 => r.set) (Rect.unit_congr (off2_xp c) _ _)
  rw [set_aRvH, set_aRvH, hs]
  show (pointsTo ((xp c : Thread nD τ).loc cc0_scratch2) _ _ _ : sProp 𝕄) = pointsTo ((xp c : Thread nD τ).loc cc0_scratch2) _ _ _
  refine pointsTo_congr fun i hi => ?_
  rw [aRvH_write]
  exact (updateSlice_congr_at _ _ (by rw [xp_xp]) (off2_xp c).symm _ _ i (Rect.mem_set_unit.mp hi)).trans
    (aRvV_own m (xp c) fd i (by rw [hs]; exact hi)).symm

/-- The y-relay: the half device `c` received lands in its y-peer's other half. -/
theorem land_ay (c : Dev nD) (fd : Buf (Elt F) ((aRvH c).view.loc (yp c : Thread nD τ))) :
    ((aRvH c).view.loc (yp c : Thread nD τ) ↦[(aRvH c).view.set]{fullShare}
        ((aRvH c).view.write (Elt F) fd ((aRvH c).view.read (Elt F) (aRvV m c)) Finset.univ) : sProp 𝕄)
      = ((aRvH (yp (yp c))).view.loc (yp c : Thread nD τ) ↦[(aRvH (yp (yp c))).view.set]{fullShare} aRvV m (yp c)) := by
  have hs : (rH (yp (yp c))).set = (rH c).set := by rw [yp_yp]
  rw [set_aRvH, set_aRvH, hs]
  show (pointsTo ((yp c : Thread nD τ).loc cc0_scratch2) _ _ _ : sProp 𝕄) = pointsTo ((yp c : Thread nD τ).loc cc0_scratch2) _ _ _
  refine pointsTo_congr fun i hi => ?_
  rw [View.write_read_eq_piecewise, Finset.piecewise_eq_of_mem _ _ _ (by rw [View.setOn_univ, set_aRvH]; exact hi)]
  refine (aRvV_own m c fd i hi).trans ?_
  refine Eq.trans ?_ (aRvV_other m (yp c) fd i (by rw [hs]; exact hi)).symm
  exact updateSlice_congr_at _ _ (by rw [yp_yp]) (by rw [yp_yp]) _ _ i (Rect.mem_set_unit.mp hi)

/-- A B chunk lands in the same chunk of the x-peer's receive buffer. -/
theorem land_b0 (c : Dev nD) (fd : Buf (Elt F) ((bRv0 : Memref sig .tc .vmem S384x256 .bf16).view.loc (xp c : Thread nD τ))) :
    ((bRv0 : Memref sig .tc .vmem S384x256 .bf16).view.loc (xp c : Thread nD τ) ↦[(bRv0 : Memref sig .tc .vmem S384x256 .bf16).view.set]{fullShare}
        ((bRv0 : Memref sig .tc .vmem S384x256 .bf16).view.write (Elt F) fd ((bSt0 : Memref sig .tc .vmem S384x256 .bf16).view.read (Elt F) (bStV m c)) Finset.univ) : sProp 𝕄)
      = ((bRv0 : Memref sig .tc .vmem S384x256 .bf16).view.loc (xp c : Thread nD τ) ↦[(bRv0 : Memref sig .tc .vmem S384x256 .bf16).view.set]{fullShare} bRvV m (xp c)) := by
  refine pointsTo_congr fun i hi => ?_
  obtain ⟨y, rfl⟩ := View.exists_emb_of_mem_set _ hi
  rw [View.write_emb_of_mem _ _ (Finset.mem_univ y)]
  unfold bRvV
  rw [xp_xp]
  rfl
theorem land_b1 (c : Dev nD) (fd : Buf (Elt F) ((bRv1 : Memref sig .tc .vmem S384x256 .bf16).view.loc (xp c : Thread nD τ))) :
    ((bRv1 : Memref sig .tc .vmem S384x256 .bf16).view.loc (xp c : Thread nD τ) ↦[(bRv1 : Memref sig .tc .vmem S384x256 .bf16).view.set]{fullShare}
        ((bRv1 : Memref sig .tc .vmem S384x256 .bf16).view.write (Elt F) fd ((bSt1 : Memref sig .tc .vmem S384x256 .bf16).view.read (Elt F) (bStV m c)) Finset.univ) : sProp 𝕄)
      = ((bRv1 : Memref sig .tc .vmem S384x256 .bf16).view.loc (xp c : Thread nD τ) ↦[(bRv1 : Memref sig .tc .vmem S384x256 .bf16).view.set]{fullShare} bRvV m (xp c)) := by
  refine pointsTo_congr fun i hi => ?_
  obtain ⟨y, rfl⟩ := View.exists_emb_of_mem_set _ hi
  rw [View.write_emb_of_mem _ _ (Finset.mem_univ y)]
  unfold bRvV
  rw [xp_xp]
  rfl
theorem land_b2 (c : Dev nD) (fd : Buf (Elt F) ((bRv2 : Memref sig .tc .vmem S384x256 .bf16).view.loc (xp c : Thread nD τ))) :
    ((bRv2 : Memref sig .tc .vmem S384x256 .bf16).view.loc (xp c : Thread nD τ) ↦[(bRv2 : Memref sig .tc .vmem S384x256 .bf16).view.set]{fullShare}
        ((bRv2 : Memref sig .tc .vmem S384x256 .bf16).view.write (Elt F) fd ((bSt2 : Memref sig .tc .vmem S384x256 .bf16).view.read (Elt F) (bStV m c)) Finset.univ) : sProp 𝕄)
      = ((bRv2 : Memref sig .tc .vmem S384x256 .bf16).view.loc (xp c : Thread nD τ) ↦[(bRv2 : Memref sig .tc .vmem S384x256 .bf16).view.set]{fullShare} bRvV m (xp c)) := by
  refine pointsTo_congr fun i hi => ?_
  obtain ⟨y, rfl⟩ := View.exists_emb_of_mem_set _ hi
  rw [View.write_emb_of_mem _ _ (Finset.mem_univ y)]
  unfold bRvV
  rw [xp_xp]
  rfl

/-! ## A chunk loaded through the whole memref; whole buffers -/

/-- Through a whole buffer, the elements under a set of indices are those indices. -/
theorem setOn_whole (b : Ref sig .tc) (M : Finset b.ty.shape.Idx) : (View.whole b : View sig .tc _ _ _).setOn M = M := by
  unfold View.setOn
  exact Finset.map_refl

theorem setOn_bSt_0 : (bSt : Memref sig .tc .vmem S384x768 .bf16).view.setOn rB0.toLoadRect.set ⊆ (bSt0 : Memref sig .tc .vmem S384x256 .bf16).view.set := by
  have e : (bSt0 : Memref sig .tc .vmem S384x256 .bf16).view.set = rB0.set := View.set_slice_whole cc0_scratch1 _
  rw [e]
  exact (setOn_whole cc0_scratch1 _).subset
theorem setOn_bSt_1 : (bSt : Memref sig .tc .vmem S384x768 .bf16).view.setOn rB1.toLoadRect.set ⊆ (bSt1 : Memref sig .tc .vmem S384x256 .bf16).view.set := by
  have e : (bSt1 : Memref sig .tc .vmem S384x256 .bf16).view.set = rB1.set := View.set_slice_whole cc0_scratch1 _
  rw [e]
  exact (setOn_whole cc0_scratch1 _).subset
theorem setOn_bSt_2 : (bSt : Memref sig .tc .vmem S384x768 .bf16).view.setOn rB2.toLoadRect.set ⊆ (bSt2 : Memref sig .tc .vmem S384x256 .bf16).view.set := by
  have e : (bSt2 : Memref sig .tc .vmem S384x256 .bf16).view.set = rB2.set := View.set_slice_whole cc0_scratch1 _
  rw [e]
  exact (setOn_whole cc0_scratch1 _).subset
theorem setOn_bRv_0 : (bRv : Memref sig .tc .vmem S384x768 .bf16).view.setOn rB0.toLoadRect.set ⊆ (bRv0 : Memref sig .tc .vmem S384x256 .bf16).view.set := by
  have e : (bRv0 : Memref sig .tc .vmem S384x256 .bf16).view.set = rB0.set := View.set_slice_whole cc0_scratch3 _
  rw [e]
  exact (setOn_whole cc0_scratch3 _).subset
theorem setOn_bRv_1 : (bRv : Memref sig .tc .vmem S384x768 .bf16).view.setOn rB1.toLoadRect.set ⊆ (bRv1 : Memref sig .tc .vmem S384x256 .bf16).view.set := by
  have e : (bRv1 : Memref sig .tc .vmem S384x256 .bf16).view.set = rB1.set := View.set_slice_whole cc0_scratch3 _
  rw [e]
  exact (setOn_whole cc0_scratch3 _).subset
theorem setOn_bRv_2 : (bRv : Memref sig .tc .vmem S384x768 .bf16).view.setOn rB2.toLoadRect.set ⊆ (bRv2 : Memref sig .tc .vmem S384x256 .bf16).view.set := by
  have e : (bRv2 : Memref sig .tc .vmem S384x256 .bf16).view.set = rB2.set := View.set_slice_whole cc0_scratch3 _
  rw [e]
  exact (setOn_whole cc0_scratch3 _).subset

theorem bRv_whole_eq (d : Dev nD) (q : PosShare TreeShare) (f : Buf (Elt F) ((d : Thread nD τ).loc cc0_scratch3)) :
    ((bRv : Memref sig .tc .vmem S384x768 .bf16).view.loc (d : Thread nD τ) ↦[(bRv : Memref sig .tc .vmem S384x768 .bf16).view.set]{q} f : sProp 𝕄) = (((d : Thread nD τ).loc cc0_scratch3) ↦{q} f) := by
  have e : (bRv : Memref sig .tc .vmem S384x768 .bf16).view.set = Finset.univ := View.set_whole cc0_scratch3
  rw [e]
theorem aSt_whole_eq (d : Dev nD) (q : PosShare TreeShare) (f : Buf (Elt F) ((d : Thread nD τ).loc cc0_scratch0)) :
    ((aSt : Memref sig .tc .vmem S384x384 .bf16).view.loc (d : Thread nD τ) ↦[(aSt : Memref sig .tc .vmem S384x384 .bf16).view.set]{q} f : sProp 𝕄) = (((d : Thread nD τ).loc cc0_scratch0) ↦{q} f) := by
  have e : (aSt : Memref sig .tc .vmem S384x384 .bf16).view.set = Finset.univ := View.set_whole cc0_scratch0
  rw [e]

/-! ## Whole-buffer loads and stores -/

/-- The zero offsets of a rank-two access, spelt as a literal. -/
theorem zero2 : (![0, 0] : Fin 2 → ℕ) = fun _ => 0 := funext fun a => by fin_cases a <;> rfl

abbrev rAw : Rect S768x384 := Rect.unit (s := S768x384) ![0, 0] S768x384.size inb_S768x384_S768x384_0_0
abbrev rBw : Rect S384x768 := Rect.unit (s := S384x768) ![0, 0] S384x768.size inb_S384x768_S384x768_0_0
abbrev rSw : Rect S384x384 := Rect.unit (s := S384x384) ![0, 0] S384x384.size inb_S384x384_S384x384_0_0

theorem read_aIn (f : (cc0_stg0_0 : Ref sig .tc).ty.Contents (Elt F)) : (aIn : Memref sig .tc .vmem S768x384 .f32).view.readAt (Elt F) rAw.toLoadRect f = f :=
  Memref.readAt_unit_zero (Elt F) cc0_stg0_0 zero2 _ f
theorem read_bIn (f : (cc0_stg1_0 : Ref sig .tc).ty.Contents (Elt F)) : (bIn : Memref sig .tc .vmem S384x768 .f32).view.readAt (Elt F) rBw.toLoadRect f = f :=
  Memref.readAt_unit_zero (Elt F) cc0_stg1_0 zero2 _ f
theorem read_aRv (f : (cc0_scratch2 : Ref sig .tc).ty.Contents (Elt F)) : (aRv : Memref sig .tc .vmem S768x384 .bf16).view.readAt (Elt F) rAw.toLoadRect f = f :=
  Memref.readAt_unit_zero (Elt F) cc0_scratch2 zero2 _ f
theorem write_aSt (f w : (cc0_scratch0 : Ref sig .tc).ty.Contents (Elt F)) :
    ((aSt : Memref sig .tc .vmem S384x384 .bf16).access rSw : View sig .tc _ _ _).write (Elt F) f w Finset.univ = w :=
  Memref.write_access_unit_zero_univ (Elt F) cc0_scratch0 zero2 _ f w
theorem write_bSt (f w : (cc0_scratch1 : Ref sig .tc).ty.Contents (Elt F)) :
    ((bSt : Memref sig .tc .vmem S384x768 .bf16).access rBw : View sig .tc _ _ _).write (Elt F) f w Finset.univ = w :=
  Memref.write_access_unit_zero_univ (Elt F) cc0_scratch1 zero2 _ f w

/-! ## The three column chunks of the [768, 768] result -/

/-- An index lies in the chunk of 256 columns from column `k` exactly when its column does. -/
theorem mem_colO {k : ℕ} (inb : ∀ a, (![0, k] : Fin 2 → ℕ) a + S768x256.size a ≤ S768x768.size a) (i : S768x768.Idx) :
    i ∈ (Rect.unit (s := S768x768) ![0, k] S768x256.size inb).set ↔ k ≤ (i 1 : ℕ) ∧ (i 1 : ℕ) < k + 256 := by
  have h0 : (i 0 : ℕ) < 768 := (i 0).isLt
  rw [Rect.mem_set_unit, Fin.forall_fin_two]
  simp only [Matrix.cons_val_zero, Matrix.cons_val_one, Matrix.head_cons]
  constructor
  · rintro ⟨_, h⟩; exact h
  · intro h; exact ⟨⟨Nat.zero_le _, by omega⟩, h⟩

theorem colO_d01 : Disjoint rO0.set rO1.set := by
  rw [Finset.disjoint_left]; intro i h h'; rw [mem_colO] at h h'; omega
theorem colO_d02 : Disjoint rO0.set rO2.set := by
  rw [Finset.disjoint_left]; intro i h h'; rw [mem_colO] at h h'; omega
theorem colO_d12 : Disjoint rO1.set rO2.set := by
  rw [Finset.disjoint_left]; intro i h h'; rw [mem_colO] at h h'; omega

theorem colO_cover (i : S768x768.Idx) : i ∈ rO0.set ∨ i ∈ rO1.set ∨ i ∈ rO2.set := by
  have h1 : (i 1 : ℕ) < 768 := (i 1).isLt
  rw [mem_colO, mem_colO, mem_colO]
  omega

theorem set_oV (r : Rect S768x768) : ((oM : Memref sig .tc .vmem S768x768 .f32).access r : View sig .tc _ _ _).set = r.set :=
  View.set_slice_whole cc0_stg2_0 r

/-- A write to one rectangle of the result buffer is not seen through a rectangle disjoint from it. -/
theorem read_write_ne {rJ rK : Rect S768x768} (hd : Disjoint rJ.set rK.set) (f : (cc0_stg2_0 : Ref sig .tc).ty.Contents (Elt F))
    (w : rK.shape.Idx → Elt F .f32) :
    (oM : Memref sig .tc .vmem S768x768 .f32).view.readAt (Elt F) rJ.toLoadRect (((oM : Memref sig .tc .vmem S768x768 .f32).access rK : View sig .tc _ _ _).write (Elt F) f w Finset.univ)
      = (oM : Memref sig .tc .vmem S768x768 .f32).view.readAt (Elt F) rJ.toLoadRect f :=
  View.read_slice_write_slice_of_disjoint (v := View.whole cc0_stg2_0) rJ rK f w Finset.univ
    (by rw [View.setOn_univ, View.set_slice_whole, View.set_slice_whole]; exact hd)

/-! ## The result buffer written chunk by chunk, twice -/

/-- Reading a column chunk of the result buffer just written there gives what was written. -/
theorem read_write_o0 (f : (cc0_stg2_0 : Ref sig .tc).ty.Contents (Elt F)) (w : FVec F S768x256 .f32) :
    (oM : Memref sig .tc .vmem S768x768 .f32).view.readAt (Elt F) rO0.toLoadRect
      (((oM : Memref sig .tc .vmem S768x768 .f32).access rO0 : View sig .tc _ _ _).write (Elt F) f w Finset.univ) = w :=
  View.read_write_univ (v := ((oM : Memref sig .tc .vmem S768x768 .f32).access rO0 : View sig .tc _ _ _)) f w

/-- The body's six chunk stores (three products, then each chunk re-read and the second product added), from ANY initial
    contents `d`, leave the result buffer at `outV`. -/
theorem out_final (c : Dev nD) (d : (cc0_stg2_0 : Ref sig .tc).ty.Contents (Elt F)) :
    let o1 := ((oM : Memref sig .tc .vmem S768x768 .f32).access rO0 : View sig .tc _ _ _).write (Elt F) d (k0_pay4 (Ain m c) (chB0 (bStV m c))) Finset.univ
    let o2 := ((oM : Memref sig .tc .vmem S768x768 .f32).access rO1 : View sig .tc _ _ _).write (Elt F) o1 (k0_pay5 (Ain m c) (chB1 (bStV m c))) Finset.univ
    let o3 := ((oM : Memref sig .tc .vmem S768x768 .f32).access rO2 : View sig .tc _ _ _).write (Elt F) o2 (k0_pay6 (k0_pay3 (Ain m c)) (chB2 (bStV m c)) (constant S768x256 .f32 0x00000000#32)) Finset.univ
    let o4 := ((oM : Memref sig .tc .vmem S768x768 .f32).access rO0 : View sig .tc _ _ _).write (Elt F) o3
      (k0_pay7 (aRvV m c) ((oM : Memref sig .tc .vmem S768x768 .f32).view.readAt (Elt F) rO0.toLoadRect o3) (chR0 (bRvV m c))) Finset.univ
    let o5 := ((oM : Memref sig .tc .vmem S768x768 .f32).access rO1 : View sig .tc _ _ _).write (Elt F) o4
      (k0_pay8 (aRvV m c) ((oM : Memref sig .tc .vmem S768x768 .f32).view.readAt (Elt F) rO1.toLoadRect o4) (chR1 (bRvV m c))) Finset.univ
    let o6 := ((oM : Memref sig .tc .vmem S768x768 .f32).access rO2 : View sig .tc _ _ _).write (Elt F) o5
      (k0_pay9 (aRvV m c) ((oM : Memref sig .tc .vmem S768x768 .f32).view.readAt (Elt F) rO2.toLoadRect o5) (chR2 (bRvV m c))) Finset.univ
    o6 = outV m c := by
  intro o1 o2 o3 o4 o5 o6
  -- each chunk, re-read after the three first stores, is the product stored there
  have e4 : (oM : Memref sig .tc .vmem S768x768 .f32).view.readAt (Elt F) rO0.toLoadRect o3 = k0_pay4 (Ain m c) (chB0 (bStV m c)) :=
    (read_write_ne colO_d02 o2 _).trans ((read_write_ne colO_d01 o1 _).trans (View.read_write_univ (v := ((oM : Memref sig .tc .vmem S768x768 .f32).access rO0 : View sig .tc _ _ _)) d _))
  have w4 : k0_pay7 (aRvV m c) ((oM : Memref sig .tc .vmem S768x768 .f32).view.readAt (Elt F) rO0.toLoadRect o3) (chR0 (bRvV m c)) = outCh0 m c := by rw [e4]; rfl
  have e5 : (oM : Memref sig .tc .vmem S768x768 .f32).view.readAt (Elt F) rO1.toLoadRect o4 = k0_pay5 (Ain m c) (chB1 (bStV m c)) :=
    (read_write_ne colO_d01.symm o3 _).trans ((read_write_ne colO_d12 o2 _).trans (View.read_write_univ (v := ((oM : Memref sig .tc .vmem S768x768 .f32).access rO1 : View sig .tc _ _ _)) o1 _))
  have w5 : k0_pay8 (aRvV m c) ((oM : Memref sig .tc .vmem S768x768 .f32).view.readAt (Elt F) rO1.toLoadRect o4) (chR1 (bRvV m c)) = outCh1 m c := by rw [e5]; rfl
  have e6 : (oM : Memref sig .tc .vmem S768x768 .f32).view.readAt (Elt F) rO2.toLoadRect o5 = k0_pay6 (k0_pay3 (Ain m c)) (chB2 (bStV m c)) (constant S768x256 .f32 0x00000000#32) :=
    (read_write_ne colO_d12.symm o4 _).trans ((read_write_ne colO_d02.symm o3 _).trans (View.read_write_univ (v := ((oM : Memref sig .tc .vmem S768x768 .f32).access rO2 : View sig .tc _ _ _)) o2 _))
  have w6 : k0_pay9 (aRvV m c) ((oM : Memref sig .tc .vmem S768x768 .f32).view.readAt (Elt F) rO2.toLoadRect o5) (chR2 (bRvV m c)) = outCh2 m c := by rw [e6]; rfl
  -- the second stores write the three final chunks, and the chunks cover the buffer
  funext i
  unfold outV
  refine View.write_congr (v := ((oM : Memref sig .tc .vmem S768x768 .f32).access rO2 : View sig .tc _ _ _)) (fun x _ _ => congrFun w6 x) fun h2 => ?_
  refine View.write_congr (v := ((oM : Memref sig .tc .vmem S768x768 .f32).access rO1 : View sig .tc _ _ _)) (fun x _ _ => congrFun w5 x) fun h1 => ?_
  refine View.write_congr (v := ((oM : Memref sig .tc .vmem S768x768 .f32).access rO0 : View sig .tc _ _ _)) (fun x _ _ => congrFun w4 x) fun h0 => ?_
  exfalso
  rw [View.setOn_univ, set_oV] at h0 h1 h2
  rcases colO_cover i with h | h | h
  · exact h0 h
  · exact h1 h
  · exact h2 h

end Cert.Kernel.Mm

end
-- ==== Proof.BitsLevels.lean ====
/-
  The deadlock argument's levels: a device waits on its barrier cell (level 1) while it owes only receive credit (levels
  2 and 3), on its x-copy's receive cell (level 2) while it owes only the y-relay's receive credit (level 3), and on
  everything else owing nothing; the pipeline's staging waits are at level 0, below all a device ever owes.
-/
import proofs.«900556_g7700000000000557_dist_matmul_kn_xy_m768_n768_k384_v7x_xy2x2_f32_1_alg».proof.Proof.BitsSched

noncomputable section

namespace Cert.Kernel.Mm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Two cells are equal exactly when their devices and their semaphore indices are. -/
theorem cell_eq_iff {a b : Dev nD} {j k : Fin 11} : cell a j = cell b k ↔ a = b ∧ j = k :=
  ⟨fun h => ⟨congrArg (fun g : GSem nD τ sig => g.1.1) h, csem_injective (congrArg Prod.snd h)⟩, fun h => by rw [h.1, h.2]⟩

/-- The y-relay's landing is the only thing owed last. -/
theorem O6_pos {c : Dev nD} {g : GSem nD τ sig} {u : Unit} (h : 0 < O6 c g u) : g = cell (yp c) 4 :=
  (Pipeline.tallyAt_pos h).1

/-- After both signals a device owes the five landings only. -/
theorem O2_pos {c : Dev nD} {g : GSem nD τ sig} {u : Unit} (h : 0 < O2 c g u) :
    g = cell (xp c) 2 ∨ g = cell (xp c) 8 ∨ g = cell (xp c) 9 ∨ g = cell (xp c) 10 ∨ g = cell (yp c) 4 := by
  unfold O2 O3 O4 O5 at h
  rcases Pipeline.add_pos_cases h with h | h
  · rcases Pipeline.add_pos_cases h with h | h
    · rcases Pipeline.add_pos_cases h with h | h
      · rcases Pipeline.add_pos_cases h with h | h
        · exact .inr (.inr (.inr (.inr (O6_pos h))))
        · exact .inr (.inr (.inr (.inl (Pipeline.tallyAt_pos h).1)))
      · exact .inr (.inr (.inl (Pipeline.tallyAt_pos h).1))
    · exact .inr (.inl (Pipeline.tallyAt_pos h).1)
  · exact .inl (Pipeline.tallyAt_pos h).1

/-- A device owes only its peers' barrier and receive cells. -/
theorem O₀_pos {c : Dev nD} {g : GSem nD τ sig} {u : Unit} (h : 0 < O₀ c g u) :
    g = cell (xp c) 0 ∨ g = cell (yp c) 0 ∨ g = cell (xp c) 2 ∨ g = cell (xp c) 8 ∨ g = cell (xp c) 9 ∨ g = cell (xp c) 10 ∨ g = cell (yp c) 4 := by
  unfold O₀ O1 at h
  rcases Pipeline.add_pos_cases h with h | h
  · rcases Pipeline.add_pos_cases h with h | h
    · exact .inr (.inr (O2_pos h))
    · exact .inr (.inl (Pipeline.tallyAt_pos h).1)
  · exact .inl (Pipeline.tallyAt_pos h).1

/-- Every cell of a device carries the one index. -/
theorem mem_L_cell (c : Dev nD) (k : Fin 11) (u : Unit) : u ∈ L (cell c k) := by
  rw [L_tc]; exact Finset.mem_singleton_self _

/-- A wait on a DMA cell of level 0 (a staging cell, a send cell), owing everything or nothing. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl | rfl <;> exact mem_L_cell _ _ _)
      (fun p hp => by rw [Finset.mem_singleton.mp hp]; exact le_of_eq hq)
      (fun g u hg => by
        rcases O₀_pos hg with rfl | rfl | rfl | rfl | rfl | rfl | rfl <;> (show 0 < lv (cell _ _) (); rw [lv_cell]; decide))
  · rw [MayWait_zero]; iintro -; iempintro

/-- The barrier wait, owing the five landings. -/
theorem mayWait_bar (c : Dev nD) : (levAts L lv : sProp 𝕄) ⊢ MayWait (c : Thread nD τ) (.reg barS) () (O2 c) :=
  MayOwe.of_cut (L := L) (lev := lv) 1 (fun p hp => by rw [Finset.mem_singleton.mp hp, L_tc]; exact Finset.mem_singleton_self _)
    (fun g u hg => by rcases O2_pos hg with rfl | rfl | rfl | rfl | rfl <;> exact mem_L_cell _ _ _)
    (fun p hp => by rw [Finset.mem_singleton.mp hp]; show lv (cell c 0) () ≤ 1; rw [lv_cell]; decide)
    (fun g u hg => by
      rcases O2_pos hg with rfl | rfl | rfl | rfl | rfl <;> (show 1 < lv (cell _ _) (); rw [lv_cell]; decide))

/-- The wait for the x-copy's landing, owing the y-relay's landing only. -/
theorem mayWait_axR (c : Dev nD) : (levAts L lv : sProp 𝕄) ⊢ MayWait (c : Thread nD τ) (.dma axR) () (O6 c) :=
  MayOwe.of_cut (L := L) (lev := lv) 2 (fun p hp => by rw [Finset.mem_singleton.mp hp, L_tc]; exact Finset.mem_singleton_self _)
    (fun g u hg => by rw [O6_pos hg]; exact mem_L_cell _ _ _)
    (fun p hp => by rw [Finset.mem_singleton.mp hp]; show lv (cell c 2) () ≤ 2; rw [lv_cell]; decide)
    (fun g u hg => by rw [O6_pos hg]; show 2 < lv (cell _ _) (); rw [lv_cell]; decide)

end Cert.Kernel.Mm

end
-- ==== Proof.BitsBody.lean ====
/-
  One device's body, stepped in program order: the two barrier signals hand each peer the part of this device's receive
  buffers that peer will write; the barrier wait brings the peers' parts; each transfer pays its landing's duty with the
  destination rewritten; the local products are stored; the receive waits bring the landed rows and columns; the second
  products are added; the send waits bring the sources' shares back; the ten own cells close.
-/
import proofs.«900556_g7700000000000557_dist_matmul_kn_xy_m768_n768_k384_v7x_xy2x2_f32_1_alg».proof.Proof.BitsData
import proofs.«900556_g7700000000000557_dist_matmul_kn_xy_m768_n768_k384_v7x_xy2x2_f32_1_alg».proof.Proof.BitsViews
import proofs.«900556_g7700000000000557_dist_matmul_kn_xy_m768_n768_k384_v7x_xy2x2_f32_1_alg».proof.Proof.BitsLevels

noncomputable section

namespace Cert.Kernel.Mm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the first signal hands the x-peer: this device's own-offset half of its A receive buffer and its B receive buffer. -/
theorem pay_bar_x (c : Dev nD) (f1 : Buf (Elt F) ((c : Thread nD τ).loc cc0_scratch2)) (f2 : Buf (Elt F) ((c : Thread nD τ).loc cc0_scratch3)) :
    iprop(((aRvH c).view.loc (c : Thread nD τ) ↦[(aRvH c).view.set]{fullShare} f1) ∗ (((c : Thread nD τ).loc cc0_scratch3) ↦{fullShare} f2))
      ⊢ (Rd m).payload (cell (xp c) 0) 0 false := by
  rw [payload_cell]
  show _ ⊢ iprop((∃ f, (aRvH (xp c)).view.loc (xp (xp c) : Thread nD τ) ↦[(aRvH (xp c)).view.set]{fullShare} f)
        ∗ (∃ f, (bRv : Memref sig .tc .vmem S384x768 .bf16).view.loc (xp (xp c) : Thread nD τ) ↦[(bRv : Memref sig .tc .vmem S384x768 .bf16).view.set]{fullShare} f))
  rw [xp_xp, aRvH_xp]
  iintro ⟨H1, H2⟩
  isplitl [H1]
  · iexists f1; iexact H1
  · iexists f2; rw [View.set_whole]; iexact H2

/-- What the second signal hands the y-peer: the other half of this device's A receive buffer. -/
theorem pay_bar_y (c : Dev nD) (f1 : Buf (Elt F) ((c : Thread nD τ).loc cc0_scratch2)) :
    ((aRvH (yp c)).view.loc (c : Thread nD τ) ↦[(aRvH (yp c)).view.set]{fullShare} f1 : sProp 𝕄)
      ⊢ (Rd m).payload (cell (yp c) 0) 0 true := by
  rw [payload_cell]
  show _ ⊢ iprop(∃ f, (aRvH (yp c)).view.loc (yp (yp c) : Thread nD τ) ↦[(aRvH (yp c)).view.set]{fullShare} f)
  rw [yp_yp]
  iintro H1
  iexists f1; iexact H1

theorem pay0f (c : Dev nD) : pay m 0 c false = iprop((∃ f, (aRvH c).view.loc (xp c : Thread nD τ) ↦[(aRvH c).view.set]{fullShare} f)
        ∗ (∃ f, (bRv : Memref sig .tc .vmem S384x768 .bf16).view.loc (xp c : Thread nD τ) ↦[(bRv : Memref sig .tc .vmem S384x768 .bf16).view.set]{fullShare} f)) := rfl
theorem pay0t (c : Dev nD) : pay m 0 c true = iprop(∃ f, (aRvH c).view.loc (yp c : Thread nD τ) ↦[(aRvH c).view.set]{fullShare} f) := rfl
theorem amt_0 : amt 0 = 1 := rfl
theorem amt_A (k : Fin 11) (h0 : k ≠ 0) (h4 : k.val ≤ 4) : amt k = NA := by unfold amt; rw [if_neg h0, if_pos h4]
theorem amt_B (k : Fin 11) (h4 : ¬ k.val ≤ 4) : amt k = NB := by
  unfold amt; rw [if_neg (fun h => h4 (by rw [h]; decide)), if_neg h4]

theorem pay2 (c : Dev nD) : pay m 2 c false = ((aRvH c).view.loc (c : Thread nD τ) ↦[(aRvH c).view.set]{fullShare} aRvV m c) := rfl
theorem pay4 (c : Dev nD) : pay m 4 c false = ((aRvH (yp c)).view.loc (c : Thread nD τ) ↦[(aRvH (yp c)).view.set]{fullShare} aRvV m c) := rfl
theorem pay1 (c : Dev nD) : pay m 1 c false = ((aSt : Memref sig .tc .vmem S384x384 .bf16).view.loc (c : Thread nD τ) ↦[(aSt : Memref sig .tc .vmem S384x384 .bf16).view.set]{fullShare} aStV m c) := rfl
theorem pay3 (c : Dev nD) : pay m 3 c false = ((aRvH c).view.loc (c : Thread nD τ) ↦[(aRvH c).view.set]{qs} aRvV m c) := rfl
theorem pay5 (c : Dev nD) : pay m 5 c false = ((bSt0 : Memref sig .tc .vmem S384x256 .bf16).view.loc (c : Thread nD τ) ↦[(bSt0 : Memref sig .tc .vmem S384x256 .bf16).view.set]{qs} k0_pay2 (Bin m c)) := rfl
theorem pay6 (c : Dev nD) : pay m 6 c false = ((bSt1 : Memref sig .tc .vmem S384x256 .bf16).view.loc (c : Thread nD τ) ↦[(bSt1 : Memref sig .tc .vmem S384x256 .bf16).view.set]{qs} k0_pay2 (Bin m c)) := rfl
theorem pay7 (c : Dev nD) : pay m 7 c false = ((bSt2 : Memref sig .tc .vmem S384x256 .bf16).view.loc (c : Thread nD τ) ↦[(bSt2 : Memref sig .tc .vmem S384x256 .bf16).view.set]{qs} k0_pay2 (Bin m c)) := rfl
theorem pay8 (c : Dev nD) : pay m 8 c false = ((bRv0 : Memref sig .tc .vmem S384x256 .bf16).view.loc (c : Thread nD τ) ↦[(bRv0 : Memref sig .tc .vmem S384x256 .bf16).view.set]{fullShare} bRvV m c) := rfl
theorem pay9 (c : Dev nD) : pay m 9 c false = ((bRv1 : Memref sig .tc .vmem S384x256 .bf16).view.loc (c : Thread nD τ) ↦[(bRv1 : Memref sig .tc .vmem S384x256 .bf16).view.set]{fullShare} bRvV m c) := rfl
theorem pay10 (c : Dev nD) : pay m 10 c false = ((bRv2 : Memref sig .tc .vmem S384x256 .bf16).view.loc (c : Thread nD τ) ↦[(bRv2 : Memref sig .tc .vmem S384x256 .bf16).view.set]{fullShare} bRvV m c) := rfl

theorem aStW_eq (d : Dev nD) (q : PosShare TreeShare) (f : Buf (Elt F) ((d : Thread nD τ).loc cc0_scratch0)) :
    ((aSt : Memref sig .tc .vmem S384x384 .bf16).view.loc (d : Thread nD τ) ↦[(aSt : Memref sig .tc .vmem S384x384 .bf16).view.set]{q} f : sProp 𝕄)
      = (((d : Thread nD τ).loc cc0_scratch0) ↦{q} f) := by rw [View.set_whole]
theorem bRvW_eq (d : Dev nD) (q : PosShare TreeShare) (f : Buf (Elt F) ((d : Thread nD τ).loc cc0_scratch3)) :
    ((bRv : Memref sig .tc .vmem S384x768 .bf16).view.loc (d : Thread nD τ) ↦[(bRv : Memref sig .tc .vmem S384x768 .bf16).view.set]{q} f : sProp 𝕄)
      = (((d : Thread nD τ).loc cc0_scratch3) ↦{q} f) := by rw [View.set_whole]

theorem closed_eq (c : Dev nD) : closed (F := F) c = iprop(semVal (cell c 1) 0 ∗ semVal (cell c 2) 0 ∗ semVal (cell c 3) 0 ∗ semVal (cell c 4) 0 ∗ semVal (cell c 5) 0
    ∗ semVal (cell c 6) 0 ∗ semVal (cell c 7) 0 ∗ semVal (cell c 8) 0 ∗ semVal (cell c 9) 0 ∗ semVal (cell c 10) 0) := by
  unfold closed
  exact bigSep_univ_eq_bigSepL [(0 : Fin 10), 1, 2, 3, 4, 5, 6, 7, 8, 9] (by decide) (by decide) _

theorem wp_send_ax (K : Dev nD × Fin 11 → ℕ) (c n : Dev nD) (hn : n = xp c)
    {hsc : (aRvH c : Memref sig (Dev.tc n : Thread nD τ).2.kind .vmem S384x384 .bf16).view.ref.isScScratch = false}
    {hsrc : (aSt : Memref sig .tc .vmem S384x384 .bf16).view.WordExact} {hdst : (aRvH c : Memref sig .tc .vmem S384x384 .bf16).view.WordExact}
    {hsem : DmaTarget.Typed .vmem (.dma axR) (.remote (Dev.tc n : Thread nD τ) (aRvH c : Memref sig .tc .vmem S384x384 .bf16) (.dma axS) hsc)}
    {α : Type} {Q : α → sProp 𝕄} {k : PUnit → Prog (TpuEff nD τ sig (Elt F) Λ₀ .tc) α}
    (fd : Buf (Elt F) ((aRvH c : Memref sig .tc .vmem S384x384 .bf16).view.loc (xp c : Thread nD τ))) (O : CellTallies nD τ sig Unit) (W : Waits sig Unit) :
    iprop(records m K
        ∗ ((aSt : Memref sig .tc .vmem S384x384 .bf16).view.loc (c : Thread nD τ) ↦[(aSt : Memref sig .tc .vmem S384x384 .bf16).view.set]{fullShare} aStV m c)
        ∗ ((aRvH c : Memref sig .tc .vmem S384x384 .bf16).view.loc (xp c : Thread nD τ) ↦[(aRvH c : Memref sig .tc .vmem S384x384 .bf16).view.set]{fullShare} fd)
        ∗ owes (c : Thread nD τ) (O + tallyAt (cell (xp c) 2) () NA) W
        ∗ dutyTok ER (cell c 1) 0 false ∗ dutyTok ER (cell (xp c) 2) 0 false)
      ⊢ iprop(((cred (tallyAt (cell c 1) () NA) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aSt : Memref sig .tc .vmem S384x384 .bf16) (.remote (Dev.tc n : Thread nD τ) (aRvH c : Memref sig .tc .vmem S384x384 .bf16) (.dma axS) hsc) (.dma axR) hsrc hdst hsem) k) Q) := by
  subst hn
  iintro ⟨#Hrec, Hs, Hd, HO, Ht1, Ht2⟩
  iapply (Rounds.wp_send_pointsTo 𝒱₀ ER (Rd m) (c : Thread nD τ) none (κ₁ := K (c, 1)) (κ₂ := K (xp c, 2))
    (r₁ := 0) (r₂ := 0) (d₁ := false) (d₂ := false) (fd := fd) (q := fullShare) (fs := aStV m c)
    (by rw [duties_dma m c 1 (by decide)]; exact Finset.mem_singleton_self _)
    (by rw [duties_dma m (xp c) 2 (by decide)]; exact Finset.mem_singleton_self _)
    () () NA rfl ((amount_cell m c 1 false).trans (amt_A 1 (by decide) (by decide))) ((amount_cell m (xp c) 2 false).trans (amt_A 2 (by decide) (by decide))) O rfl (W := W)
    (by rw [payload_cell]; exact BI.Entails.refl _)
    (by rw [payload_cell]; exact Entails.of_eq (land_ax m c fd))) $$ [Hs Hd HO Ht1 Ht2]
  isplitr; · iapply (inv_at m K (c, 1)); iexact Hrec
  isplitr; · iapply (inv_at m K (xp c, 2)); iexact Hrec
  isplitl [Hs]; · iexact Hs
  isplitl [Hd]; · iexact Hd
  isplitl [HO]; · iexact HO
  isplitl [Ht1]; · iexact Ht1
  isplitr; · iapply (reached_at m K (c, 1)); iexact Hrec
  isplitl [Ht2]; · iexact Ht2
  iapply (reached_at m K (xp c, 2)); iexact Hrec

theorem wp_send_ay (K : Dev nD × Fin 11 → ℕ) (c n : Dev nD) (hn : n = yp c)
    {hsc : (aRvH c : Memref sig (Dev.tc n : Thread nD τ).2.kind .vmem S384x384 .bf16).view.ref.isScScratch = false}
    {hsrc : (aRvH c : Memref sig .tc .vmem S384x384 .bf16).view.WordExact} {hdst : (aRvH c : Memref sig .tc .vmem S384x384 .bf16).view.WordExact}
    {hsem : DmaTarget.Typed .vmem (.dma ayR) (.remote (Dev.tc n : Thread nD τ) (aRvH c : Memref sig .tc .vmem S384x384 .bf16) (.dma ayS) hsc)}
    {α : Type} {Q : α → sProp 𝕄} {k : PUnit → Prog (TpuEff nD τ sig (Elt F) Λ₀ .tc) α}
    (fd : Buf (Elt F) ((aRvH c : Memref sig .tc .vmem S384x384 .bf16).view.loc (yp c : Thread nD τ))) (O : CellTallies nD τ sig Unit) (W : Waits sig Unit) :
    iprop(records m K
        ∗ ((aRvH c : Memref sig .tc .vmem S384x384 .bf16).view.loc (c : Thread nD τ) ↦[(aRvH c : Memref sig .tc .vmem S384x384 .bf16).view.set]{qs} aRvV m c)
        ∗ ((aRvH c : Memref sig .tc .vmem S384x384 .bf16).view.loc (yp c : Thread nD τ) ↦[(aRvH c : Memref sig .tc .vmem S384x384 .bf16).view.set]{fullShare} fd)
        ∗ owes (c : Thread nD τ) (O + tallyAt (cell (yp c) 4) () NA) W
        ∗ dutyTok ER (cell c 3) 0 false ∗ dutyTok ER (cell (yp c) 4) 0 false)
      ⊢ iprop(((cred (tallyAt (cell c 3) () NA) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aRvH c : Memref sig .tc .vmem S384x384 .bf16) (.remote (Dev.tc n : Thread nD τ) (aRvH c : Memref sig .tc .vmem S384x384 .bf16) (.dma ayS) hsc) (.dma ayR) hsrc hdst hsem) k) Q) := by
  subst hn
  iintro ⟨#Hrec, Hs, Hd, HO, Ht1, Ht2⟩
  iapply (Rounds.wp_send_pointsTo 𝒱₀ ER (Rd m) (c : Thread nD τ) none (κ₁ := K (c, 3)) (κ₂ := K (yp c, 4))
    (r₁ := 0) (r₂ := 0) (d₁ := false) (d₂ := false) (fd := fd) (q := qs) (fs := aRvV m c)
    (by rw [duties_dma m c 3 (by decide)]; exact Finset.mem_singleton_self _)
    (by rw [duties_dma m (yp c) 4 (by decide)]; exact Finset.mem_singleton_self _)
    () () NA rfl ((amount_cell m c 3 false).trans (amt_A 3 (by decide) (by decide))) ((amount_cell m (yp c) 4 false).trans (amt_A 4 (by decide) (by decide))) O rfl (W := W)
    (by rw [payload_cell]; exact BI.Entails.refl _)
    (by rw [payload_cell]; exact Entails.of_eq (land_ay m c fd))) $$ [Hs Hd HO Ht1 Ht2]
  isplitr; · iapply (inv_at m K (c, 3)); iexact Hrec
  isplitr; · iapply (inv_at m K (yp c, 4)); iexact Hrec
  isplitl [Hs]; · iexact Hs
  isplitl [Hd]; · iexact Hd
  isplitl [HO]; · iexact HO
  isplitl [Ht1]; · iexact Ht1
  isplitr; · iapply (reached_at m K (c, 3)); iexact Hrec
  isplitl [Ht2]; · iexact Ht2
  iapply (reached_at m K (yp c, 4)); iexact Hrec

theorem wp_send_b0 (K : Dev nD × Fin 11 → ℕ) (c n : Dev nD) (hn : n = xp c)
    {hsc : (bRv0 : Memref sig (Dev.tc n : Thread nD τ).2.kind .vmem S384x256 .bf16).view.ref.isScScratch = false}
    {hsrc : (bSt0 : Memref sig .tc .vmem S384x256 .bf16).view.WordExact} {hdst : (bRv0 : Memref sig .tc .vmem S384x256 .bf16).view.WordExact}
    {hsem : DmaTarget.Typed .vmem (.dma bR0) (.remote (Dev.tc n : Thread nD τ) (bRv0 : Memref sig .tc .vmem S384x256 .bf16) (.dma bS0) hsc)}
    {α : Type} {Q : α → sProp 𝕄} {k : PUnit → Prog (TpuEff nD τ sig (Elt F) Λ₀ .tc) α}
    (fd : Buf (Elt F) ((bRv0 : Memref sig .tc .vmem S384x256 .bf16).view.loc (xp c : Thread nD τ))) (O : CellTallies nD τ sig Unit) (W : Waits sig Unit) :
    iprop(records m K
        ∗ ((bSt0 : Memref sig .tc .vmem S384x256 .bf16).view.loc (c : Thread nD τ) ↦[(bSt0 : Memref sig .tc .vmem S384x256 .bf16).view.set]{qs} bStV m c)
        ∗ ((bRv0 : Memref sig .tc .vmem S384x256 .bf16).view.loc (xp c : Thread nD τ) ↦[(bRv0 : Memref sig .tc .vmem S384x256 .bf16).view.set]{fullShare} fd)
        ∗ owes (c : Thread nD τ) (O + tallyAt (cell (xp c) 8) () NB) W
        ∗ dutyTok ER (cell c 5) 0 false ∗ dutyTok ER (cell (xp c) 8) 0 false)
      ⊢ iprop(((cred (tallyAt (cell c 5) () NB) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bSt0 : Memref sig .tc .vmem S384x256 .bf16) (.remote (Dev.tc n : Thread nD τ) (bRv0 : Memref sig .tc .vmem S384x256 .bf16) (.dma bS0) hsc) (.dma bR0) hsrc hdst hsem) k) Q) := by
  subst hn
  iintro ⟨#Hrec, Hs, Hd, HO, Ht1, Ht2⟩
  iapply (Rounds.wp_send_pointsTo 𝒱₀ ER (Rd m) (c : Thread nD τ) none (κ₁ := K (c, 5)) (κ₂ := K (xp c, 8))
    (r₁ := 0) (r₂ := 0) (d₁ := false) (d₂ := false) (fd := fd) (q := qs) (fs := bStV m c)
    (by rw [duties_dma m c 5 (by decide)]; exact Finset.mem_singleton_self _)
    (by rw [duties_dma m (xp c) 8 (by decide)]; exact Finset.mem_singleton_self _)
    () () NB rfl ((amount_cell m c 5 false).trans (amt_B 5 (by decide))) ((amount_cell m (xp c) 8 false).trans (amt_B 8 (by decide))) O rfl (W := W)
    (by rw [payload_cell]; exact BI.Entails.refl _)
    (by rw [payload_cell]; exact Entails.of_eq (land_b0 m c fd))) $$ [Hs Hd HO Ht1 Ht2]
  isplitr; · iapply (inv_at m K (c, 5)); iexact Hrec
  isplitr; · iapply (inv_at m K (xp c, 8)); iexact Hrec
  isplitl [Hs]; · iexact Hs
  isplitl [Hd]; · iexact Hd
  isplitl [HO]; · iexact HO
  isplitl [Ht1]; · iexact Ht1
  isplitr; · iapply (reached_at m K (c, 5)); iexact Hrec
  isplitl [Ht2]; · iexact Ht2
  iapply (reached_at m K (xp c, 8)); iexact Hrec

theorem wp_send_b1 (K : Dev nD × Fin 11 → ℕ) (c n : Dev nD) (hn : n = xp c)
    {hsc : (bRv1 : Memref sig (Dev.tc n : Thread nD τ).2.kind .vmem S384x256 .bf16).view.ref.isScScratch = false}
    {hsrc : (bSt1 : Memref sig .tc .vmem S384x256 .bf16).view.WordExact} {hdst : (bRv1 : Memref sig .tc .vmem S384x256 .bf16).view.WordExact}
    {hsem : DmaTarget.Typed .vmem (.dma bR1) (.remote (Dev.tc n : Thread nD τ) (bRv1 : Memref sig .tc .vmem S384x256 .bf16) (.dma bS1) hsc)}
    {α : Type} {Q : α → sProp 𝕄} {k : PUnit → Prog (TpuEff nD τ sig (Elt F) Λ₀ .tc) α}
    (fd : Buf (Elt F) ((bRv1 : Memref sig .tc .vmem S384x256 .bf16).view.loc (xp c : Thread nD τ))) (O : CellTallies nD τ sig Unit) (W : Waits sig Unit) :
    iprop(records m K
        ∗ ((bSt1 : Memref sig .tc .vmem S384x256 .bf16).view.loc (c : Thread nD τ) ↦[(bSt1 : Memref sig .tc .vmem S384x256 .bf16).view.set]{qs} bStV m c)
        ∗ ((bRv1 : Memref sig .tc .vmem S384x256 .bf16).view.loc (xp c : Thread nD τ) ↦[(bRv1 : Memref sig .tc .vmem S384x256 .bf16).view.set]{fullShare} fd)
        ∗ owes (c : Thread nD τ) (O + tallyAt (cell (xp c) 9) () NB) W
        ∗ dutyTok ER (cell c 6) 0 false ∗ dutyTok ER (cell (xp c) 9) 0 false)
      ⊢ iprop(((cred (tallyAt (cell c 6) () NB) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bSt1 : Memref sig .tc .vmem S384x256 .bf16) (.remote (Dev.tc n : Thread nD τ) (bRv1 : Memref sig .tc .vmem S384x256 .bf16) (.dma bS1) hsc) (.dma bR1) hsrc hdst hsem) k) Q) := by
  subst hn
  iintro ⟨#Hrec, Hs, Hd, HO, Ht1, Ht2⟩
  iapply (Rounds.wp_send_pointsTo 𝒱₀ ER (Rd m) (c : Thread nD τ) none (κ₁ := K (c, 6)) (κ₂ := K (xp c, 9))
    (r₁ := 0) (r₂ := 0) (d₁ := false) (d₂ := false) (fd := fd) (q := qs) (fs := bStV m c)
    (by rw [duties_dma m c 6 (by decide)]; exact Finset.mem_singleton_self _)
    (by rw [duties_dma m (xp c) 9 (by decide)]; exact Finset.mem_singleton_self _)
    () () NB rfl ((amount_cell m c 6 false).trans (amt_B 6 (by decide))) ((amount_cell m (xp c) 9 false).trans (amt_B 9 (by decide))) O rfl (W := W)
    (by rw [payload_cell]; exact BI.Entails.refl _)
    (by rw [payload_cell]; exact Entails.of_eq (land_b1 m c fd))) $$ [Hs Hd HO Ht1 Ht2]
  isplitr; · iapply (inv_at m K (c, 6)); iexact Hrec
  isplitr; · iapply (inv_at m K (xp c, 9)); iexact Hrec
  isplitl [Hs]; · iexact Hs
  isplitl [Hd]; · iexact Hd
  isplitl [HO]; · iexact HO
  isplitl [Ht1]; · iexact Ht1
  isplitr; · iapply (reached_at m K (c, 6)); iexact Hrec
  isplitl [Ht2]; · iexact Ht2
  iapply (reached_at m K (xp c, 9)); iexact Hrec

theorem wp_send_b2 (K : Dev nD × Fin 11 → ℕ) (c n : Dev nD) (hn : n = xp c)
    {hsc : (bRv2 : Memref sig (Dev.tc n : Thread nD τ).2.kind .vmem S384x256 .bf16).view.ref.isScScratch = false}
    {hsrc : (bSt2 : Memref sig .tc .vmem S384x256 .bf16).view.WordExact} {hdst : (bRv2 : Memref sig .tc .vmem S384x256 .bf16).view.WordExact}
    {hsem : DmaTarget.Typed .vmem (.dma bR2) (.remote (Dev.tc n : Thread nD τ) (bRv2 : Memref sig .tc .vmem S384x256 .bf16) (.dma bS2) hsc)}
    {α : Type} {Q : α → sProp 𝕄} {k : PUnit → Prog (TpuEff nD τ sig (Elt F) Λ₀ .tc) α}
    (fd : Buf (Elt F) ((bRv2 : Memref sig .tc .vmem S384x256 .bf16).view.loc (xp c : Thread nD τ))) (O : CellTallies nD τ sig Unit) (W : Waits sig Unit) :
    iprop(records m K
        ∗ ((bSt2 : Memref sig .tc .vmem S384x256 .bf16).view.loc (c : Thread nD τ) ↦[(bSt2 : Memref sig .tc .vmem S384x256 .bf16).view.set]{qs} bStV m c)
        ∗ ((bRv2 : Memref sig .tc .vmem S384x256 .bf16).view.loc (xp c : Thread nD τ) ↦[(bRv2 : Memref sig .tc .vmem S384x256 .bf16).view.set]{fullShare} fd)
        ∗ owes (c : Thread nD τ) (O + tallyAt (cell (xp c) 10) () NB) W
        ∗ dutyTok ER (cell c 7) 0 false ∗ dutyTok ER (cell (xp c) 10) 0 false)
      ⊢ iprop(((cred (tallyAt (cell c 7) () NB) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bSt2 : Memref sig .tc .vmem S384x256 .bf16) (.remote (Dev.tc n : Thread nD τ) (bRv2 : Memref sig .tc .vmem S384x256 .bf16) (.dma bS2) hsc) (.dma bR2) hsrc hdst hsem) k) Q) := by
  subst hn
  iintro ⟨#Hrec, Hs, Hd, HO, Ht1, Ht2⟩
  iapply (Rounds.wp_send_pointsTo 𝒱₀ ER (Rd m) (c : Thread nD τ) none (κ₁ := K (c, 7)) (κ₂ := K (xp c, 10))
    (r₁ := 0) (r₂ := 0) (d₁ := false) (d₂ := false) (fd := fd) (q := qs) (fs := bStV m c)
    (by rw [duties_dma m c 7 (by decide)]; exact Finset.mem_singleton_self _)
    (by rw [duties_dma m (xp c) 10 (by decide)]; exact Finset.mem_singleton_self _)
    () () NB rfl ((amount_cell m c 7 false).trans (amt_B 7 (by decide))) ((amount_cell m (xp c) 10 false).trans (amt_B 10 (by decide))) O rfl (W := W)
    (by rw [payload_cell]; exact BI.Entails.refl _)
    (by rw [payload_cell]; exact Entails.of_eq (land_b2 m c fd))) $$ [Hs Hd HO Ht1 Ht2]
  isplitr; · iapply (inv_at m K (c, 7)); iexact Hrec
  isplitr; · iapply (inv_at m K (xp c, 10)); iexact Hrec
  isplitl [Hs]; · iexact Hs
  isplitl [Hd]; · iexact Hd
  isplitl [HO]; · iexact HO
  isplitl [Ht1]; · iexact Ht1
  isplitr; · iapply (reached_at m K (c, 7)); iexact Hrec
  isplitl [Ht2]; · iexact Ht2
  iapply (reached_at m K (xp c, 10)); iexact Hrec

theorem positions_eq (c : Dev nD) : positions (F := F) c = iprop(atPos ER (cell c 0) 0 ∅ 0 ∗ atPos ER (cell c 1) 0 ∅ 0 ∗ atPos ER (cell c 2) 0 ∅ 0 ∗ atPos ER (cell c 3) 0 ∅ 0
    ∗ atPos ER (cell c 4) 0 ∅ 0 ∗ atPos ER (cell c 5) 0 ∅ 0 ∗ atPos ER (cell c 6) 0 ∅ 0 ∗ atPos ER (cell c 7) 0 ∅ 0
    ∗ atPos ER (cell c 8) 0 ∅ 0 ∗ atPos ER (cell c 9) 0 ∅ 0 ∗ atPos ER (cell c 10) 0 ∅ 0) := by
  unfold positions
  exact bigSep_univ_eq_bigSepL [(0 : Fin 11), 1, 2, 3, 4, 5, 6, 7, 8, 9, 10] (by decide) (by decide) _

/-- The body from `bodyPre` to `bodyPost`. -/
theorem sound_body (K : Dev nD × Fin 11 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9) Kt := by
  unfold bodyPre ghost payToks creds scratch
  rw [positions_eq]
  iintro ⟨⟨⟨⟨#Hrec, ⟨Hp0, Hp1, Hp2, Hp3, Hp4, Hp5, Hp6, Hp7, Hp8, Hp9, Hp10⟩, HtBX, HtBY, HtAX, HtAY, HtB0, HtB1, HtB2, HtSax, HtSay, HtSb0, HtSb1, HtSb2⟩,
      ⟨HcB, HcAX, HcAY, HcB0, HcB1, HcB2⟩, #Hlev, ⟨%fa, Hast⟩, ⟨%fb, Hbst⟩, ⟨%fr, Harv⟩, ⟨%fs, Hbrv⟩⟩,
    Ho, ⟨%g0, %hg0, Hx⟩, ⟨%g1, %hg1, Hy⟩, ⟨%d2, %g2, %hg2, Hout⟩⟩, Hk⟩
  subst hg0; subst hg1; subst hg2
  unfold Dat.owesAt Pipeline.owesWithin
  icases Ho with ⟨%W, %hW, HO⟩
  rw [show (dats m ρ 0 c).owed t0_0.castSucc = O₀ c from rfl]
  -- the A receive buffer by halves: the own-offset half (with the B receive buffer) goes to the x-peer, the other to the y-peer
  ihave Hh := (aRv_split c c fullShare fr).1 $$ Harv
  icases Hh with ⟨HarvC, HarvY⟩
  ihave HpX := (pay_bar_x m c fr fs) $$ [HarvC Hbrv]
  · isplitl [HarvC] <;> iassumption
  ihave HpY := (pay_bar_y m c fr) $$ HarvY
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  simp only [dev1_eq c, dev2_eq c]
  -- the first signal, to the x-peer's barrier cell: its duty `false`
  unfold O₀
  iapply (Rounds.wp_signal 𝒱₀ ER (Rd m) (c : Thread nD τ) none (dst := (xp c : Thread nD τ)) (κ := K (xp c, 0))
      (d := false) (by rw [duties_bar]; exact Finset.mem_univ _) ((amount_cell m (xp c) 0 false).trans rfl) () (O1 c) rfl)
    $$ [HO HtBX HpX]
  · isplitr; · iapply (inv_at m K (xp c, 0)); iexact Hrec
    isplitl [HO]; · iexact HO
    isplitl [HtBX]; · iexact HtBX
    isplitl [HpX]; · iexact HpX
    iapply (reached_at m K (xp c, 0)); iexact Hrec
  iintro HO
  -- the second, to the y-peer's: its duty `true`
  unfold O1
  iapply (Rounds.wp_signal 𝒱₀ ER (Rd m) (c : Thread nD τ) none (dst := (yp c : Thread nD τ)) (κ := K (yp c, 0))
      (d := true) (by rw [duties_bar]; exact Finset.mem_univ _) ((amount_cell m (yp c) 0 true).trans rfl) () (O2 c) rfl)
    $$ [HO HtBY HpY]
  · isplitr; · iapply (inv_at m K (yp c, 0)); iexact Hrec
    isplitl [HO]; · iexact HO
    isplitl [HtBY]; · iexact HtBY
    isplitl [HpY]; · iexact HpY
    iapply (reached_at m K (yp c, 0)); iexact Hrec
  iintro HO
  -- the half of rows to send is staged
  iapply (wp_load 𝒱₀ (c : Thread nD τ) none Set.univ (m := aIn) (Finset.subset_univ _)) $$ Hx; iintro Hx
  iapply (wp_load 𝒱₀ (c : Thread nD τ) none Set.univ (m := aSt) (Finset.subset_univ _)) $$ Hast; iintro Hast
  iapply (wp_store 𝒱₀ (c : Thread nD τ) none Set.univ (m := aSt) (r := rSw) (Mk := Finset.univ) (Finset.subset_univ _)) $$ Hast; iintro Hast
  rw [write_aSt]
  -- the barrier wait for both peers' units, owing the five landings
  iapply (Rounds.wp_wait_rest_token 𝒱₀ ER (Rd m) (c : Thread nD τ) none (κ := K (c, 0))
      (wpE_semWait_eq 𝒱₀ (c : Thread nD τ) none Set.univ) (Set.mem_univ _) () (O := O2 c) (W := W) (R := 0) (m := 0) (T := ∅)
      (by rw [expect_bar]; decide)) $$ [HcB HO Hp0]
  · isplitr; · iapply (inv_at m K (c, 0)); iexact Hrec
    isplitl [HcB]; · iexact HcB
    isplitl [HO]; · iexact HO
    isplitr; · iapply (mayWait_bar c); iexact Hlev
    iexact Hp0
  iintro ⟨HO, Hp0, -, Hpay⟩
  ihave Hp := (Entails.of_eq (rest_bar m c)) $$ Hpay
  rw [pay0f, pay0t]
  icases Hp with ⟨⟨⟨%fX, HdX⟩, ⟨%fbX, HdB⟩⟩, ⟨%fY, HdY⟩⟩
  -- the x-copy of A: the staged half into the x-peer's own-offset half
  ihave Hast' := (Entails.of_eq (aStW_eq c fullShare _).symm) $$ Hast
  unfold O2
  iapply (wp_send_ax m K c _ (dev3_eq c) fX (O3 c) (insert (SemLoc.reg barS, ()) W)) $$ [Hast' HdX HO HtSax HtAX]
  · isplitr; · iexact Hrec
    isplitl [Hast']; · iexact Hast'
    isplitl [HdX]; · iexact HdX
    isplitl [HO]; · iexact HO
    isplitl [HtSax] <;> iassumption
  iintro ⟨HcSax, HO⟩
  -- the B block is staged, narrowed
  iapply (wp_load 𝒱₀ (c : Thread nD τ) none Set.univ (m := bIn) (Finset.subset_univ _)) $$ Hy; iintro Hy
  rw [read_bIn]
  iapply (wp_load 𝒱₀ (c : Thread nD τ) none Set.univ (m := bSt) (Finset.subset_univ _)) $$ Hbst; iintro Hbst
  iapply (wp_store 𝒱₀ (c : Thread nD τ) none Set.univ (m := bSt) (r := rBw) (Mk := Finset.univ) (Finset.subset_univ _)) $$ Hbst; iintro Hbst
  rw [write_bSt]
  -- its three column chunks, each share halved: one half travels with the transfer, the other stays for the loads
  ihave Hb := (bSt_split c fullShare _).1 $$ Hbst
  icases Hb with ⟨Hb0, Hb1, Hb2⟩
  ihave Hb0 := (share_halves _ _).1 $$ Hb0
  icases Hb0 with ⟨Hb0s, Hb0l⟩
  ihave Hb1 := (share_halves _ _).1 $$ Hb1
  icases Hb1 with ⟨Hb1s, Hb1l⟩
  ihave Hb2 := (share_halves _ _).1 $$ Hb2
  icases Hb2 with ⟨Hb2s, Hb2l⟩
  -- the x-peer's B receive buffer by chunks
  ihave HdB := (Entails.of_eq (bRvW_eq (xp c) fullShare fbX)) $$ HdB
  ihave HdB := (bRv_split (xp c) fullShare fbX).1 $$ HdB
  icases HdB with ⟨HdB0, HdB1, HdB2⟩
  unfold O3
  iapply (wp_send_b0 m K c _ (dev4_eq c) fbX (O4 c) (insert (SemLoc.reg barS, ()) W)) $$ [Hb0s HdB0 HO HtSb0 HtB0]
  · isplitr; · iexact Hrec
    isplitl [Hb0s]; · iexact Hb0s
    isplitl [HdB0]; · iexact HdB0
    isplitl [HO]; · iexact HO
    isplitl [HtSb0] <;> iassumption
  iintro ⟨HcSb0, HO⟩
  unfold O4
  iapply (wp_send_b1 m K c _ (dev5_eq c) fbX (O5 c) (insert (SemLoc.reg barS, ()) W)) $$ [Hb1s HdB1 HO HtSb1 HtB1]
  · isplitr; · iexact Hrec
    isplitl [Hb1s]; · iexact Hb1s
    isplitl [HdB1]; · iexact HdB1
    isplitl [HO]; · iexact HO
    isplitl [HtSb1] <;> iassumption
  iintro ⟨HcSb1, HO⟩
  unfold O5
  iapply (wp_send_b2 m K c _ (dev6_eq c) fbX (O6 c) (insert (SemLoc.reg barS, ()) W)) $$ [Hb2s HdB2 HO HtSb2 HtB2]
  · isplitr; · iexact Hrec
    isplitl [Hb2s]; · iexact Hb2s
    isplitl [HdB2]; · iexact HdB2
    isplitl [HO]; · iexact HO
    isplitl [HtSb2] <;> iassumption
  iintro ⟨HcSb2, HO⟩
  -- the kept halves of the three chunks are the whole staged B again, at the kept share
  ihave Hbl := (bSt_split c ql _).2 $$ [Hb0l Hb1l Hb2l]
  · isplitl [Hb0l]; · iexact Hb0l
    isplitl [Hb1l] <;> iassumption
  -- the first chunk of the local product
  iapply (wp_load 𝒱₀ (c : Thread nD τ) none Set.univ (m := aIn) (Finset.subset_univ _)) $$ Hx; iintro Hx
  rw [read_aIn]
  iapply (wp_load 𝒱₀ (c : Thread nD τ) none Set.univ (m := bSt) (Finset.subset_univ _)) $$ Hbl; iintro Hbl
  iapply (wp_load 𝒱₀ (c : Thread nD τ) none Set.univ (m := oM) (Finset.subset_univ _)) $$ Hout; iintro Hout
  iapply (wp_store 𝒱₀ (c : Thread nD τ) none Set.univ (m := oM) (r := rO0) (Mk := Finset.univ) (Finset.subset_univ _)) $$ Hout; iintro Hout
  -- the wait for the x-copy's landing, owing the y-relay's landing only: the own-offset half at its final contents
  iapply (Rounds.wp_wait_rest_token 𝒱₀ ER (Rd m) (c : Thread nD τ) none (κ := K (c, 2))
      (wpE_waitDma2_eq 𝒱₀ (c : Thread nD τ) none Set.univ) (Set.mem_univ _) () (O := O6 c) (W := (insert (SemLoc.reg barS, ()) W)) (R := 0) (m := 0) (T := ∅)
      (by rw [Nat.zero_add, expect_dma m c 2 (by decide), amt_A 2 (by decide) (by decide)])) $$ [HcAX HO Hp2]
  · isplitr; · iapply (inv_at m K (c, 2)); iexact Hrec
    isplitl [HcAX]; · iexact HcAX
    isplitl [HO]; · iexact HO
    isplitr; · iapply (mayWait_axR c); iexact Hlev
    iexact Hp2
  iintro ⟨HO, Hp2, -, Hpay⟩
  ihave Har := (Entails.of_eq ((rest_dma m c 2 (by decide)).trans (pay2 m c))) $$ Hpay
  ihave Har := (share_halves _ _).1 $$ Har
  icases Har with ⟨Hars, Harl⟩
  -- the y-relay: the half just received into the y-peer's other half
  ihave HO := (Entails.of_eq (congrArg (fun X => owes (c : Thread nD τ) X (insert (SemLoc.dma axR, ()) (insert (SemLoc.reg barS, ()) W))) (zero_add (O6 c)).symm)) $$ HO
  unfold O6
  iapply (wp_send_ay m K c _ (dev7_eq c) fY 0 (insert (SemLoc.dma axR, ()) (insert (SemLoc.reg barS, ()) W))) $$ [Hars HdY HO HtSay HtAY]
  · isplitr; · iexact Hrec
    isplitl [Hars]; · iexact Hars
    isplitl [HdY]; · iexact HdY
    isplitl [HO]; · iexact HO
    isplitl [HtSay] <;> iassumption
  iintro ⟨HcSay, HO⟩
  -- the second and third chunks of the local product
  iapply (wp_load 𝒱₀ (c : Thread nD τ) none Set.univ (m := bSt) (Finset.subset_univ _)) $$ Hbl; iintro Hbl
  iapply (wp_load 𝒱₀ (c : Thread nD τ) none Set.univ (m := oM) (Finset.subset_univ _)) $$ Hout; iintro Hout
  iapply (wp_store 𝒱₀ (c : Thread nD τ) none Set.univ (m := oM) (r := rO1) (Mk := Finset.univ) (Finset.subset_univ _)) $$ Hout; iintro Hout
  iapply (wp_load 𝒱₀ (c : Thread nD τ) none Set.univ (m := bSt) (Finset.subset_univ _)) $$ Hbl; iintro Hbl
  iapply (wp_load 𝒱₀ (c : Thread nD τ) none Set.univ (m := oM) (Finset.subset_univ _)) $$ Hout; iintro Hout
  iapply (wp_store 𝒱₀ (c : Thread nD τ) none Set.univ (m := oM) (r := rO2) (Mk := Finset.univ) (Finset.subset_univ _)) $$ Hout; iintro Hout
  -- the wait for the y-relay's landing: the other half at its final contents
  iapply (Rounds.wp_wait_rest_token 𝒱₀ ER (Rd m) (c : Thread nD τ) none (κ := K (c, 4))
      (wpE_waitDma2_eq 𝒱₀ (c : Thread nD τ) none Set.univ) (Set.mem_univ _) () (O := 0) (W := (insert (SemLoc.dma axR, ()) (insert (SemLoc.reg barS, ()) W))) (R := 0) (m := 0) (T := ∅)
      (by rw [Nat.zero_add, expect_dma m c 4 (by decide), amt_A 4 (by decide) (by decide)])) $$ [HcAY HO Hp4]
  · isplitr; · iapply (inv_at m K (c, 4)); iexact Hrec
    isplitl [HcAY]; · iexact HcAY
    isplitl [HO]; · iexact HO
    isplitr; · rw [MayWait_zero]; iempintro
    iexact Hp4
  iintro ⟨HO, Hp4, -, Hpay⟩
  ihave HarY := (Entails.of_eq ((rest_dma m c 4 (by decide)).trans (pay4 m c))) $$ Hpay
  ihave HarY := (share_halves _ _).1 $$ HarY
  icases HarY with ⟨HarYs, HarYl⟩
  -- both halves at the kept share are the whole A receive buffer, loaded whole
  ihave Hal := (aRv_split c c ql _).2 $$ [Harl HarYl]
  · isplitl [Harl] <;> iassumption
  iapply (wp_load 𝒱₀ (c : Thread nD τ) none Set.univ (m := aRv) (Finset.subset_univ _)) $$ Hal; iintro Hal
  rw [read_aRv]
  -- the wait for B chunk 0's landing, then the second product added to chunk 0 of the result
  iapply (Rounds.wp_wait_rest_token 𝒱₀ ER (Rd m) (c : Thread nD τ) none (κ := K (c, 8))
      (wpE_waitDma2_eq 𝒱₀ (c : Thread nD τ) none Set.univ) (Set.mem_univ _) () (O := 0) (W := (insert (SemLoc.dma ayR, ()) (insert (SemLoc.dma axR, ()) (insert (SemLoc.reg barS, ()) W)))) (R := 0) (m := 0) (T := ∅)
      (by rw [Nat.zero_add, expect_dma m c 8 (by decide), amt_B 8 (by decide)])) $$ [HcB0 HO Hp8]
  · isplitr; · iapply (inv_at m K (c, 8)); iexact Hrec
    isplitl [HcB0]; · iexact HcB0
    isplitl [HO]; · iexact HO
    isplitr; · rw [MayWait_zero]; iempintro
    iexact Hp8
  iintro ⟨HO, Hp8, -, Hpay⟩
  ihave Hr0 := (Entails.of_eq ((rest_dma m c 8 (by decide)).trans (pay8 m c))) $$ Hpay
  iapply (wp_load 𝒱₀ (c : Thread nD τ) none Set.univ (m := oM) (Finset.subset_univ _)) $$ Hout; iintro Hout
  iapply (wp_load 𝒱₀ (c : Thread nD τ) none Set.univ (m := bRv) setOn_bRv_0) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := rO0) (Mk := Finset.univ) (Finset.subset_univ _)) $$ Hout; iintro Hout
  -- the wait for B chunk 1's landing, then the second product added to chunk 1 of the result
  iapply (Rounds.wp_wait_rest_token 𝒱₀ ER (Rd m) (c : Thread nD τ) none (κ := K (c, 9))
      (wpE_waitDma2_eq 𝒱₀ (c : Thread nD τ) none Set.univ) (Set.mem_univ _) () (O := 0) (W := (insert (SemLoc.dma bR0, ()) (insert (SemLoc.dma ayR, ()) (insert (SemLoc.dma axR, ()) (insert (SemLoc.reg barS, ()) W))))) (R := 0) (m := 0) (T := ∅)
      (by rw [Nat.zero_add, expect_dma m c 9 (by decide), amt_B 9 (by decide)])) $$ [HcB1 HO Hp9]
  · isplitr; · iapply (inv_at m K (c, 9)); iexact Hrec
    isplitl [HcB1]; · iexact HcB1
    isplitl [HO]; · iexact HO
    isplitr; · rw [MayWait_zero]; iempintro
    iexact Hp9
  iintro ⟨HO, Hp9, -, Hpay⟩
  ihave Hr1 := (Entails.of_eq ((rest_dma m c 9 (by decide)).trans (pay9 m c))) $$ Hpay
  iapply (wp_load 𝒱₀ (c : Thread nD τ) none Set.univ (m := oM) (Finset.subset_univ _)) $$ Hout; iintro Hout
  iapply (wp_load 𝒱₀ (c : Thread nD τ) none Set.univ (m := bRv) setOn_bRv_1) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := rO1) (Mk := Finset.univ) (Finset.subset_univ _)) $$ Hout; iintro Hout
  -- the wait for B chunk 2's landing, then the second product added to chunk 2 of the result
  iapply (Rounds.wp_wait_rest_token 𝒱₀ ER (Rd m) (c : Thread nD τ) none (κ := K (c, 10))
      (wpE_waitDma2_eq 𝒱₀ (c : Thread nD τ) none Set.univ) (Set.mem_univ _) () (O := 0) (W := (insert (SemLoc.dma bR1, ()) (insert (SemLoc.dma bR0, ()) (insert (SemLoc.dma ayR, ()) (insert (SemLoc.dma axR, ()) (insert (SemLoc.reg barS, ()) W)))))) (R := 0) (m := 0) (T := ∅)
      (by rw [Nat.zero_add, expect_dma m c 10 (by decide), amt_B 10 (by decide)])) $$ [HcB2 HO Hp10]
  · isplitr; · iapply (inv_at m K (c, 10)); iexact Hrec
    isplitl [HcB2]; · iexact HcB2
    isplitl [HO]; · iexact HO
    isplitr; · rw [MayWait_zero]; iempintro
    iexact Hp10
  iintro ⟨HO, Hp10, -, Hpay⟩
  ihave Hr2 := (Entails.of_eq ((rest_dma m c 10 (by decide)).trans (pay10 m c))) $$ Hpay
  iapply (wp_load 𝒱₀ (c : Thread nD τ) none Set.univ (m := oM) (Finset.subset_univ _)) $$ Hout; iintro Hout
  iapply (wp_load 𝒱₀ (c : Thread nD τ) none Set.univ (m := bRv) setOn_bRv_2) $$ Hr2; iintro Hr2
  iapply (wp_load 𝒱₀ (c : Thread nD τ) none Set.univ (m := oM) (Finset.subset_univ _)) $$ Hout; iintro Hout
  iapply (wp_store 𝒱₀ (c : Thread nD τ) none Set.univ (m := oM) (r := rO2) (Mk := Finset.univ) (Finset.subset_univ _)) $$ Hout; iintro Hout
  -- the wait on send cell 1: the source's share back
  iapply (Rounds.wp_wait_rest_token 𝒱₀ ER (Rd m) (c : Thread nD τ) none (κ := K (c, 1))
      (wpE_waitDma2_eq 𝒱₀ (c : Thread nD τ) none Set.univ) (Set.mem_univ _) () (O := 0) (W := (insert (SemLoc.dma bR2, ()) (insert (SemLoc.dma bR1, ()) (insert (SemLoc.dma bR0, ()) (insert (SemLoc.dma ayR, ()) (insert (SemLoc.dma axR, ()) (insert (SemLoc.reg barS, ()) W))))))) (R := 0) (m := 0) (T := ∅)
      (by rw [Nat.zero_add, expect_dma m c 1 (by decide), amt_A 1 (by decide) (by decide)])) $$ [HcSax HO Hp1]
  · isplitr; · iapply (inv_at m K (c, 1)); iexact Hrec
    isplitl [HcSax]; · iexact HcSax
    isplitl [HO]; · iexact HO
    isplitr; · rw [MayWait_zero]; iempintro
    iexact Hp1
  iintro ⟨HO, Hp1, -, Hpay⟩
  ihave Hsax := (Entails.of_eq ((rest_dma m c 1 (by decide)).trans (pay1 m c))) $$ Hpay
  -- the wait on send cell 3: the source's share back
  iapply (Rounds.wp_wait_rest_token 𝒱₀ ER (Rd m) (c : Thread nD τ) none (κ := K (c, 3))
      (wpE_waitDma2_eq 𝒱₀ (c : Thread nD τ) none Set.univ) (Set.mem_univ _) () (O := 0) (W := (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W)))))))) (R := 0) (m := 0) (T := ∅)
      (by rw [Nat.zero_add, expect_dma m c 3 (by decide), amt_A 3 (by decide) (by decide)])) $$ [HcSay HO Hp3]
  · isplitr; · iapply (inv_at m K (c, 3)); iexact Hrec
    isplitl [HcSay]; · iexact HcSay
    isplitl [HO]; · iexact HO
    isplitr; · rw [MayWait_zero]; iempintro
    iexact Hp3
  iintro ⟨HO, Hp3, -, Hpay⟩
  ihave Hsay := (Entails.of_eq ((rest_dma m c 3 (by decide)).trans (pay3 m c))) $$ Hpay
  -- the wait on send cell 5: the source's share back
  iapply (Rounds.wp_wait_rest_token 𝒱₀ ER (Rd m) (c : Thread nD τ) none (κ := K (c, 5))
      (wpE_waitDma2_eq 𝒱₀ (c : Thread nD τ) none Set.univ) (Set.mem_univ _) () (O := 0) (W := (insert (SemLoc.dma ayS, ()) (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W))))))))) (R := 0) (m := 0) (T := ∅)
      (by rw [Nat.zero_add, expect_dma m c 5 (by decide), amt_B 5 (by decide)])) $$ [HcSb0 HO Hp5]
  · isplitr; · iapply (inv_at m K (c, 5)); iexact Hrec
    isplitl [HcSb0]; · iexact HcSb0
    isplitl [HO]; · iexact HO
    isplitr; · rw [MayWait_zero]; iempintro
    iexact Hp5
  iintro ⟨HO, Hp5, -, Hpay⟩
  ihave Hsb0 := (Entails.of_eq ((rest_dma m c 5 (by decide)).trans (pay5 m c))) $$ Hpay
  -- the wait on send cell 6: the source's share back
  iapply (Rounds.wp_wait_rest_token 𝒱₀ ER (Rd m) (c : Thread nD τ) none (κ := K (c, 6))
      (wpE_waitDma2_eq 𝒱₀ (c : Thread nD τ) none Set.univ) (Set.mem_univ _) () (O := 0) (W := (insert (SemLoc.dma bS0, ()) (insert (SemLoc.dma ayS, ()) (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W)))))))))) (R := 0) (m := 0) (T := ∅)
      (by rw [Nat.zero_add, expect_dma m c 6 (by decide), amt_B 6 (by decide)])) $$ [HcSb1 HO Hp6]
  · isplitr; · iapply (inv_at m K (c, 6)); iexact Hrec
    isplitl [HcSb1]; · iexact HcSb1
    isplitl [HO]; · iexact HO
    isplitr; · rw [MayWait_zero]; iempintro
    iexact Hp6
  iintro ⟨HO, Hp6, -, Hpay⟩
  ihave Hsb1 := (Entails.of_eq ((rest_dma m c 6 (by decide)).trans (pay6 m c))) $$ Hpay
  -- the wait on send cell 7: the source's share back
  iapply (Rounds.wp_wait_rest_token 𝒱₀ ER (Rd m) (c : Thread nD τ) none (κ := K (c, 7))
      (wpE_waitDma2_eq 𝒱₀ (c : Thread nD τ) none Set.univ) (Set.mem_univ _) () (O := 0) (W := (insert (SemLoc.dma bS1, ()) (insert (SemLoc.dma bS0, ()) (insert (SemLoc.dma ayS, ()) (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W))))))))))) (R := 0) (m := 0) (T := ∅)
      (by rw [Nat.zero_add, expect_dma m c 7 (by decide), amt_B 7 (by decide)])) $$ [HcSb2 HO Hp7]
  · isplitr; · iapply (inv_at m K (c, 7)); iexact Hrec
    isplitl [HcSb2]; · iexact HcSb2
    isplitl [HO]; · iexact HO
    isplitr; · rw [MayWait_zero]; iempintro
    iexact Hp7
  iintro ⟨HO, Hp7, -, Hpay⟩
  ihave Hsb2 := (Entails.of_eq ((rest_dma m c 7 (by decide)).trans (pay7 m c))) $$ Hpay
  -- the ten own cells close: their counters at zero are the device's again
  imod (Rounds.cell_close ER (Rd m) (Set.mem_univ (K (c, 1))) (fun h => h) (R := 0 + 1) (duties_later m (cell c 1))) $$ [Hp1] with Hz1
  · isplitr; · iapply (inv_at m K (c, 1)); iexact Hrec
    iexact Hp1
  imod (Rounds.cell_close ER (Rd m) (Set.mem_univ (K (c, 2))) (fun h => h) (R := 0 + 1) (duties_later m (cell c 2))) $$ [Hp2] with Hz2
  · isplitr; · iapply (inv_at m K (c, 2)); iexact Hrec
    iexact Hp2
  imod (Rounds.cell_close ER (Rd m) (Set.mem_univ (K (c, 3))) (fun h => h) (R := 0 + 1) (duties_later m (cell c 3))) $$ [Hp3] with Hz3
  · isplitr; · iapply (inv_at m K (c, 3)); iexact Hrec
    iexact Hp3
  imod (Rounds.cell_close ER (Rd m) (Set.mem_univ (K (c, 4))) (fun h => h) (R := 0 + 1) (duties_later m (cell c 4))) $$ [Hp4] with Hz4
  · isplitr; · iapply (inv_at m K (c, 4)); iexact Hrec
    iexact Hp4
  imod (Rounds.cell_close ER (Rd m) (Set.mem_univ (K (c, 5))) (fun h => h) (R := 0 + 1) (duties_later m (cell c 5))) $$ [Hp5] with Hz5
  · isplitr; · iapply (inv_at m K (c, 5)); iexact Hrec
    iexact Hp5
  imod (Rounds.cell_close ER (Rd m) (Set.mem_univ (K (c, 6))) (fun h => h) (R := 0 + 1) (duties_later m (cell c 6))) $$ [Hp6] with Hz6
  · isplitr; · iapply (inv_at m K (c, 6)); iexact Hrec
    iexact Hp6
  imod (Rounds.cell_close ER (Rd m) (Set.mem_univ (K (c, 7))) (fun h => h) (R := 0 + 1) (duties_later m (cell c 7))) $$ [Hp7] with Hz7
  · isplitr; · iapply (inv_at m K (c, 7)); iexact Hrec
    iexact Hp7
  imod (Rounds.cell_close ER (Rd m) (Set.mem_univ (K (c, 8))) (fun h => h) (R := 0 + 1) (duties_later m (cell c 8))) $$ [Hp8] with Hz8
  · isplitr; · iapply (inv_at m K (c, 8)); iexact Hrec
    iexact Hp8
  imod (Rounds.cell_close ER (Rd m) (Set.mem_univ (K (c, 9))) (fun h => h) (R := 0 + 1) (duties_later m (cell c 9))) $$ [Hp9] with Hz9
  · isplitr; · iapply (inv_at m K (c, 9)); iexact Hrec
    iexact Hp9
  imod (Rounds.cell_close ER (Rd m) (Set.mem_univ (K (c, 10))) (fun h => h) (R := 0 + 1) (duties_later m (cell c 10))) $$ [Hp10] with Hz10
  · isplitr; · iapply (inv_at m K (c, 10)); iexact Hrec
    iexact Hp10
  -- the scratch buffers whole again: the staged half of A
  ihave Hast := (Entails.of_eq (aStW_eq c fullShare _)) $$ Hsax
  -- the staged B: each chunk's two halves of the share, then the three chunks
  ihave Hbl := (bSt_split c ql _).1 $$ Hbl
  icases Hbl with ⟨Hb0l, Hb1l, Hb2l⟩
  ihave Hb0 := (share_halves _ _).2 $$ [Hsb0 Hb0l]
  · isplitl [Hsb0] <;> iassumption
  ihave Hb1 := (share_halves _ _).2 $$ [Hsb1 Hb1l]
  · isplitl [Hsb1] <;> iassumption
  ihave Hb2 := (share_halves _ _).2 $$ [Hsb2 Hb2l]
  · isplitl [Hsb2] <;> iassumption
  ihave Hbst := (bSt_split c fullShare _).2 $$ [Hb0 Hb1 Hb2]
  · isplitl [Hb0]; · iexact Hb0
    isplitl [Hb1] <;> iassumption
  -- the A receive buffer: each half's two halves of the share, then the two halves of rows
  ihave Hal := (aRv_split c c ql _).1 $$ Hal
  icases Hal with ⟨Harl, HarYl⟩
  ihave HarC := (share_halves _ _).2 $$ [Hsay Harl]
  · isplitl [Hsay] <;> iassumption
  ihave HarY := (share_halves _ _).2 $$ [HarYs HarYl]
  · isplitl [HarYs] <;> iassumption
  ihave Harv := (aRv_split c c fullShare _).2 $$ [HarC HarY]
  · isplitl [HarC] <;> iassumption
  -- the B receive buffer: its three chunks
  ihave Hbrv := (bRv_split c fullShare _).2 $$ [Hr0 Hr1 Hr2]
  · isplitl [Hr0]; · iexact Hr0
    isplitl [Hr1] <;> iassumption
  rw [wp_ret]; imodintro
  iapply Hk
  unfold bodyPost Φ₁ scratch Dat.owesAt Pipeline.owesWithin
  rw [show (dats m ρ 0 c).owed t0_0.succ = 0 from rfl, closed_eq]
  isplitl [Hast Hbst Harv Hbrv Hz1 Hz2 Hz3 Hz4 Hz5 Hz6 Hz7 Hz8 Hz9 Hz10]
  · isplitl [Hast Hbst Harv Hbrv]
    · isplitl [Hast]; · iexists _; iexact Hast
      isplitl [Hbst]; · iexists _; iexact Hbst
      isplitl [Harv]; · iexists _; iexact Harv
      iexists _; iexact Hbrv
    · isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      iexact Hz10
  isplitl [HO]
  · iexists (insert (SemLoc.dma bS2, ()) (insert (SemLoc.dma bS1, ()) (insert (SemLoc.dma bS0, ()) (insert (SemLoc.dma ayS, ()) (insert (SemLoc.dma axS, ()) (insert (SemLoc.dma bR2, ()) (insert (SemLoc.dma bR1, ()) (insert (SemLoc.dma bR0, ()) (insert (SemLoc.dma ayR, ()) (insert (SemLoc.dma axR, ()) (insert (SemLoc.reg barS, ()) W)))))))))))
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; exact out_final m c g2)
  iexact Hout

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8 cc0_scratch9) (fun _ => bodyPost m ρ c)
  unfold bodyPre' Φ₀ start
  iintro ⟨⟨⟨⟨%K, Hg⟩, Hcr, Hlev⟩, Hscr⟩, Ho, ⟨%d0, %g0, %hg0, Hx⟩, ⟨%d1, %g1, %hg1, Hy⟩, ⟨%d2, Hout⟩⟩
  have hx : g0 = Ain m c := by rw [hg0]; unfold Dat.before; rw [if_pos (fetch0_0 t0_0)]; rfl
  have hy : g1 = Bin m c := by rw [hg1]; unfold Dat.before; rw [if_pos (fetch0_1 t0_0)]; rfl
  subst hx; subst hy
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexists _; isplitr; · (ipureintro; rfl)
                    iexact Hx
    isplitl [Hy]; · iexists _; isplitr; · (ipureintro; rfl)
                    iexact Hy
    iexists _; iexact Hout
  · iintro H; iexact H

end Cert.Kernel.Mm

end
-- ==== Proof.BitsCredit.lean ====
/-
  The launch credit: summing over the four devices what each owes a cell gives the cell's owner its credit: two units on
  its barrier cell (one from each peer), one transfer's worth on each of its five receive cells.
-/
import proofs.«900556_g7700000000000557_dist_matmul_kn_xy_m768_n768_k384_v7x_xy2x2_f32_1_alg».proof.Proof.BitsData

noncomputable section

namespace Cert.Kernel.Mm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What every device owes its x-peer's cell `k`, summed over the devices, is one such amount on one's own cell `k`. -/
theorem launch_xp (c : Dev nD) (k : Fin 11) (n : ℕ) :
    (Pipeline.launchCred (fun d : Dev nD => (tallyAt (cell (xp d) k) () n : CellTallies nD τ sig Unit)) c : sProp 𝕄) ⊢ cred (tallyAt (cell c k) () n) :=
  Pipeline.launchCred_tallyAt (csem k) xp xp xp_xp xp_xp () n c

/-- The same across the y axis. -/
theorem launch_yp (c : Dev nD) (k : Fin 11) (n : ℕ) :
    (Pipeline.launchCred (fun d : Dev nD => (tallyAt (cell (yp d) k) () n : CellTallies nD τ sig Unit)) c : sProp 𝕄) ⊢ cred (tallyAt (cell c k) () n) :=
  Pipeline.launchCred_tallyAt (csem k) yp yp yp_yp yp_yp () n c

/-- The credit the launch deals device `c`: what its peers owe its barrier cell and its five receive cells. -/
theorem creds_of_launch (c : Dev nD) : (Pipeline.launchCred O₀ c : sProp 𝕄) ⊢ creds c := by
  rw [show (O₀ : Dev nD → CellTallies nD τ sig Unit) = fun d => O1 d + tallyAt (cell (xp d) 0) () 1 from rfl, Pipeline.launchCred_add,
    show (O1 : Dev nD → CellTallies nD τ sig Unit) = fun d => O2 d + tallyAt (cell (yp d) 0) () 1 from rfl, Pipeline.launchCred_add,
    show (O2 : Dev nD → CellTallies nD τ sig Unit) = fun d => O3 d + tallyAt (cell (xp d) 2) () NA from rfl, Pipeline.launchCred_add,
    show (O3 : Dev nD → CellTallies nD τ sig Unit) = fun d => O4 d + tallyAt (cell (xp d) 8) () NB from rfl, Pipeline.launchCred_add,
    show (O4 : Dev nD → CellTallies nD τ sig Unit) = fun d => O5 d + tallyAt (cell (xp d) 9) () NB from rfl, Pipeline.launchCred_add,
    show (O5 : Dev nD → CellTallies nD τ sig Unit) = fun d => O6 d + tallyAt (cell (xp d) 10) () NB from rfl, Pipeline.launchCred_add,
    show (O6 : Dev nD → CellTallies nD τ sig Unit) = fun d => tallyAt (cell (yp d) 4) () NA from rfl]
  unfold creds
  iintro ⟨⟨⟨⟨⟨⟨H4, H10⟩, H9⟩, H8⟩, H2⟩, Hy0⟩, Hx0⟩
  isplitl [Hx0 Hy0]
  · rw [show (2 : ℕ) = 1 + 1 from rfl, ← tallyAt_add]
    iapply (cred_add _ _).2
    isplitl [Hx0]
    · iapply (launch_xp c 0 1); iexact Hx0
    · iapply (launch_yp c 0 1); iexact Hy0
  isplitl [H2]; · iapply (launch_xp c 2 NA); iexact H2
  isplitl [H4]; · iapply (launch_yp c 4 NA); iexact H4
  isplitl [H8]; · iapply (launch_xp c 8 NB); iexact H8
  isplitl [H9]; · iapply (launch_xp c 9 NB); iexact H9
  iapply (launch_xp c 10 NB); iexact H10

end Cert.Kernel.Mm

end
-- ==== Proof.BitsLaunch.lean ====
/-
  The launch: the protocol's ghost state is minted for all cells of all devices at once, each device's cells' invariants are
  allocated over its ten own semaphores and its barrier semaphore at zero, the duty tokens are dealt to the devices that
  pay them (across the x axis and across the y axis), the credit the peers owe a device's cells is read off what each
  device owes, and the launch theorem turns the four body obligations into a run of the whole program.
-/
import proofs.«900556_g7700000000000557_dist_matmul_kn_xy_m768_n768_k384_v7x_xy2x2_f32_1_alg».proof.Proof.BitsBody
import proofs.«900556_g7700000000000557_dist_matmul_kn_xy_m768_n768_k384_v7x_xy2x2_f32_1_alg».proof.Proof.BitsLevels
import proofs.«900556_g7700000000000557_dist_matmul_kn_xy_m768_n768_k384_v7x_xy2x2_f32_1_alg».proof.Proof.BitsCredit

noncomputable section

namespace Cert.Kernel.Mm

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 11 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl
/-- All 44 cells: eleven on each of the four devices. -/
def allCells : Finset (GSem nD τ sig) := Finset.univ.map ⟨kcell, kcell_injective⟩

/-- The duty tokens as minted, by owner: of each of a device's eleven cells the duty false of round 0, and of its barrier
    cell the duty true besides. -/
abbrev tokOf (cj : Dev nD × (Fin 11 ⊕ Unit)) : GSem nD τ sig × ℕ × Bool := match cj.2 with
  | .inl k => (cell cj.1 k, 0, false)
  | .inr _ => (cell cj.1 0, 0, true)
theorem tokOf_injective : Function.Injective (tokOf : Dev nD × (Fin 11 ⊕ Unit) → GSem nD τ sig × ℕ × Bool) := by
  rintro ⟨c, j⟩ ⟨c', j'⟩ h
  have h1 : c = c' := by
    have := congrArg (fun x : GSem nD τ sig × ℕ × Bool => x.1.1.1) h
    rcases j with k | u <;> rcases j' with k' | u' <;> exact this
  subst h1
  rcases j with k | u <;> rcases j' with k' | u'
  · have h2 : k = k' := csem_injective (congrArg (fun x : GSem nD τ sig × ℕ × Bool => x.1.2) h)
    subst h2; rfl
  · exact absurd (congrArg (fun x : GSem nD τ sig × ℕ × Bool => x.2.2) h) (fun h' => by cases h')
  · exact absurd (congrArg (fun x : GSem nD τ sig × ℕ × Bool => x.2.2) h) (fun h' => by cases h')
  · rfl
/-- All 48 tokens. -/
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device c's own cells. -/
def toks (c : Dev nD) : sProp 𝕄 :=
  iprop((bigSep Finset.univ fun k : Fin 11 => dutyTok ER (cell c k) 0 false) ∗ dutyTok ER (cell c 0) 0 true)

/-- What the launch element gives device c: its eleven cells' round states at counter zero, its positions with the marks
    that round 0 is reached, and its own cells' tokens. -/
def G (c : Dev nD) : sProp 𝕄 :=
  iprop((bigSep Finset.univ fun k : Fin 11 => roundState ER (Rd m) (kcell (c, k)) 0)
    ∗ (bigSep Finset.univ fun k : Fin 11 => iprop(atPos ER (kcell (c, k)) 0 ∅ 0 ∗ reached ER (kcell (c, k)) 0)) ∗ toks c)

/-- What all devices' counters at zero make of it. -/
def G' (c : Dev nD) : sProp 𝕄 := iprop(∃ K, ghost m K c)

theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 11 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_sum, bigSep_univ_of_subsingleton ()]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants allocated -/

/-- The barrier semaphore is the one semaphore that is not scoped. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

/-- The ten own counters and the barrier's are the eleven cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [unscopedSems0_eq, bigSep_fin_succ]
  unfold Pipeline.ownSems0
  iintro ⟨Ho, HB⟩
  isplitl [HB]; · iexact HB
  iexact Ho

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 11 => iprop(∃ κ : ℕ, cellInv ER (Rd m) κ (kcell (c, k))))
          ∗ (bigSep Finset.univ fun k : Fin 11 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER (Rd m) (kcell (c, k)) 0)
      ⊢ (|={Set.univ}=> bigSep Finset.univ fun k : Fin 11 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay them -/

/-- A barrier's token false, and the tokens of the receive cells of the x-copy and of the three B chunks, go across the x
    axis; a barrier's token true and the token of the y-relay's receive cell go across the y axis; the five send cells'
    tokens stay. -/
theorem toks_dealt : (bigSep Finset.univ fun c : Dev nD => (toks c : sProp 𝕄)) ⊢ bigSep Finset.univ fun c : Dev nD => payToks c := by
  unfold toks payToks
  simp only [bigSep_fin11, bigSep_sep']
  rw [bigSep_univ_equiv xswap (fun c : Dev nD => (dutyTok ER (cell c 0) 0 false : sProp 𝕄)),
    bigSep_univ_equiv yswap (fun c : Dev nD => (dutyTok ER (cell c 0) 0 true : sProp 𝕄)),
    bigSep_univ_equiv xswap (fun c : Dev nD => (dutyTok ER (cell c 2) 0 false : sProp 𝕄)),
    bigSep_univ_equiv yswap (fun c : Dev nD => (dutyTok ER (cell c 4) 0 false : sProp 𝕄)),
    bigSep_univ_equiv xswap (fun c : Dev nD => (dutyTok ER (cell c 8) 0 false : sProp 𝕄)),
    bigSep_univ_equiv xswap (fun c : Dev nD => (dutyTok ER (cell c 9) 0 false : sProp 𝕄)),
    bigSep_univ_equiv xswap (fun c : Dev nD => (dutyTok ER (cell c 10) 0 false : sProp 𝕄))]
  iintro ⟨⟨H0, H1, H2, H3, H4, H5, H6, H7, H8, H9, H10⟩, Ht⟩
  isplitl [H0]; · iexact H0
  isplitl [Ht]; · iexact Ht
  isplitl [H2]; · iexact H2
  isplitl [H4]; · iexact H4
  isplitl [H8]; · iexact H8
  isplitl [H9]; · iexact H9
  isplitl [H10]; · iexact H10
  isplitl [H1]; · iexact H1
  isplitl [H3]; · iexact H3
  isplitl [H5]; · iexact H5
  isplitl [H6]; · iexact H6
  iexact H7

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 11 → ℕ) (c : Dev nD) : iprop(records m K ∗ positions c ∗ payToks c) ⊢ G' m c := by
  unfold G' ghost
  iintro H
  iexists K
  iexact H

theorem regroup :
    (bigSep Finset.univ fun c : Dev nD => iprop((bigSep Finset.univ fun k : Fin 11 => iprop(∃ κ : ℕ, cellInv ER (Rd m) κ (kcell (c, k))))
          ∗ (bigSep Finset.univ fun k : Fin 11 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 11 => iprop(∃ κ : ℕ, cellInv ER (Rd m) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (Rd m) κ (kcell ck) : sProp 𝕄))) $$ HI
  icases HK with ⟨%K, #HI⟩
  ihave Htk := (toks_dealt (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

/-- All devices' own and barrier counters at zero, at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch closed Pipeline.ownSems0
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the four devices' program terminates, nothing
    faulting, with each windowed array at the proof data's final contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.Mm

end
-- ==== Proof.FrameBits.lean ====
/-
  The word-level program's frame: the same run, at the word instance, with the values dropped — an argument window's array
  is never written back.
-/
import proofs.«900556_g7700000000000557_dist_matmul_kn_xy_m768_n768_k384_v7x_xy2x2_f32_1_alg».proof.Proof.BitsLaunch
import proofs.«900556_g7700000000000557_dist_matmul_kn_xy_m768_n768_k384_v7x_xy2x2_f32_1_alg».proof.Defs

noncomputable section

namespace Cert.Proof.ClaimsBits

open Cert.Kernel Cert.Kernel.Gen Cert.Kernel.Mm
open Idealize.ShloMosaic Idealize.ShloMosaic.TcCoe Idealize.SL.Sem
open Idealize.ShloMosaic.Pipeline (Dat)

/-- The kernel as printed runs and leaves its argument arrays unchanged. -/
theorem frame_p [hKernel : Cert.Kernel.Facts] [hPre : Cert.Pre_finite_inputs_Kernel.Facts] : Cert.frame_Kernel :=
  fun m g _ => (θ_run (Cert.Kernel.defs (F := Bits)) _ _).mono
    (fun r h c => ⟨(h c 0).trans ((dats m g 0 c).arrAt_in 0 rfl _), (h c 1).trans ((dats m g 0 c).arrAt_in 1 rfl _)⟩)
    (Cert.Kernel.Mm.run_main (F := Bits) m g)

end Cert.Proof.ClaimsBits

end
-- ==== Proof.lean ====
/-
  A matrix product A · B computed on a 2 × 2 mesh of four devices against the one-device product. Device (x, y) holds the
  x-th block of columns of A and the (x, y) block of B, and must end with the y-th block of columns of A · B. It multiplies
  its own blocks; it receives from the device across the x axis that device's B block (three column chunks) and that
  device's A block — one half of rows straight from it, the other half relayed by the device across the y axis, which
  received it from ITS neighbour across x — and adds the second product: the sum over the whole contraction axis split in
  its two halves. The devices meet only through signals and remote copies: an entry handshake on the barrier semaphore
  (each device signals both neighbours and waits for both) hands each sender the part of the receiver's buffers it will
  write; every copy's landing hands the receiver the landed rows or columns at their final contents; every wait is at a
  level below everything the waiter still owes, which is the whole deadlock argument. The frames are that run with the
  values dropped; narrowing to bf16 is the identity over the extended reals, so the two idealized programs agree.
-/
import proofs.«900556_g7700000000000557_dist_matmul_kn_xy_m768_n768_k384_v7x_xy2x2_f32_1_alg».proof.Defs
import proofs.«900556_g7700000000000557_dist_matmul_kn_xy_m768_n768_k384_v7x_xy2x2_f32_1_alg».proof.Proof.Gen.Kernel
import proofs.«900556_g7700000000000557_dist_matmul_kn_xy_m768_n768_k384_v7x_xy2x2_f32_1_alg».proof.Proof.Gen.KernelIdeal
import proofs.«900556_g7700000000000557_dist_matmul_kn_xy_m768_n768_k384_v7x_xy2x2_f32_1_alg».proof.Proof.Gen.ReferenceIdeal
import proofs.«900556_g7700000000000557_dist_matmul_kn_xy_m768_n768_k384_v7x_xy2x2_f32_1_alg».proof.Proof.Gen.Pre_finite_inputs_Kernel
import proofs.«900556_g7700000000000557_dist_matmul_kn_xy_m768_n768_k384_v7x_xy2x2_f32_1_alg».proof.Proof.Gen.Pre_finite_inputs_ReferenceIdeal
import proofs.«900556_g7700000000000557_dist_matmul_kn_xy_m768_n768_k384_v7x_xy2x2_f32_1_alg».proof.Proof.Claims
import proofs.«900556_g7700000000000557_dist_matmul_kn_xy_m768_n768_k384_v7x_xy2x2_f32_1_alg».proof.Proof.FrameBits

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.ClaimsBits.frame_p, Cert.Proof.Claims.frame_pi, Cert.Proof.Claims.frame_ri, trivial, Cert.Proof.Claims.algebraic⟩

end Cert.Proof

end
